-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S512x80 : S_.BroadcastsInDim S512x80 (![] : Fin 0 → Fin S512x80.rank)
  reducesTo_S512x80_S_d0_1 : S512x80.ReducesTo [0, 1] S_
  bcast_S_S1x512x64 : S_.BroadcastsInDim S1x512x64 (![] : Fin 0 → Fin S1x512x64.rank)
  reducesTo_S1x512x64_S_d0_1_2 : S1x512x64.ReducesTo [0, 1, 2] S_
  bcast_S_S80 : S_.BroadcastsInDim S80 (![] : Fin 0 → Fin S80.rank)
  reducesTo_S80_S_d0 : S80.ReducesTo [0] S_

variable [Facts]

def fn_part1 {F : FTy → Type} [FloatOps F] (main_arg4 : FVec F S80 .f32) (main_v13 : IVec S_ 1) (main_v16 : IVec S80 1) : IVec S_ 1 :=
  let main_c_5 : IVec S_ 1 := constantI S_ 1 1#1
  let main_v17 : IVec S_ 1 := (fun x v => Host.reduce IntOp.andi x v reducesTo_S80_S_d0 h_S_) main_v16 main_c_5
  let main_v18 : IVec S_ 1 := andi main_v13 main_v17
  let main_v19 : FVec F S80 .f32 := Host.absf main_arg4
  let main_cst_6 : FVec F S_ .f32 := constant S_ .f32 0x7F800000#32
  let main_v20 : FVec F S80 .f32 := broadcastInDim S80 ![] bcast_S_S80 main_cst_6
  let main_v21 : IVec S80 1 := cmpf .olt main_v19 main_v20
  let main_c_7 : IVec S_ 1 := constantI S_ 1 1#1
  let main_v22 : IVec S_ 1 := (fun x v => Host.reduce IntOp.andi x v reducesTo_S80_S_d0 h_S_) main_v21 main_c_7
  let main_v23 : IVec S_ 1 := andi main_v18 main_v22
  main_v23

def fn {F : FTy → Type} [FloatOps F] (main_arg0 : FVec F S64x2048x512 .f32) (main_arg1 : FVec F S512x80 .f32) (main_arg2 : FVec F S1x512x64 .f32) (main_arg3 : FVec F S80 .f32) (main_arg4 : FVec F S80 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S512x80 .f32 := Host.absf main_arg1
  let main_cst_0 : FVec F S_ .f32 := constant S_ .f32 0x7F800000#32
  let main_v5 : FVec F S512x80 .f32 := broadcastInDim S512x80 ![] bcast_S_S512x80 main_cst_0
  let main_v6 : IVec S512x80 1 := cmpf .olt main_v4 main_v5
  let main_c_1 : IVec S_ 1 := constantI S_ 1 1#1
  let main_v7 : IVec S_ 1 := (fun x v => Host.reduce IntOp.andi x v reducesTo_S512x80_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  let main_v14 : FVec F S80 .f32 := Host.absf main_arg3
  let main_cst_4 : FVec F S_ .f32 := constant S_ .f32 0x7F800000#32
  let main_v15 : FVec F S80 .f32 := broadcastInDim S80 ![] bcast_S_S80 main_cst_4
  let main_v16 : IVec S80 1 := cmpf .olt main_v14 main_v15
  fn_part1 (F := F) main_arg4 main_v13 main_v16
-- ==== Kernel.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S1x80 : Shape := ⟨2, ![1, 80]⟩
abbrev S512x64 : Shape := ⟨2, ![512, 64]⟩
abbrev S1x2048x512 : Shape := ⟨3, ![1, 2048, 512]⟩
abbrev S2048x512 : Shape := ⟨2, ![2048, 512]⟩
abbrev S2048x80 : Shape := ⟨2, ![2048, 80]⟩
abbrev S64x512x64 : Shape := ⟨3, ![64, 512, 64]⟩
abbrev S2048 : Shape := ⟨1, ![2048]⟩
abbrev S2048x1 : Shape := ⟨2, ![2048, 1]⟩
abbrev S2048x64 : Shape := ⟨2, ![2048, 64]⟩
abbrev S64 : Shape := ⟨1, ![64]⟩
abbrev S1x64 : Shape := ⟨2, ![1, 64]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x32768 : Shape := ⟨2, ![64, 32768]⟩

abbrev nBuf : Space → Nat
  | .hbm => 12
  | .vmem => 17
  | .smem => 0
  | _ => 0

abbrev bufTy : (tb : Table) → Fin (tcTables nBuf tb) → BufTy
  | .hbm, ⟨0, _⟩ => ⟨S64x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S1x80, .f32⟩
  | .hbm, ⟨6, _⟩ => ⟨S1x80, .f32⟩
  | .hbm, ⟨7, _⟩ => ⟨S512x64, .f32⟩
  | .hbm, ⟨8, _⟩ => ⟨S1x80, .f32⟩
  | .hbm, ⟨9, _⟩ => ⟨S1x80, .f32⟩
  | .hbm, ⟨10, _⟩ => ⟨S64x512x64, .f32⟩
  | .hbm, ⟨11, _⟩ => ⟨S64x32768, .f32⟩
  | .local _ .vmem, ⟨0, _⟩ => ⟨S1x2048x512, .f32⟩
  | .local _ .vmem, ⟨1, _⟩ => ⟨S1x2048x512, .f32⟩
  | .local _ .vmem, ⟨2, _⟩ => ⟨S512x80, .f32⟩
  | .local _ .vmem, ⟨3, _⟩ => ⟨S1x80, .f32⟩
  | .local _ .vmem, ⟨4, _⟩ => ⟨S1x80, .f32⟩
  | .local _ .vmem, ⟨5, _⟩ => ⟨S1x80, .f32⟩
  | .local _ .vmem, ⟨6, _⟩ => ⟨S1x80, .f32⟩
  | .local _ .vmem, ⟨7, _⟩ => ⟨S1x80, .f32⟩
  | .local _ .vmem, ⟨8, _⟩ => ⟨S1x80, .f32⟩
  | .local _ .vmem, ⟨9, _⟩ => ⟨S1x2048x512, .f32⟩
  | .local _ .vmem, ⟨10, _⟩ => ⟨S1x2048x512, .f32⟩
  | .local _ .vmem, ⟨11, _⟩ => ⟨S512x80, .f32⟩
  | .local _ .vmem, ⟨12, _⟩ => ⟨S512x64, .f32⟩
  | .local _ .vmem, ⟨13, _⟩ => ⟨S1x80, .f32⟩
  | .local _ .vmem, ⟨14, _⟩ => ⟨S1x80, .f32⟩
  | .local _ .vmem, ⟨15, _⟩ => ⟨S1x512x64, .f32⟩
  | .local _ .vmem, ⟨16, _⟩ => ⟨S1x512x64, .f32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v24 : BitVec 1 := Scalar.cmpi .eq arg0 c63_i32
  let v25 : BitVec 32 := Scalar.extui v24
  let c0_i32_15 : BitVec 32 := 0#32
  let v26 : BitVec 1 := Scalar.cmpi .ne v25 c0_i32_15
  v26

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x80 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x80 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x80 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x80 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x80 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x512x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S80_S1x80 : S80.ShapeCasts S1x80
  shapeCasts_S1x512x64_S512x64 : S1x512x64.ShapeCasts S512x64
  inb_S1x80_S1x80_0_0 : ∀ a, (![0, 0] : Fin 2 → Nat) a + S1x80.size a ≤ S1x80.size a
  h_S1x80 : 0 < S1x80.numel
  shapeCasts_S1x80_S1x80 : S1x80.ShapeCasts S1x80
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  bitsLt_bf16_f32 : FTy.bits .bf16 < FTy.bits .f32
  inb_S512x80_S512x80_0_0 : ∀ a, (![0, 0] : Fin 2 → Nat) a + S512x80.size a ≤ S512x80.size a
  h_S512x80 : 0 < S512x80.numel
  reduces_S2048x80_S80 : S2048x80.Reduces [0] S80
  broadcasts_S1x80_S2048x80 : S1x80.Broadcasts S2048x80
  reduces_S2048x80_S2048 : S2048x80.Reduces [1] S2048
  shapeCasts_S2048_S2048x1 : S2048.ShapeCasts S2048x1
  broadcasts_S2048x1_S2048x80 : S2048x1.Broadcasts S2048x80
  slices_S2048x80_o0_0_S2048x64 : S2048x80.Slices ![0, 0] S2048x64
  reduces_S2048x64_S64 : S2048x64.Reduces [0] S64
  shapeCasts_S64_S1x64 : S64.ShapeCasts S1x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  broadcasts_S1x64_S512x64 : S1x64.Broadcasts S512x64
  reduces_S512x64_S64 : S512x64.Reduces [0] S64
  reduces_S512x64_S512 : S512x64.Reduces [1] S512
  shapeCasts_S512_S512x1 : S512.ShapeCasts S512x1
  reduces_S512x1_S1 : S512x1.Reduces [0] S1
  shapeCasts_S1_S1x1 : S1.ShapeCasts S1x1
  broadcasts_S1x1_S512x64 : S1x1.Broadcasts S512x64
  inb_S1x512x64_S1x512x64_0_0_0 : ∀ a, (![0, 0, 0] : Fin 3 → Nat) a + S1x512x64.size a ≤ S1x512x64.size a
  h_S1x512x64 : 0 < S1x512x64.numel
  shapeCasts_S512x64_S1x512x64 : S512x64.ShapeCasts S1x512x64
  shapeCasts_S64x512x64_S64x32768 : S64x512x64.ShapeCasts S64x32768
  dot_S2048x512_S512x80_S2048x80_1_0_0_1_n_n_wf : DotDims.WF S2048x512 S512x80 S2048x80 [1] [0] [0] [1] [] []
  dot_S2048x512_S2048x64_S512x64_0_0_1_1_n_n_wf : DotDims.WF S2048x512 S2048x64 S512x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S64x2048x512.size a
  hwx0_0 : ∀ i : grid0.Coords, EltTy.bits .f32 = 32 ∨ (Rect.block (s := S64x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x80.size a ≤ S512x80.size a
  hwx0_1 : ∀ i : grid0.Coords, EltTy.bits .f32 = 32 ∨ (Rect.block (s := S512x80) S512x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x80.size a ≤ S1x80.size a
  hwx0_2 : ∀ i : grid0.Coords, EltTy.bits .f32 = 32 ∨ (Rect.block (s := S1x80) S1x80.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x80.size a ≤ S1x80.size a
  hwx0_3 : ∀ i : grid0.Coords, EltTy.bits .f32 = 32 ∨ (Rect.block (s := S1x80) S1x80.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x80.size a ≤ S1x80.size a
  hwx0_4 : ∀ i : grid0.Coords, EltTy.bits .f32 = 32 ∨ (Rect.block (s := S1x80) S1x80.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x80.size a ≤ S1x80.size a
  hwx0_5 : ∀ i : grid0.Coords, EltTy.bits .f32 = 32 ∨ (Rect.block (s := S1x80) S1x80.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S64x2048x512.size a
  hwx1_0 : ∀ i : grid1.Coords, EltTy.bits .f32 = 32 ∨ (Rect.block (s := S64x2048x512) S1x2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x80.size a ≤ S512x80.size a
  hwx1_1 : ∀ i : grid1.Coords, EltTy.bits .f32 = 32 ∨ (Rect.block (s := S512x80) S512x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .f32 = 32 ∨ (Rect.block (s := S512x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x80.size a ≤ S1x80.size a
  hwx1_3 : ∀ i : grid1.Coords, EltTy.bits .f32 = 32 ∨ (Rect.block (s := S1x80) S1x80.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x80.size a ≤ S1x80.size a
  hwx1_4 : ∀ i : grid1.Coords, EltTy.bits .f32 = 32 ∨ (Rect.block (s := S1x80) S1x80.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x64.size a ≤ S64x512x64.size a
  hwx1_5 : ∀ i : grid1.Coords, EltTy.bits .f32 = 32 ∨ (Rect.block (s := S64x512x64) S1x512x64.size (cc1_transform_5 i) (hinb1_5 i)).WholeWords (EltTy.packing .f32)

variable [Facts₀]

def dot_S2048x512_S512x80_S2048x80_1_0_0_1_n_n : DotDims S2048x512 S512x80 S2048x80 where
  lhsContracting := [1]
  rhsContracting := [0]
  lhsNonContracting := [0]
  rhsNonContracting := [1]
  lhsBatch := []
  rhsBatch := []
  wf := dot_S2048x512_S512x80_S2048x80_1_0_0_1_n_n_wf
def dot_S2048x512_S2048x64_S512x64_0_0_1_1_n_n : DotDims S2048x512 S2048x64 S512x64 where
  lhsContracting := [0]
  rhsContracting := [0]
  lhsNonContracting := [1]
  rhsNonContracting := [1]
  lhsBatch := []
  rhsBatch := []
  wf := dot_S2048x512_S2048x64_S512x64_0_0_1_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x80.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x80.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x80.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x80.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x80.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x80.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x2048x512 : Shape := ⟨3, ![64, 2048, 512]⟩
abbrev S512x80 : Shape := ⟨2, ![512, 80]⟩
abbrev S1x512x64 : Shape := ⟨3, ![1, 512, 64]⟩
abbrev S80 : Shape := ⟨1, ![80]⟩
abbrev S131072x512 : Shape := ⟨2, ![131072, 512]⟩
abbrev S131072x80 : Shape := ⟨2, ![131072, 80]⟩
abbrev S_ : Shape := ⟨0, ![]⟩
abbrev S1x80 : Shape := ⟨2, ![1, 80]⟩
abbrev S131072 : Shape := ⟨1, ![131072]⟩
abbrev S131072x1 : Shape := ⟨2, ![131072, 1]⟩
abbrev S131072x64 : Shape := ⟨2, ![131072, 64]⟩
abbrev S64x2048x64 : Shape := ⟨3, ![64, 2048, 64]⟩
abbrev S64x64 : Shape := ⟨2, ![64, 64]⟩
abbrev S64x1x64 : Shape := ⟨3, ![64, 1, 64]⟩
abbrev S64x512x64 : Shape := ⟨3, ![64, 512, 64]⟩
abbrev S64x32768 : Shape := ⟨2, ![64, 32768]⟩
abbrev S64 : Shape := ⟨1, ![64]⟩
abbrev S64x1 : Shape := ⟨2, ![64, 1]⟩

abbrev nBuf : Space → Nat
  | .hbm => 82
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S512x80, .f32⟩
  | .hbm, ⟨2, _⟩ => ⟨S1x512x64, .f32⟩
  | .hbm, ⟨3, _⟩ => ⟨S80, .f32⟩
  | .hbm, ⟨4, _⟩ => ⟨S80, .f32⟩
  | .hbm, ⟨5, _⟩ => ⟨S131072x512, .f32⟩
  | .hbm, ⟨6, _⟩ => ⟨S131072x80, .f32⟩
  | .hbm, ⟨7, _⟩ => ⟨S_, .f32⟩
  | .hbm, ⟨8, _⟩ => ⟨S80, .f32⟩
  | .hbm, ⟨9, _⟩ => ⟨S_, .f32⟩
  | .hbm, ⟨10, _⟩ => ⟨S80, .f32⟩
  | .hbm, ⟨11, _⟩ => ⟨S80, .f32⟩
  | .hbm, ⟨12, _⟩ => ⟨S1x80, .f32⟩
  | .hbm, ⟨13, _⟩ => ⟨S131072x80, .f32⟩
  | .hbm, ⟨14, _⟩ => ⟨S131072x80, .f32⟩
  | .hbm, ⟨15, _⟩ => ⟨S131072x80, .f32⟩
  | .hbm, ⟨16, _⟩ => ⟨S_, .f32⟩
  | .hbm, ⟨17, _⟩ => ⟨S80, .f32⟩
  | .hbm, ⟨18, _⟩ => ⟨S_, .f32⟩
  | .hbm, ⟨19, _⟩ => ⟨S80, .f32⟩
  | .hbm, ⟨20, _⟩ => ⟨S80, .f32⟩
  | .hbm, ⟨21, _⟩ => ⟨S1x80, .f32⟩
  | .hbm, ⟨22, _⟩ => ⟨S131072x80, .f32⟩
  | .hbm, ⟨23, _⟩ => ⟨S131072x80, .f32⟩
  | .hbm, ⟨24, _⟩ => ⟨S_, .f32⟩
  | .hbm, ⟨25, _⟩ => ⟨S80, .f32⟩
  | .hbm, ⟨26, _⟩ => ⟨S80, .f32⟩
  | .hbm, ⟨27, _⟩ => ⟨S80, .f32⟩
  | .hbm, ⟨28, _⟩ => ⟨S1x80, .f32⟩
  | .hbm, ⟨29, _⟩ => ⟨S131072x80, .f32⟩
  | .hbm, ⟨30, _⟩ => ⟨S131072x80, .f32⟩
  | .hbm, ⟨31, _⟩ => ⟨S1x80, .f32⟩
  | .hbm, ⟨32, _⟩ => ⟨S131072x80, .f32⟩
  | .hbm, ⟨33, _⟩ => ⟨S131072x80, .f32⟩
  | .hbm, ⟨34, _⟩ => ⟨S1x80, .f32⟩
  | .hbm, ⟨35, _⟩ => ⟨S131072x80, .f32⟩
  | .hbm, ⟨36, _⟩ => ⟨S131072x80, .f32⟩
  | .hbm, ⟨37, _⟩ => ⟨S_, .f32⟩
  | .hbm, ⟨38, _⟩ => ⟨S131072, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S131072x1, .f32⟩
  | .hbm, ⟨43, _⟩ => ⟨S131072x80, .f32⟩
  | .hbm, ⟨44, _⟩ => ⟨S131072x80, .f32⟩
  | .hbm, ⟨45, _⟩ => ⟨S131072x80, .f32⟩
  | .hbm, ⟨46, _⟩ => ⟨S_, .f32⟩
  | .hbm, ⟨47, _⟩ => ⟨S131072, .f32⟩
  | .hbm, ⟨48, _⟩ => ⟨S131072x1, .f32⟩
  | .hbm, ⟨49, _⟩ => ⟨S131072x80, .f32⟩
  | .hbm, ⟨50, _⟩ => ⟨S131072x80, .f32⟩
  | .hbm, ⟨51, _⟩ => ⟨S131072x64, .f32⟩
  | .hbm, ⟨52, _⟩ => ⟨S64x2048x64, .f32⟩
  | .hbm, ⟨53, _⟩ => ⟨S_, .f32⟩
  | .hbm, ⟨54, _⟩ => ⟨S64x64, .f32⟩
  | .hbm, ⟨55, _⟩ => ⟨S64x1x64, .f32⟩
  | .hbm, ⟨56, _⟩ => ⟨S64x512x64, .f32⟩
  | .hbm, ⟨57, _⟩ => ⟨S64x512x64, .f32⟩
  | .hbm, ⟨58, _⟩ => ⟨S64x512x64, .f32⟩
  | .hbm, ⟨59, _⟩ => ⟨S64x512x64, .f32⟩
  | .hbm, ⟨60, _⟩ => ⟨S64x512x64, .f32⟩
  | .hbm, ⟨61, _⟩ => ⟨S64x512x64, .f32⟩
  | .hbm, ⟨62, _⟩ => ⟨S_, .f32⟩
  | .hbm, ⟨63, _⟩ => ⟨S64x64, .f32⟩
  | .hbm, ⟨64, _⟩ => ⟨S64x1x64, .f32⟩
  | .hbm, ⟨65, _⟩ => ⟨S64x1x64, .f32⟩
  | .hbm, ⟨66, _⟩ => ⟨S_, .f32⟩
  | .hbm, ⟨67, _⟩ => ⟨S64x1x64, .f32⟩
  | .hbm, ⟨68, _⟩ => ⟨S64x1x64, .f32⟩
  | .hbm, ⟨69, _⟩ => ⟨S64x512x64, .f32⟩
  | .hbm, ⟨70, _⟩ => ⟨S64x512x64, .f32⟩
  | .hbm, ⟨71, _⟩ => ⟨S64x32768, .f32⟩
  | .hbm, ⟨72, _⟩ => ⟨S64x32768, .f32⟩
  | .hbm, ⟨73, _⟩ => ⟨S_, .f32⟩
  | .hbm, ⟨74, _⟩ => ⟨S64, .f32⟩
  | .hbm, ⟨75, _⟩ => ⟨S64x1, .f32⟩
  | .hbm, ⟨76, _⟩ => ⟨S64x1, .f32⟩
  | .hbm, ⟨77, _⟩ => ⟨S_, .f32⟩
  | .hbm, ⟨78, _⟩ => ⟨S64x1, .f32⟩
  | .hbm, ⟨79, _⟩ => ⟨S64x1, .f32⟩
  | .hbm, ⟨80, _⟩ => ⟨S64x32768, .f32⟩
  | .hbm, ⟨81, _⟩ => ⟨S64x32768, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_9 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]

class Facts₀ : Prop where
  shapeCasts_S64x2048x512_S131072x512 : S64x2048x512.ShapeCasts S131072x512
  reducesTo_S131072x80_S80_d0 : S131072x80.ReducesTo [0] S80
  h_S_ : 0 < S_.numel
  bcast_S_S80 : S_.BroadcastsInDim S80 (![] : Fin 0 → Fin S80.rank)
  bcast_S80_S1x80_1 : S80.BroadcastsInDim S1x80 (![1] : Fin 1 → Fin S1x80.rank)
  bcast_S1x80_S131072x80_0_1 : S1x80.BroadcastsInDim S131072x80 (![0, 1] : Fin 2 → Fin S131072x80.rank)
  reducesTo_S131072x80_S131072_d1 : S131072x80.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x80_0_1 : S131072x1.BroadcastsInDim S131072x80 (![0, 1] : Fin 2 → Fin S131072x80.rank)
  slices_S131072x80_S131072x64_0_0 : S131072x80.Slices ![0, 0] S131072x64
  shapeCasts_S131072x64_S64x2048x64 : S131072x64.ShapeCasts S64x2048x64
  reducesTo_S64x2048x64_S64x64_d1 : S64x2048x64.ReducesTo [1] S64x64
  bcast_S64x64_S64x1x64_0_2 : S64x64.BroadcastsInDim S64x1x64 (![0, 2] : Fin 2 → Fin S64x1x64.rank)
  bcast_S64x1x64_S64x512x64_0_1_2 : S64x1x64.BroadcastsInDim S64x512x64 (![0, 1, 2] : Fin 3 → Fin S64x512x64.rank)
  bcast_S1x512x64_S64x512x64_0_1_2 : S1x512x64.BroadcastsInDim S64x512x64 (![0, 1, 2] : Fin 3 → Fin S64x512x64.rank)
  reducesTo_S64x512x64_S64x64_d1 : S64x512x64.ReducesTo [1] S64x64
  bcast_S_S64x1x64 : S_.BroadcastsInDim S64x1x64 (![] : Fin 0 → Fin S64x1x64.rank)
  shapeCasts_S64x512x64_S64x32768 : S64x512x64.ShapeCasts S64x32768
  reducesTo_S64x32768_S64_d1 : S64x32768.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x32768_0_1 : S64x1.BroadcastsInDim S64x32768 (![0, 1] : Fin 2 → Fin S64x32768.rank)
  dot_S131072x512_S512x80_S131072x80_1_0_0_1_n_n_wf : DotDims.WF S131072x512 S512x80 S131072x80 [1] [0] [0] [1] [] []
  dot_S64x2048x512_S64x2048x64_S64x512x64_1_1_2_2_0_0_wf : DotDims.WF S64x2048x512 S64x2048x64 S64x512x64 [1] [1] [2] [2] [0] [0]

variable [Facts₀]

def dot_S131072x512_S512x80_S131072x80_1_0_0_1_n_n : DotDims S131072x512 S512x80 S131072x80 where
  lhsContracting := [1]
  rhsContracting := [0]
  lhsNonContracting := [0]
  rhsNonContracting := [1]
  lhsBatch := []
  rhsBatch := []
  wf := dot_S131072x512_S512x80_S131072x80_1_0_0_1_n_n_wf
def dot_S64x2048x512_S64x2048x64_S64x512x64_1_1_2_2_0_0 : DotDims S64x2048x512 S64x2048x64 S64x512x64 where
  lhsContracting := [1]
  rhsContracting := [1]
  lhsNonContracting := [2]
  rhsNonContracting := [2]
  lhsBatch := [0]
  rhsBatch := [0]
  wf := dot_S64x2048x512_S64x2048x64_S64x512x64_1_1_2_2_0_0_wf

class Facts : Prop extends Facts₀ where

variable [Facts]
-- ==== Proof.Kernel.Reg0.lean ====
/- The first pallas_call (the statistics kernel, 64 grid points over the batch) as a pipeline region entered at ANY
   contents V of the core's buffers: its proof data, the body obligation at every point, and how its invariant starts
   from and gives back the scoped rest. The two [1, 80] scratch rows carry the running column sums from point to point;
   the two output rows are written at the last point only. -/
import proofs.«145796_j17514876633353_1_alg».proof.Proof.Gen.Kernel.Launch
import proofs.«145796_j17514876633353_1_alg».proof.Proof.Gen.Kernel.Skeleton
import proofs.«145796_j17514876633353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the [1, 2048, 512] block of x) holds its block at every point, for any proof data whose array is
    V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (clusters, [512, 80]) is fetched at the first point only; unfetched, its block index has not moved,
    so it holds its block at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the [1, 80] weight row): the same. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the [1, 80] bias row): the same. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (zero the running sums), from the grid coordinate: i 0 = 0. -/
abbrev cond0_0 (i : grid0.Coords) : Prop := (Scalar.cmpi .ne (Scalar.extui (Scalar.cmpi .eq (BitVec.ofNat 32 (i 0).val) 0#32)) 0#32) = 1#1
/-- It holds at point 0 of the 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- The condition of the body's second conditional (compute and store the two output rows): i 0 = 63. -/
abbrev cond0_1 (i : grid0.Coords) : Prop := k0_cond2 i = 1#1
/-- It holds at point 63 of the 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point (case A) both outputs are idle and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the middle points (case B) both outputs are idle and not written back. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last point (case C) both outputs are live: the body stores them whole. -/
theorem liveAt0_4_C : ∀ t : Fin cfg0.N, ¬cond0_0 (grid0.coords t) → cond0_1 (grid0.coords t) → cfg0.idle 4 (grid0.coords t) = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated. -/
abbrev VO0_4 : View sig .tc .vmem S1x80 .f32 := (Memref.whole cc0_stg4_0 : Memref sig .tc .vmem S1x80 .f32).view
abbrev VO0_5 : View sig .tc .vmem S1x80 .f32 := (Memref.whole cc0_stg5_0 : Memref sig .tc .vmem S1x80 .f32).view
/-- Each window's current staging memref at point t, and its wholeness. -/
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x80 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x80 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x80 .f32 := win0_5.stage (cfg0.slots t 5)
abbrev hs0_5 (t : Fin cfg0.N) : (ms0_5 t).IsWhole := hstage0_5 ((cfg0.slots t 5).cast nbuf0_5)
/-- The two scratch rows (the running column sums of the logits and of their squares), whole scoped buffers. -/
abbrev scM0_0 : Memref sig .tc .vmem S1x80 .f32 := Memref.whole cc0_scratch0
abbrev scM0_1 : Memref sig .tc .vmem S1x80 .f32 := Memref.whole cc0_scratch1
/-- The same as views: what they hold is stated through these. -/
abbrev VS0_0 : View sig .tc .vmem S1x80 .f32 := scM0_0.view
abbrev VS0_1 : View sig .tc .vmem S1x80 .f32 := scM0_1.view

/-- The eight staging buffers of the second pallas_call, which ride along at some contents each. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant before the first point, conjunct by conjunct: the two scratch rows owned at some contents,
    the other pallas_call's eight staging buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther0 c) ∗ (∃ r, prngReg c r)) := by
  unfold Pipeline.ΦA; rw [scopedRest0_eq]; simp only [scM0_0, scM0_1, owns_whole]; try rfl

/-! ## The kernel body on any staging memrefs, case by case -/

set_option maxHeartbeats 1000000 in
/-- CASE B (a middle point: neither conditional taken). On whole memrefs, the four inputs at their contents, the two
    outputs at contents handed back untouched, the two scratch rows at what the point before left (xs0, xs1), the body
    runs to the continuation holding the inputs and outputs as they were and each scratch row with its pieces written:
    the running sums plus this block's column sums. The piece lists are the witness. -/
noncomputable def kernelRun0_B (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (xi4 : Vec F S1x80 .f32) (xi5 : Vec F S1x80 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- CASE A (the first point: the first conditional taken, the second not). The two scratch rows come at anything: the
    body zeroes them, then adds this block's column sums. Inputs and outputs as in case B. -/
noncomputable def kernelRun0_A (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (xi4 : Vec F S1x80 .f32) (xi5 : Vec F S1x80 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- CASE C (the last point: the first conditional not taken, the second taken). The scratch rows come at what the
    point before left; the body adds this block's column sums, then from the two totals and the weight and bias rows
    computes the scale and shift rows and stores them whole into the two outputs, which come at anything. -/
noncomputable def kernelRun0_C (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

/-! ## What each case leaves in the outputs and in the two scratch rows -/

/-- Case A (the first point) stores nothing into output 4: no pieces, a placeholder nothing consults (the window is idle
    there and not written back). -/
def out0_A_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A (the first point) stores nothing into output 5: no pieces, a placeholder nothing consults (the window is idle
    there and not written back). -/
def out0_A_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A's pieces for scratch row 0 cover it. -/
theorem scover0_A_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) (y : S1x80.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x80.size (by sl_kernel_rfl) y

/-- What case A leaves in scratch row 0: its pieces read back over junk. -/
def sout0_A_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

/-- Case A's pieces for scratch row 1 cover it. -/
theorem scover0_A_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) (y : S1x80.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x80.size (by sl_kernel_rfl) y

/-- What case A leaves in scratch row 1: its pieces read back over junk. -/
def sout0_A_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.2.2.1)

/-- Case B (a middle point) stores nothing into output 4: no pieces, a placeholder nothing consults (the window is idle
    there and not written back). -/
def out0_B_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0 xs1).1)

/-- Case B (a middle point) stores nothing into output 5: no pieces, a placeholder nothing consults (the window is idle
    there and not written back). -/
def out0_B_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0 xs1).2.1)

/-- Case B's pieces for scratch row 0 cover it. -/
theorem scover0_B_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x80.size (by sl_kernel_rfl) y

/-- What case B leaves in scratch row 0: its pieces read back over junk. -/
def sout0_B_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).2.2.1)

/-- Case B's pieces for scratch row 1 cover it. -/
theorem scover0_B_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x80.size (by sl_kernel_rfl) y

/-- What case B leaves in scratch row 1: its pieces read back over junk. -/
def sout0_B_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.2.2.1)

/-- Case C's pieces for output 4 tile its [1, 80] block (one whole store), so they cover it. -/
theorem cover0_C_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x80.size (by sl_kernel_rfl) y

/-- What case C leaves in output 4's staging buffer: its pieces read back over junk. -/
def out0_C_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

/-- Case C's pieces for output 5 tile its [1, 80] block (one whole store), so they cover it. -/
theorem cover0_C_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x80.size (by sl_kernel_rfl) y

/-- What case C leaves in output 5's staging buffer: its pieces read back over junk. -/
def out0_C_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

/-- Case C's pieces for scratch row 0 cover it. -/
theorem scover0_C_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x80.size (by sl_kernel_rfl) y

/-- What case C leaves in scratch row 0: its pieces read back over junk. -/
def sout0_C_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

/-- Case C's pieces for scratch row 1 cover it. -/
theorem scover0_C_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x80.size (by sl_kernel_rfl) y

/-- What case C leaves in scratch row 1: its pieces read back over junk. -/
def sout0_C_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-! ## What the outputs and the scratch rows hold after each point -/

/-- THE ACCUMULATION. After the body at position n: (output 4's buffer, output 5's buffer, scratch row 0, scratch row 1).
    Position 0 is case A; position 63 is case C over what position 62 left in the scratch rows; every other position is
    case B over what the position before left. Both conditions at once is no point of the grid. -/
def outsAt0 (c : Dev nD) : (n : ℕ) → n < cfg0.N → Vec F S1x80 .f32 × Vec F S1x80 .f32 × Vec F S1x80 .f32 × Vec F S1x80 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- outsAt0 at the point of case A. -/
theorem outsAt0_A (c : Dev nD) (t : Fin cfg0.N) (h0 : t.val % 64 = 0) (h1 : ¬t.val % 64 = 63) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- outsAt0 at a point of case B: that case's contents, over what the point before left in the scratch rows. -/
theorem outsAt0_B (c : Dev nD) (t : Fin cfg0.N) (h0 : ¬t.val % 64 = 0) (h1 : ¬t.val % 64 = 63) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- outsAt0 at the point of case C: that case's contents, over what the point before left in the scratch rows. -/
theorem outsAt0_C (c : Dev nD) (t : Fin cfg0.N) (h0 : ¬t.val % 64 = 0) (h1 : t.val % 64 = 63) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n. Before the first point: the scoped rest at anything and the generator
    register at some state. Afterwards: the two scratch rows at what the point before left in them (the running column
    sums), the other pallas_call's eight staging buffers at anything, the register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther0 c) ∗ (∃ r, prngReg c r))

theorem PhiS_zero (c : Dev nD) (n : ℕ) (h : n ≤ cfg0.N) (hz : n = 0) : PhiS V c n h = Pipeline.ΦA spec0 c := by
  subst hz; rfl

/-- After point n (before point n + 1): the scratch rows at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restOther0 c) ∗ (∃ r, prngReg c r)) := rfl

/-- Before a point that is not the first: the scratch rows at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther0 c) ∗ (∃ r, prngReg c r)) := by
  cases n with
  | zero => exact absurd rfl hz
  | succ n => rfl

/-! ## The pipeline's proof data -/

/-- The proof data of pipeline 0 on core c at entry contents V: the arrays as the region finds them; after the body at
    point t each input's buffer at its block and the two outputs' at outsAt0's first two components; the invariant PhiS;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
/-- Every window at the full share; nothing owed before any point; no bound on what the waits have recorded. -/
theorem share0 (c : Dev nD) (w : Fin cfg0.W) : (dat0 V c).q w = fullShare := by dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-- The invariant at a point's start, restated at t.val. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t: the invariant, what the core owes, and the six windows' current buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms say which case the point is in; the
    invariant hands the body the two scratch rows (at anything at the first point, else at what the point before left)
    and takes them back at this point's contents, the pieces covering each row; the eight riding buffers, the register
    and what the core owes pass through unread; an idle output is handed back as found, a stored one at its pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · -- case A: the first point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · exfalso; omega
  · by_cases h1 : t.val % 64 = 63
    · -- case C: the last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    · -- case B: a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped rest back: what the scratch rows hold is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.Kernel.Hand

end
-- ==== Proof.Kernel.Reg1.lean ====
/- The second pallas_call (64 grid points, one batch per point) as a pipeline region entered at ANY contents V of the
   core's buffers. Its body loads five whole blocks (a batch of x, the clusters, clusters2, the scale row, the shift
   row), computes, and stores its one output block whole: what the output's staging buffer holds after the body is one
   pure function of the five input blocks. -/
import proofs.«145796_j17514876633353_1_alg».proof.Proof.Gen.Kernel.Launch
import proofs.«145796_j17514876633353_1_alg».proof.Proof.Gen.Kernel.Skeleton
import proofs.«145796_j17514876633353_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S1x2048x512 := Rect.unit (s := S1x2048x512) ![0, 0, 0] S1x2048x512.size inb_S1x2048x512_S1x2048x512_0_0_0
abbrev r1_1 : Rect S512x80 := Rect.unit (s := S512x80) ![0, 0] S512x80.size inb_S512x80_S512x80_0_0
abbrev r1_2 : Rect S512x64 := Rect.unit (s := S512x64) ![0, 0] S512x64.size inb_S512x64_S512x64_0_0
abbrev r1_3 : Rect S1x80 := Rect.unit (s := S1x80) ![0, 0] S1x80.size inb_S1x80_S1x80_0_0
abbrev r1_5 : Rect S1x512x64 := Rect.unit (s := S1x512x64) ![0, 0, 0] S1x512x64.size inb_S1x512x64_S1x512x64_0_0_0

/-! ## What the body leaves in the output window's buffer -/

/-- The output's staging buffer after the body, from the five input blocks: its one store. The stored value is the
    kernel's payload of the loaded batch of x (x0), clusters (x1), scale row (x3), shift row (x4) and clusters2 (x2). -/
def out1_5 (x0 : Vec F S1x2048x512 .f32) (x1 : Vec F S512x80 .f32) (x2 : Vec F S512x64 .f32) (x3 x4 : Vec F S1x80 .f32) :
    Vec F S1x512x64 .f32 :=
  View.canon [⟨r1_5, k1_pay1 (k1_pay2 (View.ld x0 r1_0) (View.ld x1 r1_1) (View.ld x3 r1_3) (View.ld x4 r1_3) (View.ld x2 r1_2))⟩]

/-- The one store tiles the buffer, so it covers it. -/
theorem cover1_5 (p0 : Vec F S1x512x64 .f32) (y : S1x512x64.Idx) :
    ∃ pc ∈ ([⟨r1_5, p0⟩] : List (View.Piece (Elt F) S1x512x64 .f32)), y ∈ pc.1.set :=
  View.cover_of_tiled [⟨r1_5, p0⟩] S1x512x64.size (by rfl) y

/-! ## The body's triple -/

set_option maxHeartbeats 4000000 in
/-- The kernel body on whole staging memrefs, the inputs' at read contents and the output's at anything, runs to the
    continuation holding the inputs' as they were and the output's at out1_5 of the inputs'. -/
theorem sound_kernel1 (c : Dev nD) (E : Set ℕ) (i : grid1.Coords)
    (arg1 : Memref sig .tc .vmem S1x2048x512 .f32) (harg1 : arg1.IsWhole) (arg2 : Memref sig .tc .vmem S512x80 .f32) (harg2 : arg2.IsWhole)
    (arg3 : Memref sig .tc .vmem S512x64 .f32) (harg3 : arg3.IsWhole) (arg4 : Memref sig .tc .vmem S1x80 .f32) (harg4 : arg4.IsWhole)
    (arg5 : Memref sig .tc .vmem S1x80 .f32) (harg5 : arg5.IsWhole) (arg6 : Memref sig .tc .vmem S1x512x64 .f32) (harg6 : arg6.IsWhole)
    (x0 : Vec F S1x2048x512 .f32) (x1 : Vec F S512x80 .f32) (x2 : Vec F S512x64 .f32) (x3 x4 : Vec F S1x80 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__vlad_kernel i arg1 harg1 arg2 harg2 arg3 harg3 arg4 harg4 arg5 harg5 arg6 harg6) K := by
  simp only [cc1__vlad_kernel_eq_skeleton]; unfold cc1__vlad_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at out1_5 of the input blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/- The program's run, item by item: the three host reshapes, the statistics region, the second region, the final
   reshape. The core's buffer contents at each boundary are a fold from the launch memory: a host stretch applies its
   operations, a region leaves its arrays at what its write-backs fold to and every other buffer as entered. Every weakly
   fair execution terminates with every unscoped buffer at the last boundary's contents; the arguments are read back
   through the fold to their launch contents. -/
import proofs.«145796_j17514876633353_1_alg».proof.Proof.Kernel.Reg0
import proofs.«145796_j17514876633353_1_alg».proof.Proof.Kernel.Reg1
import proofs.«145796_j17514876633353_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the three reshapes (the statistics region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the statistics region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second region's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the final reshape. -/
abbrev B4 : Dev nD → Valuation τ sig (Elt F) := fun c => StableHlo.after hostOps2 (B3 m ρ c)

/-! ### The arguments end as launched: no host operation and no region writes one -/

theorem B1_of (c : Dev nD) (r : Ref sig .tc) (h : r ∉ hostOps0_W) : B1 m ρ c r = B0 m ρ c r :=
  StableHlo.after_of_writes_sub hostOps0 _ hostOps0_writes h
theorem B4_of (c : Dev nD) (r : Ref sig .tc) (h : r ∉ hostOps2_W) : B4 m ρ c r = B3 m ρ c r :=
  StableHlo.after_of_writes_sub hostOps2 _ hostOps2_writes h

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of m ρ c main_arg0 (by decide)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of m ρ c main_arg1 (by decide)
    _ = B2 m ρ c (Proc.devRef .tc main_arg1) := (B3_arr m ρ c 1).trans (((dat1 (E2 m ρ) c).arrAt_in 1 rfl _).trans (A_eq1 (E2 m ρ) c 1))
    _ = B1 m ρ c (Proc.devRef .tc main_arg1) := (B2_arr m ρ c 1).trans (((dat0 (E1 m ρ) c).arrAt_in 1 rfl _).trans (A_eq0 (E1 m ρ) c 1))
    _ = B0 m ρ c (Proc.devRef .tc main_arg1) := B1_of m ρ c main_arg1 (by decide)
    _ = m ((c : Thread nD τ).loc main_arg1) := rfl
theorem B4_bypass (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    B4 m ρ c (Proc.devRef .tc r) = m ((c : Thread nD τ).loc r) :=
  calc B4 m ρ c (Proc.devRef .tc r)
    _ = B3 m ρ c (Proc.devRef .tc r) := B4_of m ρ c r h2
    _ = B2 m ρ c (Proc.devRef .tc r) := B3_of_ne m ρ c r h1
    _ = B1 m ρ c (Proc.devRef .tc r) := B2_of_ne m ρ c r h0
    _ = B0 m ρ c (Proc.devRef .tc r) := B1_of m ρ c r hh
    _ = m ((c : Thread nD τ).loc r) := rfl
theorem B4_main_arg2 (c : Dev nD) : B4 m ρ c (Proc.devRef .tc main_arg2) = m ((c : Thread nD τ).loc main_arg2) :=
  B4_bypass m ρ c main_arg2 (by decide) (by decide) (by decide) (by decide)
theorem B4_main_arg3 (c : Dev nD) : B4 m ρ c (Proc.devRef .tc main_arg3) = m ((c : Thread nD τ).loc main_arg3) :=
  B4_bypass m ρ c main_arg3 (by decide) (by decide) (by decide) (by decide)
theorem B4_main_arg4 (c : Dev nD) : B4 m ρ c (Proc.devRef .tc main_arg4) = m ((c : Thread nD τ).loc main_arg4) :=
  B4_bypass m ρ c main_arg4 (by decide) (by decide) (by decide) (by decide)

/-! ## The proof data family and the thread state -/

/-- Every pipeline's proof data, each at its region's entry contents: a literal match. -/
def pdats : (p : Fin 2) → (c : Dev nD) → Dat τ (Elt F) Unit ℕ (Pipeline.UD sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The statistics region over the thread state: entered from every unscoped buffer at B1, left at B2. Its arrays split out
    of the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun c t => owed0 (E1 m ρ) c t
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (E1 m ρ) c w) (E1 m ρ c) fun w => A_eq0 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun _ _ => Or.inl (by rw [show (pdats m ρ 0 c).recorded 0 = Set.univ from recorded0 (E1 m ρ) c 0]; trivial)
      rw [show (pdats m ρ 0 c).owed 0 = 0 from owed0 (E1 m ρ) c 0]
      iexact HO
    isplitl [Hp]; · iexact Hp
    iexact Hrest
  hin c := by
    refine (?_ : _ ⊢ (Pipeline.ΦA spec0 c : sProp 𝕄)).trans (hin0 (E1 m ρ) c)
    unfold Pipeline.ΦA
    iintro ⟨Hp, -, Hr⟩
    isplitl [Hr]; · iexact Hr
    iexact Hp
  hout c := by
    refine (hout0 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun w => share0 (E1 m ρ) c w)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 0 c).owed (Fin.last _) = 0 from owed0 (E1 m ρ) c _]
    iexact HO

set_option backward.isDefEq.respectTransparency.types false in
/-- The second region over the thread state: entered from every unscoped buffer at B2, left at B3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

/-- The program's four items in order. -/
abbrev items : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
/-- The program is the run of its items. -/
theorem main_run (c : Dev nD) : main (F := F) c = Pipeline.Seg.run (items m ρ) := (main_chain c).trans (by chain_rfl)

set_option backward.isDefEq.respectTransparency.types false in
/-- From any memory with zero counters every weakly fair execution of the program terminates, nothing faulting, and every
    final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj embL defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => (show (iprop(StableHlo.held (c : Thread nD τ) (Pipeline.ucRefs τ sig) (B4 m ρ c) ∗ R c) : sProp 𝕄)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v5) = B4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v5 (by decide)),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.Kernel.Hand

end
-- ==== Proof.KernelIdeal.Reg0.lean ====
/- The first pallas_call (the statistics kernel, 64 grid points over the batch) as a pipeline region entered at ANY
   contents V of the core's buffers: its proof data, the body obligation at every point, and how its invariant starts
   from and gives back the scoped rest. The two [1, 80] scratch rows carry the running column sums from point to point;
   the two output rows are written at the last point only. -/
import proofs.«145796_j17514876633353_1_alg».proof.Proof.Gen.KernelIdeal.Launch
import proofs.«145796_j17514876633353_1_alg».proof.Proof.Gen.KernelIdeal.Skeleton
import proofs.«145796_j17514876633353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it (V). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the [1, 2048, 512] block of x) holds its block at every point, for any proof data whose array is
    V's and whose body leaves the block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (clusters, [512, 80]) is fetched at the first point only; unfetched, its block index has not moved,
    so it holds its block at every point. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the [1, 80] weight row): the same. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3 (the [1, 80] bias row): the same. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (zero the running sums), from the grid coordinate: i 0 = 0. -/
abbrev cond0_0 (i : grid0.Coords) : Prop := (Scalar.cmpi .ne (Scalar.extui (Scalar.cmpi .eq (BitVec.ofNat 32 (i 0).val) 0#32)) 0#32) = 1#1
/-- It holds at point 0 of the 64. -/
theorem hcond0_0 : ∀ t : Fin cfg0.N, cond0_0 (grid0.coords t) ↔ t.val % 64 = 0 :=
  (by decide +kernel : ∀ t : Fin grid0.N, cond0_0 (grid0.coords t) ↔ t.val % 64 = 0)

/-- The condition of the body's second conditional (compute and store the two output rows): i 0 = 63. -/
abbrev cond0_1 (i : grid0.Coords) : Prop := k0_cond2 i = 1#1
/-- It holds at point 63 of the 64. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

/-- The four inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first point (case A) both outputs are idle and not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_5_A : ∀ t : Fin cfg0.N, cond0_0 (grid0.coords t) → ¬cond0_1 (grid0.coords t) → cfg0.idle 5 (grid0.coords t) = true := by decide +kernel
theorem noFlush0_5_A : ∀ t : Fin cfg0.N, cond0_0 (grid0.coords t) → ¬cond0_1 (grid0.coords t) → (cfg0.win 5).flush t = false := by decide +kernel
/-- At the middle points (case B) both outputs are idle and not written back. -/
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem idleAt0_5_B : ∀ t : Fin cfg0.N, ¬cond0_0 (grid0.coords t) → ¬cond0_1 (grid0.coords t) → cfg0.idle 5 (grid0.coords t) = true := by decide +kernel
theorem noFlush0_5_B : ∀ t : Fin cfg0.N, ¬cond0_0 (grid0.coords t) → ¬cond0_1 (grid0.coords t) → (cfg0.win 5).flush t = false := by decide +kernel
/-- At the last point (case C) both outputs are live: the body stores them whole. -/
theorem liveAt0_4_C : ∀ t : Fin cfg0.N, ¬cond0_0 (grid0.coords t) → cond0_1 (grid0.coords t) → cfg0.idle 4 (grid0.coords t) = false := by decide +kernel
theorem liveAt0_5_C : ∀ t : Fin cfg0.N, ¬cond0_0 (grid0.coords t) → cond0_1 (grid0.coords t) → cfg0.idle 5 (grid0.coords t) = false := by decide +kernel

/-! ## The staging and scratch memrefs -/

/-- One staging buffer of each output window, through which its contents are stated. -/
abbrev VO0_4 : View sig .tc .vmem S1x80 .f32 := (Memref.whole cc0_stg4_0 : Memref sig .tc .vmem S1x80 .f32).view
abbrev VO0_5 : View sig .tc .vmem S1x80 .f32 := (Memref.whole cc0_stg5_0 : Memref sig .tc .vmem S1x80 .f32).view
/-- Each window's current staging memref at point t, and its wholeness. -/
abbrev ms0_0 (t : Fin cfg0.N) : Memref sig .tc .vmem S1x2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x80 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x80 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x80 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x80 .f32 := win0_5.stage (cfg0.slots t 5)
abbrev hs0_5 (t : Fin cfg0.N) : (ms0_5 t).IsWhole := hstage0_5 ((cfg0.slots t 5).cast nbuf0_5)
/-- The two scratch rows (the running column sums of the logits and of their squares), whole scoped buffers. -/
abbrev scM0_0 : Memref sig .tc .vmem S1x80 .f32 := Memref.whole cc0_scratch0
abbrev scM0_1 : Memref sig .tc .vmem S1x80 .f32 := Memref.whole cc0_scratch1
/-- The same as views: what they hold is stated through these. -/
abbrev VS0_0 : View sig .tc .vmem S1x80 .f32 := scM0_0.view
abbrev VS0_1 : View sig .tc .vmem S1x80 .f32 := scM0_1.view

/-- The eight staging buffers of the second pallas_call, which ride along at some contents each. -/
abbrev restOther0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The region's invariant before the first point, conjunct by conjunct: the two scratch rows owned at some contents,
    the other pallas_call's eight staging buffers at some contents, the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther0 c) ∗ (∃ r, prngReg c r)) := by
  unfold Pipeline.ΦA; rw [scopedRest0_eq]; simp only [scM0_0, scM0_1, owns_whole]; try rfl

/-! ## The kernel body on any staging memrefs, case by case -/

set_option maxHeartbeats 1000000 in
/-- CASE B (a middle point: neither conditional taken). On whole memrefs, the four inputs at their contents, the two
    outputs at contents handed back untouched, the two scratch rows at what the point before left (xs0, xs1), the body
    runs to the continuation holding the inputs and outputs as they were and each scratch row with its pieces written:
    the running sums plus this block's column sums. The piece lists are the witness. -/
noncomputable def kernelRun0_B (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (xi4 : Vec F S1x80 .f32) (xi5 : Vec F S1x80 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5; obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- CASE A (the first point: the first conditional taken, the second not). The two scratch rows come at anything: the
    body zeroes them, then adds this block's column sums. Inputs and outputs as in case B. -/
noncomputable def kernelRun0_A (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (xi4 : Vec F S1x80 .f32) (xi5 : Vec F S1x80 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨[], [], ?_, ?_, fun xi4 xi5 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
/-- CASE C (the last point: the first conditional not taken, the second taken). The scratch rows come at what the
    point before left; the body adds this block's column sums, then from the two totals and the weight and bias rows
    computes the scale and shift rows and stores them whole into the two outputs, which come at anything. -/
noncomputable def kernelRun0_C (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) :
    Σ' (L4 : List (View.Piece (Elt F) S1x80 .f32)) (L5 : List (View.Piece (Elt F) S1x80 .f32)) (LS0 : List (View.Piece (Elt F) S1x80 .f32)), { LS1 : List (View.Piece (Elt F) S1x80 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

/-! ## What each case leaves in the outputs and in the two scratch rows -/

/-- Case A (the first point) stores nothing into output 4: no pieces, a placeholder nothing consults (the window is idle
    there and not written back). -/
def out0_A_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VO0_4.read (Elt F) (VO0_4.writes (Elt F) VO0_4.junk (kernelRun0_A c i arg1 harg1 arg2 harg2 arg3 harg3 arg4 harg4 arg5 harg5 arg6 harg6 arg7 harg7 arg8 harg8 hc0 hc1 x0 x1 x2 x3).1)

/-- Case A (the first point) stores nothing into output 5: no pieces, a placeholder nothing consults (the window is idle
    there and not written back). -/
def out0_A_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VO0_5.read (Elt F) (VO0_5.writes (Elt F) VO0_5.junk (kernelRun0_A c i arg1 harg1 arg2 harg2 arg3 harg3 arg4 harg4 arg5 harg5 arg6 harg6 arg7 harg7 arg8 harg8 hc0 hc1 x0 x1 x2 x3).2.1)

/-- Case A's pieces for scratch row 0 cover it. -/
theorem scover0_A_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) (y : S1x80.Idx) :
    ∃ pc ∈ (kernelRun0_A c i arg1 harg1 arg2 harg2 arg3 harg3 arg4 harg4 arg5 harg5 arg6 harg6 arg7 harg7 arg8 harg8 hc0 hc1 x0 x1 x2 x3).2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.1 S1x80.size (by sl_kernel_rfl) y

/-- What case A leaves in scratch row 0: its pieces read back over junk. -/
def sout0_A_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).2.2.1)

/-- Case A's pieces for scratch row 1 cover it. -/
theorem scover0_A_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) (y : S1x80.Idx) :
    ∃ pc ∈ (kernelRun0_A c i arg1 harg1 arg2 harg2 arg3 harg3 arg4 harg4 arg5 harg5 arg6 harg6 arg7 harg7 arg8 harg8 hc0 hc1 x0 x1 x2 x3).2.2.2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.2.2.1 S1x80.size (by sl_kernel_rfl) y

/-- What case A leaves in scratch row 1: its pieces read back over junk. -/
def sout0_A_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : cond0_0 i) (hc1 : ¬cond0_1 i)
    (x0 : Vec F S1x2048x512 .f32) (x1 : Vec F S512x80 .f32) (x2 : Vec F S1x80 .f32) (x3 : Vec F S1x80 .f32) : Vec F S1x80 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.2.2.1)

/-- Case B (a middle point) stores nothing into output 4: no pieces, a placeholder nothing consults (the window is idle
    there and not written back). -/
def out0_B_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_4.read (Elt F) (VO0_4.writes (Elt F) VO0_4.junk (kernelRun0_B c i arg1 harg1 arg2 harg2 arg3 harg3 arg4 harg4 arg5 harg5 arg6 harg6 arg7 harg7 arg8 harg8 hc0 hc1 x0 x1 x2 x3 xs0 xs1).1)

/-- Case B (a middle point) stores nothing into output 5: no pieces, a placeholder nothing consults (the window is idle
    there and not written back). -/
def out0_B_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_5.read (Elt F) (VO0_5.writes (Elt F) VO0_5.junk (kernelRun0_B c i arg1 harg1 arg2 harg2 arg3 harg3 arg4 harg4 arg5 harg5 arg6 harg6 arg7 harg7 arg8 harg8 hc0 hc1 x0 x1 x2 x3 xs0 xs1).2.1)

/-- Case B's pieces for scratch row 0 cover it. -/
theorem scover0_B_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.1 S1x80.size (by sl_kernel_rfl) y

/-- What case B leaves in scratch row 0: its pieces read back over junk. -/
def sout0_B_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).2.2.1)

/-- Case B's pieces for scratch row 1 cover it. -/
theorem scover0_B_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_B c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.2.2.1 S1x80.size (by sl_kernel_rfl) y

/-- What case B leaves in scratch row 1: its pieces read back over junk. -/
def sout0_B_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : ¬cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.2.2.1)

/-- Case C's pieces for output 4 tile its [1, 80] block (one whole store), so they cover it. -/
theorem cover0_C_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S1x80.size (by sl_kernel_rfl) y

/-- What case C leaves in output 4's staging buffer: its pieces read back over junk. -/
def out0_C_4 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)

/-- Case C's pieces for output 5 tile its [1, 80] block (one whole store), so they cover it. -/
theorem cover0_C_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S1x80.size (by sl_kernel_rfl) y

/-- What case C leaves in output 5's staging buffer: its pieces read back over junk. -/
def out0_C_5 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)

/-- Case C's pieces for scratch row 0 cover it. -/
theorem scover0_C_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S1x80.size (by sl_kernel_rfl) y

/-- What case C leaves in scratch row 0: its pieces read back over junk. -/
def sout0_C_0 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)

/-- Case C's pieces for scratch row 1 cover it. -/
theorem scover0_C_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) (y : S1x80.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S1x80.size (by sl_kernel_rfl) y

/-- What case C leaves in scratch row 1: its pieces read back over junk. -/
def sout0_C_1 (c : Dev nD) (i : grid0.Coords) (arg1 : Memref sig .tc .vmem S1x2048x512 .f32) (harg1 : arg1.IsWhole) (arg2 : Memref sig .tc .vmem S512x80 .f32) (harg2 : arg2.IsWhole) (arg3 : Memref sig .tc .vmem S1x80 .f32) (harg3 : arg3.IsWhole) (arg4 : Memref sig .tc .vmem S1x80 .f32) (harg4 : arg4.IsWhole) (arg5 : Memref sig .tc .vmem S1x80 .f32) (harg5 : arg5.IsWhole) (arg6 : Memref sig .tc .vmem S1x80 .f32) (harg6 : arg6.IsWhole) (arg7 : Memref sig .tc .vmem S1x80 .f32) (harg7 : arg7.IsWhole) (arg8 : Memref sig .tc .vmem S1x80 .f32) (harg8 : arg8.IsWhole) (hc0 : ¬cond0_0 i) (hc1 : cond0_1 i)
    (x0 : Vec F S1x2048x512 .f32) (x1 : Vec F S512x80 .f32) (x2 : Vec F S1x80 .f32) (x3 : Vec F S1x80 .f32) (xs0 : Vec F S1x80 .f32) (xs1 : Vec F S1x80 .f32) : Vec F S1x80 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-! ## What the outputs and the scratch rows hold after each point -/

/-- THE ACCUMULATION. After the body at position n: (output 4's buffer, output 5's buffer, scratch row 0, scratch row 1).
    Position 0 is case A; position 63 is case C over what position 62 left in the scratch rows; every other position is
    case B over what the position before left. Both conditions at once is no point of the grid. -/
def outsAt0 (c : Dev nD) : (n : ℕ) → n < cfg0.N → Vec F S1x80 .f32 × Vec F S1x80 .f32 × Vec F S1x80 .f32 × Vec F S1x80 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 64 = 0 then
      if h1 : (n + 1) % 64 = 63 then
        False.elim (by have hN : n + 1 < 64 := lt_of_lt_of_eq hn (show cfg0.N = 64 from N_0); omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- outsAt0 at the point of case A. -/
theorem outsAt0_A (c : Dev nD) (t : Fin cfg0.N) (h0 : t.val % 64 = 0) (h1 : ¬t.val % 64 = 63) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- outsAt0 at a point of case B: that case's contents, over what the point before left in the scratch rows. -/
theorem outsAt0_B (c : Dev nD) (t : Fin cfg0.N) (h0 : ¬t.val % 64 = 0) (h1 : ¬t.val % 64 = 63) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- outsAt0 at the point of case C: that case's contents, over what the point before left in the scratch rows. -/
theorem outsAt0_C (c : Dev nD) (t : Fin cfg0.N) (h0 : ¬t.val % 64 = 0) (h1 : t.val % 64 = 63) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position n. Before the first point: the scoped rest at anything and the generator
    register at some state. Afterwards: the two scratch rows at what the point before left in them (the running column
    sums), the other pallas_call's eight staging buffers at anything, the register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ restOther0 c) ∗ (∃ r, prngReg c r))

theorem PhiS_zero (c : Dev nD) (n : ℕ) (h : n ≤ cfg0.N) (hz : n = 0) : PhiS V c n h = Pipeline.ΦA spec0 c := by
  subst hz; rfl

/-- After point n (before point n + 1): the scratch rows at that point's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ restOther0 c) ∗ (∃ r, prngReg c r)) := rfl

/-- Before a point that is not the first: the scratch rows at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ restOther0 c) ∗ (∃ r, prngReg c r)) := by
  cases n with
  | zero => exact absurd rfl hz
  | succ n => rfl

/-! ## The pipeline's proof data -/

/-- The proof data of pipeline 0 on core c at entry contents V: the arrays as the region finds them; after the body at
    point t each input's buffer at its block and the two outputs' at outsAt0's first two components; the invariant PhiS;
    nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]
/-- Every window at the full share; nothing owed before any point; no bound on what the waits have recorded. -/
theorem share0 (c : Dev nD) (w : Fin cfg0.W) : (dat0 V c).q w = fullShare := by dsimp only [dat0]
theorem owed0 (c : Dev nD) (t : Fin (cfg0.N + 1)) : (dat0 V c).owed t = 0 := by dsimp only [dat0]
theorem recorded0 (c : Dev nD) (t : Fin (cfg0.N + 1)) : (dat0 V c).recorded t = Set.univ := by dsimp only [dat0]

/-- The invariant at a point's start, restated at t.val. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t: the invariant, what the core owes, and the six windows' current buffers. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point. The inputs' memrefs hold their blocks; the closed forms say which case the point is in; the
    invariant hands the body the two scratch rows (at anything at the first point, else at what the point before left)
    and takes them back at this point's contents, the pieces covering each row; the eight riding buffers, the register
    and what the core owes pass through unread; an idle output is handed back as found, a stored one at its pieces. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 64 = 0
  · by_cases h1 : t.val % 64 = 63
    · exfalso; omega
    · -- case A: the first point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0 sout0_A_1; (try dsimp only)
      by_cases hz : t.val = 0
      · rw [PhiS_castSucc V c t, PhiS_zero V c _ _ hz, PhiA0_eq]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk0 V c 0 t) (iblk0 V c 1 t) (iblk0 V c 2 t) (iblk0 V c 3 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · exfalso; omega
  · by_cases h1 : t.val % 64 = 63
    · -- case C: the last point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_4 out0_C_5 sout0_C_0 sout0_C_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) _ _).2.2.2.2 Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, ⟨%e4, H4⟩, ⟨%e5, H5⟩, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]
        · unfold owns; iexists _; isplitr
          swap; · iexact H4
          ipureintro; exact View.read_writes_of_cover _ _ _ _ _ (cover0_C_4 c _ _ _ _ _ _ _ _ _ _ _ _ _ _ _ _ _ _ _ _ _ _ _ _ _)
        unfold owns; iexists _; isplitr
        swap; · iexact H5
        ipureintro; exact View.read_writes_of_cover _ _ _ _ _ (cover0_C_5 c _ _ _ _ _ _ _ _ _ _ _ _ _ _ _ _ _ _ _ _ _ _ _ _ _)
    · -- case B: a middle point
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0 sout0_B_1; (try dsimp only)
      by_cases hz : t.val = 0
      · exfalso; omega
      · rw [PhiS_castSucc V c t, PhiS_pos V c _ _ hz]
        iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 HR Hg]
        · isplitl [HS0 HS1 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is entered with is the invariant before the first point. -/
theorem hin0 (c : Dev nD) : (Pipeline.ΦA spec0 c : sProp 𝕄) ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the scoped rest back: what the scratch rows hold is forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ (Pipeline.ΦA spec0 c : sProp 𝕄) :=
  Phi_out0 V c _ (by rw [Fin.val_last]; have : cfg0.N = 64 := N_0; omega)

end Cert.KernelIdeal.Hand

end
-- ==== Proof.KernelIdeal.Reg1.lean ====
/- The second pallas_call (64 grid points, one batch per point) as a pipeline region entered at ANY contents V of the
   core's buffers. Its body loads five whole blocks (a batch of x, the clusters, clusters2, the scale row, the shift
   row), computes, and stores its one output block whole: what the output's staging buffer holds after the body is one
   pure function of the five input blocks. -/
import proofs.«145796_j17514876633353_1_alg».proof.Proof.Gen.KernelIdeal.Launch
import proofs.«145796_j17514876633353_1_alg».proof.Proof.Gen.KernelIdeal.Skeleton
import proofs.«145796_j17514876633353_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is V's and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is V's and whose body leaves the block in place. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole buffer -/

abbrev r1_0 : Rect S1x2048x512 := Rect.unit (s := S1x2048x512) ![0, 0, 0] S1x2048x512.size inb_S1x2048x512_S1x2048x512_0_0_0
abbrev r1_1 : Rect S512x80 := Rect.unit (s := S512x80) ![0, 0] S512x80.size inb_S512x80_S512x80_0_0
abbrev r1_2 : Rect S512x64 := Rect.unit (s := S512x64) ![0, 0] S512x64.size inb_S512x64_S512x64_0_0
abbrev r1_3 : Rect S1x80 := Rect.unit (s := S1x80) ![0, 0] S1x80.size inb_S1x80_S1x80_0_0
abbrev r1_5 : Rect S1x512x64 := Rect.unit (s := S1x512x64) ![0, 0, 0] S1x512x64.size inb_S1x512x64_S1x512x64_0_0_0

/-! ## What the body leaves in the output window's buffer -/

/-- The output's staging buffer after the body, from the five input blocks: its one store. The stored value is the
    kernel's payload of the loaded batch of x (x0), clusters (x1), scale row (x3), shift row (x4) and clusters2 (x2). -/
def out1_5 (x0 : Vec F S1x2048x512 .f32) (x1 : Vec F S512x80 .f32) (x2 : Vec F S512x64 .f32) (x3 x4 : Vec F S1x80 .f32) :
    Vec F S1x512x64 .f32 :=
  View.canon [⟨r1_5, k1_pay1 (k1_pay2 (View.ld x0 r1_0) (View.ld x1 r1_1) (View.ld x3 r1_3) (View.ld x4 r1_3) (View.ld x2 r1_2))⟩]

/-- The one store tiles the buffer, so it covers it. -/
theorem cover1_5 (p0 : Vec F S1x512x64 .f32) (y : S1x512x64.Idx) :
    ∃ pc ∈ ([⟨r1_5, p0⟩] : List (View.Piece (Elt F) S1x512x64 .f32)), y ∈ pc.1.set :=
  View.cover_of_tiled [⟨r1_5, p0⟩] S1x512x64.size (by rfl) y

/-! ## The body's triple -/

set_option maxHeartbeats 4000000 in
/-- The kernel body on whole staging memrefs, the inputs' at read contents and the output's at anything, runs to the
    continuation holding the inputs' as they were and the output's at out1_5 of the inputs'. -/
theorem sound_kernel1 (c : Dev nD) (E : Set ℕ) (i : grid1.Coords)
    (arg1 : Memref sig .tc .vmem S1x2048x512 .f32) (harg1 : arg1.IsWhole) (arg2 : Memref sig .tc .vmem S512x80 .f32) (harg2 : arg2.IsWhole)
    (arg3 : Memref sig .tc .vmem S512x64 .f32) (harg3 : arg3.IsWhole) (arg4 : Memref sig .tc .vmem S1x80 .f32) (harg4 : arg4.IsWhole)
    (arg5 : Memref sig .tc .vmem S1x80 .f32) (harg5 : arg5.IsWhole) (arg6 : Memref sig .tc .vmem S1x512x64 .f32) (harg6 : arg6.IsWhole)
    (x0 : Vec F S1x2048x512 .f32) (x1 : Vec F S512x80 .f32) (x2 : Vec F S512x64 .f32) (x3 x4 : Vec F S1x80 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__vlad_kernel i arg1 harg1 arg2 harg2 arg3 harg3 arg4 harg4 arg5 harg5 arg6 harg6) K := by
  simp only [cc1__vlad_kernel_eq_skeleton]; unfold cc1__vlad_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of pipeline 1 on core c: the arrays as the region finds them; after the body at point t each
    input's buffer at its block and the output's at out1_5 of the input blocks; the invariant the scoped rest and the
    generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the triple applies; the invariant and the core's
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/- The program's run, item by item: the three host reshapes, the statistics region, the second region, the final
   reshape. The core's buffer contents at each boundary are a fold from the launch memory: a host stretch applies its
   operations, a region leaves its arrays at what its write-backs fold to and every other buffer as entered. Every weakly
   fair execution terminates with every unscoped buffer at the last boundary's contents; the arguments are read back
   through the fold to their launch contents. -/
import proofs.«145796_j17514876633353_1_alg».proof.Proof.KernelIdeal.Reg0
import proofs.«145796_j17514876633353_1_alg».proof.Proof.KernelIdeal.Reg1
import proofs.«145796_j17514876633353_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => (s₀ m ρ).mem ((c : Dev nD), b)
/-- After the three reshapes (the statistics region's entry). -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b
/-- At the statistics region's exit: its arrays at what the pipeline leaves, every other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- At the second region's exit. -/
def B3 (c : Dev nD) : Valuation τ sig (Elt F) :=
  Pipeline.withArrays spec1 c (B2 m ρ c) fun w => (dat1 (E2 m ρ) c).arrAt w cfg1.N
theorem B3_arr (c : Dev nD) (w : Fin cfg1.W) :
    B3 m ρ c (Proc.devRef .tc (Pipeline.arrRef spec1 w)) = (dat1 (E2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev E3 : (c : Dev nD) → (b : Ref sig .tc) → Buf (Elt F) ((c : Thread nD τ).loc b) := fun c b => B3 m ρ c b
theorem hF1 (c : Dev nD) (w : Fin cfg1.W) : (dat1 (E2 m ρ) c).arrAt w cfg1.N = E3 m ρ c (Pipeline.arrRef spec1 w) :=
  (B3_arr m ρ c w).symm
theorem hrest1 (c : Dev nD) : ∀ b, b ∉ Finset.univ.image (Pipeline.arrRef spec1) → E3 m ρ c b = E2 m ρ c b :=
  fun b hb => B3_of_ne m ρ c b fun w e => hb (Finset.mem_image.mpr ⟨w, Finset.mem_univ _, e⟩)

/-- After the final reshape. -/
abbrev B4 : Dev nD → Valuation τ sig (Elt F) := fun c => StableHlo.after hostOps2 (B3 m ρ c)

/-! ### The arguments end as launched: no host operation and no region writes one -/

theorem B1_of (c : Dev nD) (r : Ref sig .tc) (h : r ∉ hostOps0_W) : B1 m ρ c r = B0 m ρ c r :=
  StableHlo.after_of_writes_sub hostOps0 _ hostOps0_writes h
theorem B4_of (c : Dev nD) (r : Ref sig .tc) (h : r ∉ hostOps2_W) : B4 m ρ c r = B3 m ρ c r :=
  StableHlo.after_of_writes_sub hostOps2 _ hostOps2_writes h

theorem B4_main_arg0 (c : Dev nD) : B4 m ρ c (Proc.devRef .tc main_arg0) = m ((c : Thread nD τ).loc main_arg0) :=
  calc B4 m ρ c (Proc.devRef .tc main_arg0)
    _ = B3 m ρ c (Proc.devRef .tc main_arg0) := B4_of m ρ c main_arg0 (by decide)
    _ = B2 m ρ c (Proc.devRef .tc main_arg0) := (B3_arr m ρ c 0).trans (((dat1 (E2 m ρ) c).arrAt_in 0 rfl _).trans (A_eq1 (E2 m ρ) c 0))
    _ = B1 m ρ c (Proc.devRef .tc main_arg0) := (B2_arr m ρ c 0).trans (((dat0 (E1 m ρ) c).arrAt_in 0 rfl _).trans (A_eq0 (E1 m ρ) c 0))
    _ = B0 m ρ c (Proc.devRef .tc main_arg0) := B1_of m ρ c main_arg0 (by decide)
    _ = m ((c : Thread nD τ).loc main_arg0) := rfl
theorem B4_main_arg1 (c : Dev nD) : B4 m ρ c (Proc.devRef .tc main_arg1) = m ((c : Thread nD τ).loc main_arg1) :=
  calc B4 m ρ c (Proc.devRef .tc main_arg1)
    _ = B3 m ρ c (Proc.devRef .tc main_arg1) := B4_of m ρ c main_arg1 (by decide)
    _ = B2 m ρ c (Proc.devRef .tc main_arg1) := (B3_arr m ρ c 1).trans (((dat1 (E2 m ρ) c).arrAt_in 1 rfl _).trans (A_eq1 (E2 m ρ) c 1))
    _ = B1 m ρ c (Proc.devRef .tc main_arg1) := (B2_arr m ρ c 1).trans (((dat0 (E1 m ρ) c).arrAt_in 1 rfl _).trans (A_eq0 (E1 m ρ) c 1))
    _ = B0 m ρ c (Proc.devRef .tc main_arg1) := B1_of m ρ c main_arg1 (by decide)
    _ = m ((c : Thread nD τ).loc main_arg1) := rfl
theorem B4_bypass (c : Dev nD) (r : Ref sig .tc) (h2 : r ∉ hostOps2_W) (h1 : ∀ w, Pipeline.arrRef spec1 w ≠ r)
    (h0 : ∀ w, Pipeline.arrRef spec0 w ≠ r) (hh : r ∉ hostOps0_W) :
    B4 m ρ c (Proc.devRef .tc r) = m ((c : Thread nD τ).loc r) :=
  calc B4 m ρ c (Proc.devRef .tc r)
    _ = B3 m ρ c (Proc.devRef .tc r) := B4_of m ρ c r h2
    _ = B2 m ρ c (Proc.devRef .tc r) := B3_of_ne m ρ c r h1
    _ = B1 m ρ c (Proc.devRef .tc r) := B2_of_ne m ρ c r h0
    _ = B0 m ρ c (Proc.devRef .tc r) := B1_of m ρ c r hh
    _ = m ((c : Thread nD τ).loc r) := rfl
theorem B4_main_arg2 (c : Dev nD) : B4 m ρ c (Proc.devRef .tc main_arg2) = m ((c : Thread nD τ).loc main_arg2) :=
  B4_bypass m ρ c main_arg2 (by decide) (by decide) (by decide) (by decide)
theorem B4_main_arg3 (c : Dev nD) : B4 m ρ c (Proc.devRef .tc main_arg3) = m ((c : Thread nD τ).loc main_arg3) :=
  B4_bypass m ρ c main_arg3 (by decide) (by decide) (by decide) (by decide)
theorem B4_main_arg4 (c : Dev nD) : B4 m ρ c (Proc.devRef .tc main_arg4) = m ((c : Thread nD τ).loc main_arg4) :=
  B4_bypass m ρ c main_arg4 (by decide) (by decide) (by decide) (by decide)

/-! ## The proof data family and the thread state -/

/-- Every pipeline's proof data, each at its region's entry contents: a literal match. -/
def pdats : (p : Fin 2) → (c : Dev nD) → Dat τ (Elt F) Unit ℕ (Pipeline.UD sig nD τ) ℕ (Pipeline.pin (pcfgs (F := F)) adm p) c
  | ⟨0, _⟩ => fun c => dat0 (E1 m ρ) c
  | ⟨1, _⟩ => fun c => dat1 (E2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes. -/
abbrev Tₙ (c : Dev nD) : sProp 𝕄 := iprop(StableHlo.held (c : Thread nD τ) (Pipeline.ucRefs τ sig) (B4 m ρ c) ∗ ∃ r, prngReg c r)

/-! ## The regions as segments -/

set_option backward.isDefEq.respectTransparency.types false in
/-- The statistics region over the thread state: entered from every unscoped buffer at B1, left at B2. Its arrays split out
    of the unscoped buffers and put back at the exit contents; the generator register into the invariant and out. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun c t => owed0 (E1 m ρ) c t
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => share0 (E1 m ρ) c w) (E1 m ρ c) fun w => A_eq0 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro
        exact fun _ _ => Or.inl (by rw [show (pdats m ρ 0 c).recorded 0 = Set.univ from recorded0 (E1 m ρ) c 0]; trivial)
      rw [show (pdats m ρ 0 c).owed 0 = 0 from owed0 (E1 m ρ) c 0]
      iexact HO
    isplitl [Hp]; · iexact Hp
    iexact Hrest
  hin c := by
    refine (?_ : _ ⊢ (Pipeline.ΦA spec0 c : sProp 𝕄)).trans (hin0 (E1 m ρ) c)
    unfold Pipeline.ΦA
    iintro ⟨Hp, -, Hr⟩
    isplitl [Hr]; · iexact Hr
    iexact Hp
  hout c := by
    refine (hout0 (E1 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun w => share0 (E1 m ρ) c w)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats m ρ 0 c).owed (Fin.last _) = 0 from owed0 (E1 m ρ) c _]
    iexact HO

set_option backward.isDefEq.respectTransparency.types false in
/-- The second region over the thread state: entered from every unscoped buffer at B2, left at B3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m ρ) c).loose
  hwaits := Pipeline.hwaits_of_owed_zero _ _ _ _ L lv 1 fun _ _ => rfl
  pre c := iprop(StableHlo.held (c : Thread nD τ) (Pipeline.ucRefs τ sig) (B2 m ρ c) ∗ R c)
  post c := iprop(StableHlo.held (c : Thread nD τ) (Pipeline.ucRefs τ sig) (B3 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (E2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (E2 m ρ c) (E3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as items, and the launch -/

/-- The program's four items in order. -/
abbrev items : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ),
    .host (hseg hostOps2 hostOps2_sub hostOps2_fresh (B3 m ρ)) ]
/-- The program is the run of its items. -/
theorem main_run (c : Dev nD) : main (F := F) c = Pipeline.Seg.run (items m ρ) := (main_chain c).trans (by chain_rfl)

set_option backward.isDefEq.respectTransparency.types false in
/-- From any memory with zero counters every weakly fair execution of the program terminates, nothing faulting, and every
    final state holds every unscoped buffer at the last boundary's contents. -/
theorem run_all : θ_run defs (onTc (τ := τ) (main (F := F))) ⟨m, fun _ => 0, ρ⟩
    (fun r => ∀ c : Dev nD, ∀ b ∈ Pipeline.ucRefs τ sig, r.2.mem (((c : Thread nD τ)).1, b) = B4 m ρ c b) :=
  Pipeline.θ_run_regions_kit (pcfgs (F := F)) adm (pdats m ρ) () cellOf_inj embL defs₀ 𝒱₀ L lv m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun c => (show (iprop(StableHlo.held (c : Thread nD τ) (Pipeline.ucRefs τ sig) (B4 m ρ c) ∗ R c) : sProp 𝕄)
        ⊢ iprop(Tₙ m ρ c ∗ ∃ W, owes (c : Thread nD τ) (0 : CellTallies nD τ sig Unit) W) from by
      iintro ⟨Hh, Hp, Ho⟩
      isplitl [Hh Hp]
      · isplitl [Hh]; · iexact Hh
        iexact Hp
      iexact Ho)⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m ρ c b)
    (hfin := fun c s' => by
      iintro ⟨⟨Hh, -⟩, HSI⟩
      unfold StableHlo.held
      imodintro
      iapply (pointsTo_read_all (Pipeline.ucRefs τ sig) (fun b => (((c : Thread nD τ)).1, b)) (B4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

/-- The run with the result named: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v5) = B4 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨h c _ (mem_uc main_v5 (by decide)),
     (h c _ (mem_uc main_arg0 (by decide))).trans (B4_main_arg0 m ρ c),
     (h c _ (mem_uc main_arg1 (by decide))).trans (B4_main_arg1 m ρ c),
     (h c _ (mem_uc main_arg2 (by decide))).trans (B4_main_arg2 m ρ c),
     (h c _ (mem_uc main_arg3 (by decide))).trans (B4_main_arg3 m ρ c),
     (h c _ (mem_uc main_arg4 (by decide))).trans (B4_main_arg4 m ρ c)⟩) (run_all m ρ)

end Cert.KernelIdeal.Hand

end
-- ==== Proof.Spec.lean ====
/- The mathematics both programs compute, written once over explicit coordinates.

   x : [64, 2048, 512] (batch b, row n, feature d), clusters : [512, 80], clusters2 : [512, 64], bn weight and bias : [80].
   logit b n k   = sum over d of x b n d * clusters d k                      (one matrix product, all 131072 rows)
   Batch normalisation over ALL rows (b, n), per column k, written in the two forms the programs use:
     two-pass form:  mean = S1 / N,  var = (sum of (logit - mean)^2) / N,  z = (logit - mean) * rsqrt(var + eps) * w + bias
     one-pass form:  mean = S1 / N,  var = S2 / N - mean^2,  scale = w * rsqrt(var + eps),  shift = bias - mean * scale,
                     z = logit * scale + shift
   (S1, S2 the column sums of logit and logit^2; N = 131072.) Over finite reals the two agree: that is the only law
   between the two programs; everything after z is one function of z:
     softmax over the 80 columns (row maximum subtracted), the first 64 columns kept: prob b n k
     aSum b k = sum over n of prob;  vlad b d k = (sum over n of x b n d * prob b n k) - aSum b k * clusters2 d k
     intra = vlad / max(sqrt(sum over d of vlad^2), epsN)   (per b, k)
     out   = intra / max(sqrt(sum over d, k of intra^2), epsN)   (per b), laid out as [64, 512*64]. -/
import Idealize.ShloMosaic.PureOps.Ideal
import Idealize.ShloMosaic.PureOps.Ideal.Laws
import Idealize.ShloMosaic.Lib.ValueIdx

noncomputable section

namespace Cert.Vlad

open Idealize.ShloMosaic Idealize.ShloMosaic.ValueIdx

/-- The four float words the programs share, never evaluated: -inf, N = 131072, the batch-norm epsilon, the norm epsilon. -/
abbrev negInf : EReal := Ideal.ofBits .f32 0xFF800000#32
abbrev nTot : EReal := Ideal.ofBits .f32 0x48000000#32
abbrev epsBN : EReal := Ideal.ofBits .f32 0x3727C5AC#32
abbrev epsN : EReal := Ideal.ofBits .f32 0x2B8CBCCC#32

/-- Arrays as functions of explicit coordinates. -/
abbrev T3 := Fin 64 → Fin 2048 → Fin 512 → EReal
abbrev Logits := Fin 64 → Fin 2048 → Fin 80 → EReal

/-- One batch block: row n of a [2048, 512] block times column k of clusters. -/
def logitB (Xb : Fin 2048 → Fin 512 → EReal) (C : Fin 512 → Fin 80 → EReal) (n : Fin 2048) (k : Fin 80) : EReal :=
  ∑ d : Fin 512, Xb n d * C d k

section Stats

variable (X : T3) (C : Fin 512 → Fin 80 → EReal) (w bias : Fin 80 → EReal)

/-- Row (b, n) of x times column k of clusters. -/
def logit (b : Fin 64) (n : Fin 2048) (k : Fin 80) : EReal := logitB (X b) C n k

/-- Column sums of the logits and of their squares over all 64 * 2048 rows. -/
def colSum (k : Fin 80) : EReal := ∑ b : Fin 64, ∑ n : Fin 2048, logit X C b n k
def colSumSq (k : Fin 80) : EReal := ∑ b : Fin 64, ∑ n : Fin 2048, logit X C b n k * logit X C b n k

/-- The batch mean of column k. -/
def mean (k : Fin 80) : EReal := Ideal.div (colSum X C k) nTot

/-- Two-pass variance: the mean of the squared deviations. -/
def varTwoPass (k : Fin 80) : EReal :=
  Ideal.div (∑ b : Fin 64, ∑ n : Fin 2048, (logit X C b n k - mean X C k) * (logit X C b n k - mean X C k)) nTot

/-- The normalised logits in the two-pass form: (a - mean) * rsqrt(var + eps) * w + bias. -/
def zTwoPass : Logits := fun b n k =>
  (logit X C b n k - mean X C k) * Ideal.rsqrt (varTwoPass X C k + epsBN) * w k + bias k

/-- One-pass variance: E[a^2] - mean^2. -/
def varOnePass (k : Fin 80) : EReal := Ideal.div (colSumSq X C k) nTot - mean X C k * mean X C k

/-- The folded scale and shift of the one-pass form. -/
def scale (k : Fin 80) : EReal := w k * Ideal.rsqrt (varOnePass X C k + epsBN)
def shift (k : Fin 80) : EReal := bias k - mean X C k * scale X C w k

/-- The normalised logits from any scale and shift rows: a * scale + shift. -/
def zAffine (s sh : Fin 80 → EReal) : Logits := fun b n k => logit X C b n k * s k + sh k

/-- The normalised logits in the one-pass form. -/
def zOnePass : Logits := zAffine X C (scale X C w) (shift X C w bias)

end Stats

section Downstream

/-! Everything after the normalised logits works on ONE batch block: rows n of a [2048, 512] block of x and of a
    [2048, 80] block of logits. -/

variable (Xb : Fin 2048 → Fin 512 → EReal) (C2 : Fin 512 → Fin 64 → EReal) (Zb : Fin 2048 → Fin 80 → EReal)

/-- The row maximum over the 80 columns, folded from -inf. -/
def rowMaxB (n : Fin 2048) : EReal := (Finset.univ : Finset (Fin 80)).fold max negInf (fun k => Zb n k)
def exB (n : Fin 2048) (k : Fin 80) : EReal := Ideal.exp (Zb n k - rowMaxB Zb n)
def rowSumB (n : Fin 2048) : EReal := ∑ k : Fin 80, exB Zb n k
/-- The softmax, its first 64 columns (column k of 64 is column k of 80). -/
def probB (n : Fin 2048) (k : Fin 64) : EReal := Ideal.div (exB Zb n (Fin.castLE (by decide) k)) (rowSumB Zb n)
def aSumB (k : Fin 64) : EReal := ∑ n : Fin 2048, probB Zb n k
def vladB (d : Fin 512) (k : Fin 64) : EReal := (∑ n : Fin 2048, Xb n d * probB Zb n k) - aSumB Zb k * C2 d k
def colNormB (k : Fin 64) : EReal := Ideal.sqrt (∑ d : Fin 512, vladB Xb C2 Zb d k * vladB Xb C2 Zb d k)
def intraB (d : Fin 512) (k : Fin 64) : EReal := Ideal.div (vladB Xb C2 Zb d k) (max (colNormB Xb C2 Zb k) epsN)
def gNormB : EReal := Ideal.sqrt (∑ d : Fin 512, ∑ k : Fin 64, intraB Xb C2 Zb d k * intraB Xb C2 Zb d k)
/-- The block's result at (d, k). -/
def outB (d : Fin 512) (k : Fin 64) : EReal := Ideal.div (intraB Xb C2 Zb d k) (max (gNormB Xb C2 Zb) epsN)

end Downstream

/-- The result at (b, d, k): batch b's block of x and of the logits through the downstream function. -/
def outT (X : T3) (C2 : Fin 512 → Fin 64 → EReal) (Z : Logits) (b : Fin 64) (d : Fin 512) (k : Fin 64) : EReal :=
  outB (X b) C2 (Z b) d k

/-! ## The argument arrays read at coordinates -/

abbrev xOf (a0 : FVec Ideal ⟨3, ![64, 2048, 512]⟩ .f32) : T3 := fun b n d => a0 (ix3 b n d)
abbrev cOf (a1 : FVec Ideal ⟨2, ![512, 80]⟩ .f32) : Fin 512 → Fin 80 → EReal := fun d k => a1 (ix2 d k)
abbrev c2Of (a2 : FVec Ideal ⟨3, ![1, 512, 64]⟩ .f32) : Fin 512 → Fin 64 → EReal := fun d k => a2 (ix3 0 d k)
abbrev rowOf (a : FVec Ideal ⟨1, ![80]⟩ .f32) : Fin 80 → EReal := fun k => a (ix1 k)

/-- Flat column j of 32768 is (d, k) = (j / 64, j % 64). -/
abbrev dOf (j : Fin 32768) : Fin 512 := ⟨j.val / 64, by omega⟩
abbrev kOf (j : Fin 32768) : Fin 64 := ⟨j.val % 64, by omega⟩

/-- The result array [64, 32768] from given normalised logits. -/
def resultOf (a0 : FVec Ideal ⟨3, ![64, 2048, 512]⟩ .f32) (a2 : FVec Ideal ⟨3, ![1, 512, 64]⟩ .f32) (Z : Logits) :
    FVec Ideal ⟨2, ![64, 32768]⟩ .f32 :=
  fun j => outT (xOf a0) (c2Of a2) Z (j 0) (dOf (j 1)) (kOf (j 1))

/-- The one-pass program's result and the two-pass program's result, as functions of the five argument arrays. -/
def resultOnePass (a0 : FVec Ideal ⟨3, ![64, 2048, 512]⟩ .f32) (a1 : FVec Ideal ⟨2, ![512, 80]⟩ .f32)
    (a2 : FVec Ideal ⟨3, ![1, 512, 64]⟩ .f32) (a3 a4 : FVec Ideal ⟨1, ![80]⟩ .f32) : FVec Ideal ⟨2, ![64, 32768]⟩ .f32 :=
  resultOf a0 a2 (zOnePass (xOf a0) (cOf a1) (rowOf a3) (rowOf a4))
def resultTwoPass (a0 : FVec Ideal ⟨3, ![64, 2048, 512]⟩ .f32) (a1 : FVec Ideal ⟨2, ![512, 80]⟩ .f32)
    (a2 : FVec Ideal ⟨3, ![1, 512, 64]⟩ .f32) (a3 a4 : FVec Ideal ⟨1, ![80]⟩ .f32) : FVec Ideal ⟨2, ![64, 32768]⟩ .f32 :=
  resultOf a0 a2 (zTwoPass (xOf a0) (cOf a1) (rowOf a3) (rowOf a4))

end Cert.Vlad

end
-- ==== Proof.KernelIdeal.HostValue.lean ====
/- The program's host reshapes read at an index: the weight and bias rows [80] -> [1, 80], clusters2 [1, 512, 64] ->
   [512, 64] before the regions, and the result [64, 512, 64] -> [64, 32768] after them (column j of 32768 is
   (j / 64, j % 64)). The two arrays the regions only read are still the launch contents when the first region starts. -/
import proofs.«145796_j17514876633353_1_alg».proof.Proof.KernelIdeal.Run
import proofs.«145796_j17514876633353_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

theorem B1_v0_apply (c : Dev nD) (k : Fin 80) :
    (B1 m ρ c (Proc.devRef .tc main_v0) : S1x80.Idx → EReal) (ix2 0 k)
      = (m ((c : Thread nD τ).loc main_arg3) : S80.Idx → EReal) (ix1 k) := by
  have h : B1 m ρ c (Proc.devRef .tc main_v0)
      = shapeCast S1x80 (m ((c : Thread nD τ).loc main_arg3) : S80.Idx → EReal) shapeCasts_S80_S1x80 := by
    show StableHlo.after hostOps0 (fun b => m (c, b)) (Proc.devRef .tc main_v0) = _
    after_results
    rfl
  rw [h]
  exact shapeCast_a_1a_apply _ _ 0 k

theorem B1_v1_apply (c : Dev nD) (k : Fin 80) :
    (B1 m ρ c (Proc.devRef .tc main_v1) : S1x80.Idx → EReal) (ix2 0 k)
      = (m ((c : Thread nD τ).loc main_arg4) : S80.Idx → EReal) (ix1 k) := by
  have h : B1 m ρ c (Proc.devRef .tc main_v1)
      = shapeCast S1x80 (m ((c : Thread nD τ).loc main_arg4) : S80.Idx → EReal) shapeCasts_S80_S1x80 := by
    show StableHlo.after hostOps0 (fun b => m (c, b)) (Proc.devRef .tc main_v1) = _
    after_results
    rfl
  rw [h]
  exact shapeCast_a_1a_apply _ _ 0 k

theorem B1_v2_apply (c : Dev nD) (d : Fin 512) (k : Fin 64) :
    (B1 m ρ c (Proc.devRef .tc main_v2) : S512x64.Idx → EReal) (ix2 d k)
      = (m ((c : Thread nD τ).loc main_arg2) : S1x512x64.Idx → EReal) (ix3 0 d k) := by
  have h : B1 m ρ c (Proc.devRef .tc main_v2)
      = shapeCast S512x64 (m ((c : Thread nD τ).loc main_arg2) : S1x512x64.Idx → EReal) shapeCasts_S1x512x64_S512x64 := by
    show StableHlo.after hostOps0 (fun b => m (c, b)) (Proc.devRef .tc main_v2) = _
    after_results
    rfl
  rw [h]
  exact shapeCast_1ab_ab_apply _ _ d k

theorem B1_arg0 (c : Dev nD) : B1 m ρ c (Proc.devRef .tc main_arg0) = m ((c : Thread nD τ).loc main_arg0) := by
  refine (B1_of m ρ c main_arg0 (by decide)).trans ?_
  rfl

theorem B1_arg1 (c : Dev nD) : B1 m ρ c (Proc.devRef .tc main_arg1) = m ((c : Thread nD τ).loc main_arg1) := by
  refine (B1_of m ρ c main_arg1 (by decide)).trans ?_
  rfl

theorem B4_v5_apply (c : Dev nD) (b : Fin 64) (j : Fin 32768) :
    (B4 m ρ c (Proc.devRef .tc main_v5) : S64x32768.Idx → EReal) (ix2 b j)
      = (B3 m ρ c (Proc.devRef .tc main_v4) : S64x512x64.Idx → EReal) (ix3 b (Cert.Vlad.dOf j) (Cert.Vlad.kOf j)) := by
  have h : B4 m ρ c (Proc.devRef .tc main_v5)
      = shapeCast S64x32768 (B3 m ρ c (Proc.devRef .tc main_v4) : S64x512x64.Idx → EReal) shapeCasts_S64x512x64_S64x32768 := by
    show StableHlo.after hostOps2 (B3 m ρ c) (Proc.devRef .tc main_v5) = _
    after_results
    rfl
  rw [h]
  -- both indices sit at row-major position b * 32768 + j: (b * 512 + j / 64) * 64 + j % 64 = b * 32768 + j
  refine shapeCast_apply _ shapeCasts_S64x512x64_S64x32768 (ix2 b j) (ix3 b (Cert.Vlad.dOf j) (Cert.Vlad.kOf j)) ?_
  rw [Shape.rowMajor_val_three, Shape.rowMajor_val_two]
  show (b.val * 512 + j.val / 64) * 64 + j.val % 64 = b.val * 32768 + j.val
  omega

end Cert.KernelIdeal.Hand

end
-- ==== Proof.PayloadStats.lean ====
/- The first kernel's stored values read at an index: the two running column sums, and at the last point the scale and
   shift rows. -/
import proofs.«145796_j17514876633353_1_alg».proof.Proof.Gen.KernelIdeal.Skeleton
import proofs.«145796_j17514876633353_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Vlad

/-- A loaded [1, 2048, 512] block of x and the loaded clusters as functions of coordinates. -/
abbrev blkOf (v3 : Vec Ideal S1x2048x512 .f32) : Fin 2048 → Fin 512 → EReal := fun n d => v3 (ix3 0 n d)
abbrev clOf (v6 : Vec Ideal S512x80 .f32) : Fin 512 → Fin 80 → EReal := fun d k => v6 (ix2 d k)

/-! ## The matrix product's operand indices, axis by axis

At result index (n, k) and contraction position q, the left operand is read at (n, q) and the right operand at (q, k). -/

private theorem dot_lhs0 (n : Fin 2048) (k : Fin 80) (q : dot_S2048x512_S512x80_S2048x80_1_0_0_1_n_n.contr.Idx) :
    (dot_S2048x512_S512x80_S2048x80_1_0_0_1_n_n.lhsIdx (ix2 n k) q 0).val = n.val := by
  simp [DotDims.lhsIdx, dot_S2048x512_S512x80_S2048x80_1_0_0_1_n_n]; rfl

private theorem dot_lhs1 (n : Fin 2048) (k : Fin 80) (q : dot_S2048x512_S512x80_S2048x80_1_0_0_1_n_n.contr.Idx) :
    (dot_S2048x512_S512x80_S2048x80_1_0_0_1_n_n.lhsIdx (ix2 n k) q 1).val = (q ⟨0, by decide⟩).val :=
  dot_S2048x512_S512x80_S2048x80_1_0_0_1_n_n.lhsIdx_val_of_single rfl (ix2 n k) q

private theorem dot_rhs0 (n : Fin 2048) (k : Fin 80) (q : dot_S2048x512_S512x80_S2048x80_1_0_0_1_n_n.contr.Idx) :
    (dot_S2048x512_S512x80_S2048x80_1_0_0_1_n_n.rhsIdx (ix2 n k) q 0).val = (q ⟨0, by decide⟩).val :=
  dot_S2048x512_S512x80_S2048x80_1_0_0_1_n_n.rhsIdx_val_of_single rfl (ix2 n k) q

private theorem dot_rhs1 (n : Fin 2048) (k : Fin 80) (q : dot_S2048x512_S512x80_S2048x80_1_0_0_1_n_n.contr.Idx) :
    (dot_S2048x512_S512x80_S2048x80_1_0_0_1_n_n.rhsIdx (ix2 n k) q 1).val = k.val := by
  simp [DotDims.rhsIdx, dot_S2048x512_S512x80_S2048x80_1_0_0_1_n_n]; rfl

/-- The matrix product read at (n, k): the sum over the 512 features d of block entry (0, n, d) times cluster entry
    (d, k). The contraction position is re-indexed by its one coordinate d; the narrowing of both operands is the
    identity on extended reals, and the accumulator is the zero word. -/
private theorem logit_apply (v3 : Vec Ideal S1x2048x512 .f32) (v6 : Vec Ideal S512x80 .f32) (n : Fin 2048) (k : Fin 80) :
    k0_pay3 (F := Ideal) v3 v6 (ix2 n k) = logitB (blkOf v3) (clOf v6) n k := by
  unfold k0_pay3
  refine (Ideal.matmul_constant_zero_apply dot_S2048x512_S512x80_S2048x80_1_0_0_1_n_n none _ _ (ix2 n k)).trans ?_
  unfold logitB
  rw [← Equiv.sum_comp (contrEquiv1 dot_S2048x512_S512x80_S2048x80_1_0_0_1_n_n 512 rfl rfl).symm]
  refine Finset.sum_congr rfl fun d _ => ?_
  have cd := contrEquiv1_symm_val dot_S2048x512_S512x80_S2048x80_1_0_0_1_n_n 512 rfl rfl d
  have hl : dot_S2048x512_S512x80_S2048x80_1_0_0_1_n_n.lhsIdx (ix2 n k)
      ((contrEquiv1 dot_S2048x512_S512x80_S2048x80_1_0_0_1_n_n 512 rfl rfl).symm d) = ix2 n d := by
    funext ax; apply Fin.ext
    match ax with
    | ⟨0, _⟩ => exact dot_lhs0 n k _
    | ⟨1, _⟩ => exact (dot_lhs1 n k _).trans cd
  have hr : dot_S2048x512_S512x80_S2048x80_1_0_0_1_n_n.rhsIdx (ix2 n k)
      ((contrEquiv1 dot_S2048x512_S512x80_S2048x80_1_0_0_1_n_n 512 rfl rfl).symm d) = ix2 d k := by
    funext ax; apply Fin.ext
    match ax with
    | ⟨0, _⟩ => exact (dot_rhs0 n k _).trans cd
    | ⟨1, _⟩ => exact dot_rhs1 n k _
  rw [hl, hr]
  show shapeCast S2048x512 v3 shapeCasts_S1x2048x512_S2048x512 (ix2 n d) * v6 (ix2 d k) = v3 (ix3 0 n d) * v6 (ix2 d k)
  rw [shapeCast_1ab_ab_apply]

/-- The index a column sum inserts: row n above column k. -/
private theorem lift_col (k : Fin 80) (n : Fin 2048) : reduces_S2048x80_S80.lift (ix1 k) n = ix2 n k := by
  funext a; apply Fin.ext
  match a with
  | ⟨0, _⟩ => rfl
  | ⟨1, _⟩ => rfl

/-- A column sum of a [2048, 80] array viewed as a [1, 80] row, at (0, k): the sum over the 2048 rows n of entry (n, k). -/
private theorem colsum_apply (x : FVec Ideal S2048x80 .f32) (k : Fin 80) :
    shapeCast S1x80 (multiReduction .add [0] S80 x 0x00000000#32 reduces_S2048x80_S80 (.inl rfl) rfl) shapeCasts_S80_S1x80 (ix2 0 k)
      = ∑ n : Fin 2048, x (ix2 n k) := by
  refine (shapeCast_a_1a_apply _ _ 0 k).trans ?_
  refine (Ideal.multiReduction_add_single x _ reduces_S2048x80_S80 (.inl rfl) rfl (ix1 k)).trans ?_
  exact Finset.sum_congr rfl fun n _ => congrArg x (lift_col k n)

/-- The two resets store zero: a cast to the same shape is the identity, a splat reads its word, and the zero word is 0. -/
theorem reset_sum_apply (k : Fin 80) : k0_pay1 (F := Ideal) (ix2 0 k) = 0 := by
  unfold k0_pay1
  simp only [shapeCast_self]
  exact Ideal.ofBits_zero_f32
theorem reset_sumsq_apply (k : Fin 80) : k0_pay2 (F := Ideal) (ix2 0 k) = 0 := by
  unfold k0_pay2
  simp only [shapeCast_self]
  exact Ideal.ofBits_zero_f32

/-- The running column sum: what was there plus the block's column sum of the logits. -/
theorem acc_sum_apply (v3 : Vec Ideal S1x2048x512 .f32) (v6 : Vec Ideal S512x80 .f32) (v9 : Vec Ideal S1x80 .f32) (k : Fin 80) :
    k0_pay4 (F := Ideal) v3 v6 v9 (ix2 0 k) = v9 (ix2 0 k) + ∑ n : Fin 2048, logitB (blkOf v3) (clOf v6) n k := by
  unfold k0_pay4
  simp only [shapeCast_self]
  refine congrArg (v9 (ix2 0 k) + ·) ?_
  refine (colsum_apply _ k).trans ?_
  exact Finset.sum_congr rfl fun n _ => logit_apply v3 v6 n k

/-- The running column sum of squares. -/
theorem acc_sumsq_apply (v3 : Vec Ideal S1x2048x512 .f32) (v6 : Vec Ideal S512x80 .f32) (v16 : Vec Ideal S1x80 .f32) (k : Fin 80) :
    k0_pay5 (F := Ideal) v3 v6 v16 (ix2 0 k)
      = v16 (ix2 0 k) + ∑ n : Fin 2048, logitB (blkOf v3) (clOf v6) n k * logitB (blkOf v3) (clOf v6) n k := by
  unfold k0_pay5
  simp only [shapeCast_self]
  refine congrArg (v16 (ix2 0 k) + ·) ?_
  refine (colsum_apply _ k).trans ?_
  refine Finset.sum_congr rfl fun n _ => ?_
  show k0_pay3 (F := Ideal) v3 v6 (ix2 n k) * k0_pay3 (F := Ideal) v3 v6 (ix2 n k) = _
  rw [logit_apply]

/-- The mean row from the sum row. -/
theorem mean_apply (v27 : Vec Ideal S1x80 .f32) (k : Fin 80) :
    k0_pay6 (F := Ideal) v27 (ix2 0 k) = Ideal.div (v27 (ix2 0 k)) nTot := by
  rfl

/-- The scale row: weight * rsqrt(S2 / N - mean^2 + eps). -/
theorem scale_apply (v27 v30 v38 : Vec Ideal S1x80 .f32) (k : Fin 80) :
    k0_pay7 (F := Ideal) v27 v30 v38 (ix2 0 k)
      = v38 (ix2 0 k) * Ideal.rsqrt (Ideal.div (v30 (ix2 0 k)) nTot
          - Ideal.div (v27 (ix2 0 k)) nTot * Ideal.div (v27 (ix2 0 k)) nTot + epsBN) := by
  unfold k0_pay7
  simp only [shapeCast_self]
  rfl

/-- The shift row: bias - mean * scale. -/
theorem shift_apply (v27 v30 v38 v41 : Vec Ideal S1x80 .f32) (k : Fin 80) :
    k0_pay8 (F := Ideal) v27 v30 v38 v41 (ix2 0 k)
      = v41 (ix2 0 k) - Ideal.div (v27 (ix2 0 k)) nTot * k0_pay7 (F := Ideal) v27 v30 v38 (ix2 0 k) := by
  unfold k0_pay8
  simp only [shapeCast_self]
  rfl

end Cert.KernelIdeal.Pay

end
-- ==== Proof.KernelIdeal.Reg0Value.lean ====
/- What the statistics region leaves in its two output rows [1, 80]: the folded scale and shift of the one-pass batch
   normalisation, over ALL 64 * 2048 rows of the x array the region finds. The two scratch rows hold, after point t, the
   column sums of the logits and of their squares over batches 0..t; the last point turns them into scale and shift. -/
import proofs.«145796_j17514876633353_1_alg».proof.Proof.KernelIdeal.Reg0
import proofs.«145796_j17514876633353_1_alg».proof.Proof.PayloadStats
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The x array, the clusters and the reshaped weight and bias rows as the region finds them, at coordinates. -/
abbrev xV0 (c : Dev nD) : Cert.Vlad.T3 := fun b n d => (V c main_arg0 : S64x2048x512.Idx → EReal) (ix3 b n d)
abbrev clV0 (c : Dev nD) : Fin 512 → Fin 80 → EReal := fun d k => (V c main_arg1 : S512x80.Idx → EReal) (ix2 d k)
abbrev wV0 (c : Dev nD) : Fin 80 → EReal := fun k => (V c main_v0 : S1x80.Idx → EReal) (ix2 0 k)
abbrev biasV0 (c : Dev nD) : Fin 80 → EReal := fun k => (V c main_v1 : S1x80.Idx → EReal) (ix2 0 k)

namespace Reg0V

/-! ## A running sum over the batches

A row that starts at 0 + g 0 and gains g (t + 1) at point t + 1 holds, after point t, the sum of g over batches 0..t;
after point 63 that is the sum over all 64 batches. -/

/-- The sum of g over batches 0..t. -/
def partialSum (g : Fin 64 → EReal) (t : ℕ) : EReal :=
  ∑ b ∈ Finset.range (t + 1), if h : b < 64 then g ⟨b, h⟩ else 0

theorem partialSum_zero (g : Fin 64 → EReal) : partialSum g 0 = 0 + g 0 := by
  unfold partialSum
  rw [Finset.sum_range_one, dif_pos (by decide : 0 < 64), zero_add]
  rfl

theorem partialSum_succ (g : Fin 64 → EReal) (t : ℕ) (h : t + 1 < 64) :
    partialSum g (t + 1) = partialSum g t + g ⟨t + 1, h⟩ := by
  unfold partialSum
  rw [Finset.sum_range_succ _ (t + 1), dif_pos h]

theorem partialSum_last (g : Fin 64 → EReal) : partialSum g 63 = ∑ b : Fin 64, g b := by
  unfold partialSum
  rw [← Fin.sum_univ_eq_sum_range (fun b => if h : b < 64 then g ⟨b, h⟩ else 0) 64]
  exact Finset.sum_congr rfl fun b _ => dif_pos b.isLt

/-! ## Window 0's block at point t is batch t of x -/

/-- Window 0's index map over the grid: block t along the batch axis, block 0 along rows and features. -/
theorem idx0_0 : ∀ t : Fin grid0.N, win0_0.index t 0 = t.val ∧ win0_0.index t 1 = 0 ∧ win0_0.index t 2 = 0 := by
  decide +kernel

/-- The x array as the region finds it, and window 0's block of it at point t. -/
abbrev xArr (c : Dev nD) : S64x2048x512.Idx → EReal := V c main_arg0
abbrev xBlk (c : Dev nD) (t : Fin cfg0.N) : S1x2048x512.Idx → EReal :=
  ((cfg0.win 0).blk t).view.read (Elt Ideal) (V c (Pipeline.arrRef spec0 0))

/-- Entry (0, n, d) of the block at point t is entry (t, n, d) of x: per axis, block index * block size + coordinate. -/
theorem xBlk_apply (c : Dev nD) (t : Fin cfg0.N) (n : Fin 2048) (d : Fin 512) :
    xBlk V c t (ix3 0 n d) = xArr V c (ix3 ⟨t.val, lt_of_lt_of_eq t.isLt N_0⟩ n d) := by
  have hi := idx0_0 t
  unfold xBlk
  rw [View.read_apply]
  show xArr V c _ = _
  congr 1
  funext a
  apply Fin.ext
  match a with
  | ⟨0, _⟩ => show win0_0.index t 0 * 1 + 1 * 0 = t.val; rw [hi.1]; omega
  | ⟨1, _⟩ => show win0_0.index t 1 * 2048 + 1 * n.val = n.val; rw [hi.2.1]; omega
  | ⟨2, _⟩ => show win0_0.index t 2 * 512 + 1 * d.val = d.val; rw [hi.2.2]; omega

/-! ## Windows 1, 2, 3 hold their whole arrays at every point -/

theorem idx0_1 : ∀ t : Fin grid0.N, win0_1.index t 0 = 0 ∧ win0_1.index t 1 = 0 := by decide +kernel
theorem idx0_2 : ∀ t : Fin grid0.N, win0_2.index t 0 = 0 ∧ win0_2.index t 1 = 0 := by decide +kernel
theorem idx0_3 : ∀ t : Fin grid0.N, win0_3.index t 0 = 0 ∧ win0_3.index t 1 = 0 := by decide +kernel

/-- The clusters, the weight row and the bias row as the region finds them, and the windows' blocks of them. -/
abbrev clArr (c : Dev nD) : S512x80.Idx → EReal := V c main_arg1
abbrev wArr (c : Dev nD) : S1x80.Idx → EReal := V c main_v0
abbrev bArr (c : Dev nD) : S1x80.Idx → EReal := V c main_v1
abbrev clBlk (c : Dev nD) (t : Fin cfg0.N) : S512x80.Idx → EReal :=
  ((cfg0.win 1).blk t).view.read (Elt Ideal) (V c (Pipeline.arrRef spec0 1))
abbrev wBlk (c : Dev nD) (t : Fin cfg0.N) : S1x80.Idx → EReal :=
  ((cfg0.win 2).blk t).view.read (Elt Ideal) (V c (Pipeline.arrRef spec0 2))
abbrev bBlk (c : Dev nD) (t : Fin cfg0.N) : S1x80.Idx → EReal :=
  ((cfg0.win 3).blk t).view.read (Elt Ideal) (V c (Pipeline.arrRef spec0 3))

theorem clBlk_apply (c : Dev nD) (t : Fin cfg0.N) (d : Fin 512) (k : Fin 80) :
    clBlk V c t (ix2 d k) = clArr V c (ix2 d k) := by
  have hi := idx0_1 t
  unfold clBlk
  rw [View.read_apply]
  show clArr V c _ = _
  congr 1
  funext a
  apply Fin.ext
  match a with
  | ⟨0, _⟩ => show win0_1.index t 0 * 512 + 1 * d.val = d.val; rw [hi.1]; omega
  | ⟨1, _⟩ => show win0_1.index t 1 * 80 + 1 * k.val = k.val; rw [hi.2]; omega

theorem wBlk_apply (c : Dev nD) (t : Fin cfg0.N) (k : Fin 80) :
    wBlk V c t (ix2 0 k) = wArr V c (ix2 0 k) := by
  have hi := idx0_2 t
  unfold wBlk
  rw [View.read_apply]
  show wArr V c _ = _
  congr 1
  funext a
  apply Fin.ext
  match a with
  | ⟨0, _⟩ => show win0_2.index t 0 * 1 + 1 * 0 = 0; rw [hi.1]
  | ⟨1, _⟩ => show win0_2.index t 1 * 80 + 1 * k.val = k.val; rw [hi.2]; omega

theorem bBlk_apply (c : Dev nD) (t : Fin cfg0.N) (k : Fin 80) :
    bBlk V c t (ix2 0 k) = bArr V c (ix2 0 k) := by
  have hi := idx0_3 t
  unfold bBlk
  rw [View.read_apply]
  show bArr V c _ = _
  congr 1
  funext a
  apply Fin.ext
  match a with
  | ⟨0, _⟩ => show win0_3.index t 0 * 1 + 1 * 0 = 0; rw [hi.1]
  | ⟨1, _⟩ => show win0_3.index t 1 * 80 + 1 * k.val = k.val; rw [hi.2]; omega

/-! ## The two output windows sit on their whole [1, 80] arrays at every point -/

theorem idx0_4 : ∀ t : Fin grid0.N, win0_4.index t 0 = 0 ∧ win0_4.index t 1 = 0 := by decide +kernel
theorem idx0_5 : ∀ t : Fin grid0.N, win0_5.index t 0 = 0 ∧ win0_5.index t 1 = 0 := by decide +kernel
theorem xsz0_4 : ∀ t : Fin grid0.N, win0_4.xsize (grid0.coords t) 0 = 1 ∧ win0_4.xsize (grid0.coords t) 1 = 80 := by
  decide +kernel
theorem xsz0_5 : ∀ t : Fin grid0.N, win0_5.xsize (grid0.coords t) 0 = 1 ∧ win0_5.xsize (grid0.coords t) 1 = 80 := by
  decide +kernel

/-- Every index of the [1, 80] array lies in window 4's block at any point: offsets 0, extents 1 and 80. -/
theorem cover4 (t : Fin cfg0.N) (i : S1x80.Idx) : i ∈ ((cfg0.win 4).blk t).view.set := by
  show i ∈ ((View.whole main_v3_0).slice (win0_4.rect t)).set
  rw [View.set_slice_whole, Rect.mem_set_unit]
  intro a
  have h0 : (i 0 : Nat) < 1 := (i 0).isLt
  have h1 : (i 1 : Nat) < 80 := (i 1).isLt
  match a with
  | ⟨0, _⟩ =>
    show win0_4.index t 0 * win0_4.size 0 ≤ (i 0 : Nat)
      ∧ (i 0 : Nat) < win0_4.index t 0 * win0_4.size 0 + win0_4.xsize (grid0.coords t) 0
    rw [(idx0_4 t).1, (xsz0_4 t).1]; omega
  | ⟨1, _⟩ =>
    show win0_4.index t 1 * win0_4.size 1 ≤ (i 1 : Nat)
      ∧ (i 1 : Nat) < win0_4.index t 1 * win0_4.size 1 + win0_4.xsize (grid0.coords t) 1
    rw [(idx0_4 t).2, (xsz0_4 t).2]; omega

theorem cover5 (t : Fin cfg0.N) (i : S1x80.Idx) : i ∈ ((cfg0.win 5).blk t).view.set := by
  show i ∈ ((View.whole main_v3_1).slice (win0_5.rect t)).set
  rw [View.set_slice_whole, Rect.mem_set_unit]
  intro a
  have h0 : (i 0 : Nat) < 1 := (i 0).isLt
  have h1 : (i 1 : Nat) < 80 := (i 1).isLt
  match a with
  | ⟨0, _⟩ =>
    show win0_5.index t 0 * win0_5.size 0 ≤ (i 0 : Nat)
      ∧ (i 0 : Nat) < win0_5.index t 0 * win0_5.size 0 + win0_5.xsize (grid0.coords t) 0
    rw [(idx0_5 t).1, (xsz0_5 t).1]; omega
  | ⟨1, _⟩ =>
    show win0_5.index t 1 * win0_5.size 1 ≤ (i 1 : Nat)
      ∧ (i 1 : Nat) < win0_5.index t 1 * win0_5.size 1 + win0_5.xsize (grid0.coords t) 1
    rw [(idx0_5 t).2, (xsz0_5 t).2]; omega

/-! ## What each control case leaves, as the kernel's stored values of the blocks it was handed -/

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves in scratch row 0 the row it found plus the block's column sums of the logits. -/
theorem sB0 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : ¬cond0_0 i) (hc1 : ¬cond0_1 i) (x0 : Vec Ideal S1x2048x512 .f32) (x1 : Vec Ideal S512x80 .f32) (x2 : Vec Ideal S1x80 .f32) (x3 : Vec Ideal S1x80 .f32) (xs0 : Vec Ideal S1x80 .f32) (xs1 : Vec Ideal S1x80 .f32) :
    sout0_B_0 c i a1 h1 a2 h2 a3 h3 a4 h4 a5 h5 a6 h6 a7 h7 a8 h8 hc0 hc1 x0 x1 x2 x3 xs0 xs1 = k0_pay4 (F := Ideal) x0 x1 xs0 := by
  unfold sout0_B_0
  rw [View.read_writes_eq_canon _ _ _ (scover0_B_0 c i a1 h1 a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-- A middle point leaves in scratch row 1 the row it found plus the block's column sums of the squared logits. -/
theorem sB1 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : ¬cond0_0 i) (hc1 : ¬cond0_1 i) (x0 : Vec Ideal S1x2048x512 .f32) (x1 : Vec Ideal S512x80 .f32) (x2 : Vec Ideal S1x80 .f32) (x3 : Vec Ideal S1x80 .f32) (xs0 : Vec Ideal S1x80 .f32) (xs1 : Vec Ideal S1x80 .f32) :
    sout0_B_1 c i a1 h1 a2 h2 a3 h3 a4 h4 a5 h5 a6 h6 a7 h7 a8 h8 hc0 hc1 x0 x1 x2 x3 xs0 xs1 = k0_pay5 (F := Ideal) x0 x1 xs1 := by
  unfold sout0_B_1
  rw [View.read_writes_eq_canon _ _ _ (scover0_B_1 c i a1 h1 a2 h2 a3 h3 a4 h4 a5 h5 a6 h6 a7 h7 a8 h8 hc0 hc1 x0 x1 x2 x3 xs0 xs1)]
  unfold kernelRun0_B
  dsimp only
  sl_unfold_words
  rw [View.canon_unit_zero hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-- The first point zeroes scratch row 0, reads the zero row back, and leaves it plus the block's column sums. -/
theorem sA0 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : cond0_0 i) (hc1 : ¬cond0_1 i) (x0 : Vec Ideal S1x2048x512 .f32) (x1 : Vec Ideal S512x80 .f32) (x2 : Vec Ideal S1x80 .f32) (x3 : Vec Ideal S1x80 .f32) :
    sout0_A_0 c i a1 h1 a2 h2 a3 h3 a4 h4 a5 h5 a6 h6 a7 h7 a8 h8 hc0 hc1 x0 x1 x2 x3 = k0_pay4 (F := Ideal) x0 x1 (k0_pay1 (F := Ideal)) := by
  unfold sout0_A_0
  rw [View.read_writes_eq_canon _ _ _ (scover0_A_0 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x80) hz2, View.readCov_unit_zero (S := S1x80) _ hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-- The first point does the same to scratch row 1 with the squared logits. -/
theorem sA1 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : cond0_0 i) (hc1 : ¬cond0_1 i) (x0 : Vec Ideal S1x2048x512 .f32) (x1 : Vec Ideal S512x80 .f32) (x2 : Vec Ideal S1x80 .f32) (x3 : Vec Ideal S1x80 .f32) :
    sout0_A_1 c i a1 h1 a2 h2 a3 h3 a4 h4 a5 h5 a6 h6 a7 h7 a8 h8 hc0 hc1 x0 x1 x2 x3 = k0_pay5 (F := Ideal) x0 x1 (k0_pay2 (F := Ideal)) := by
  unfold sout0_A_1
  rw [View.read_writes_eq_canon _ _ _ (scover0_A_1 c i a1 h1 a2 h2 a3 h3 a4 h4 a5 h5 a6 h6 a7 h7 a8 h8 hc0 hc1 x0 x1 x2 x3)]
  unfold kernelRun0_A
  dsimp only
  sl_unfold_words
  rw [View.canon_cons_unit_zero (S := S1x80) hz2, View.readCov_unit_zero (S := S1x80) _ hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-- The last point: the scale row, from the two scratch rows it has just updated and the weight row. -/
theorem oC4 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : ¬cond0_0 i) (hc1 : cond0_1 i) (x0 : Vec Ideal S1x2048x512 .f32) (x1 : Vec Ideal S512x80 .f32) (x2 : Vec Ideal S1x80 .f32) (x3 : Vec Ideal S1x80 .f32) (xs0 : Vec Ideal S1x80 .f32) (xs1 : Vec Ideal S1x80 .f32) :
    out0_C_4 c i a1 h1 a2 h2 a3 h3 a4 h4 a5 h5 a6 h6 a7 h7 a8 h8 hc0 hc1 x0 x1 x2 x3 xs0 xs1
      = k0_pay7 (F := Ideal) (k0_pay4 (F := Ideal) x0 x1 xs0) (k0_pay5 (F := Ideal) x0 x1 xs1) x2 := by
  unfold out0_C_4
  rw [View.read_writes_eq_canon _ _ _ (cover0_C_4 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz2]
  rw [View.readCov_unit_zero (S := S1x80) _ hz2, View.readCov_unit_zero (S := S1x80) _ hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-- The last point: the shift row, from the same two rows, the weight row and the bias row. -/
theorem oC5 (c : Dev nD) (i : grid0.Coords) (a1 : Memref sig .tc .vmem S1x2048x512 .f32) (h1 : a1.IsWhole) (a2 : Memref sig .tc .vmem S512x80 .f32) (h2 : a2.IsWhole) (a3 : Memref sig .tc .vmem S1x80 .f32) (h3 : a3.IsWhole) (a4 : Memref sig .tc .vmem S1x80 .f32) (h4 : a4.IsWhole) (a5 : Memref sig .tc .vmem S1x80 .f32) (h5 : a5.IsWhole) (a6 : Memref sig .tc .vmem S1x80 .f32) (h6 : a6.IsWhole) (a7 : Memref sig .tc .vmem S1x80 .f32) (h7 : a7.IsWhole) (a8 : Memref sig .tc .vmem S1x80 .f32) (h8 : a8.IsWhole) (hc0 : ¬cond0_0 i) (hc1 : cond0_1 i) (x0 : Vec Ideal S1x2048x512 .f32) (x1 : Vec Ideal S512x80 .f32) (x2 : Vec Ideal S1x80 .f32) (x3 : Vec Ideal S1x80 .f32) (xs0 : Vec Ideal S1x80 .f32) (xs1 : Vec Ideal S1x80 .f32) :
    out0_C_5 c i a1 h1 a2 h2 a3 h3 a4 h4 a5 h5 a6 h6 a7 h7 a8 h8 hc0 hc1 x0 x1 x2 x3 xs0 xs1
      = k0_pay8 (F := Ideal) (k0_pay4 (F := Ideal) x0 x1 xs0) (k0_pay5 (F := Ideal) x0 x1 xs1) x2 x3 := by
  unfold out0_C_5
  rw [View.read_writes_eq_canon _ _ _ (cover0_C_5 c i a1 h1 a2 h2 a3 h3 a4 h4 a5 h5 a6 h6 a7 h7 a8 h8 hc0 hc1 x0 x1 x2 x3 xs0 xs1)]
  unfold kernelRun0_C
  dsimp only
  sl_unfold_words
  rw [View.canon_unit_zero hz2]
  rw [View.readCov_unit_zero (S := S1x80) _ hz2, View.readCov_unit_zero (S := S1x80) _ hz2]
  simp only [View.readAt_eq_ld, h1.read_unread, h2.read_unread, h3.read_unread, h4.read_unread, h7.read_unread, h8.read_unread,
    View.ld_unit_zero (S := S1x2048x512) hz3, View.ld_unit_zero (S := S512x80) hz2, View.ld_unit_zero (S := S1x80) hz2]

/-! ## The two scratch rows after point t are the column sums over batches 0..t -/

/-- Batch b's column sums, at column k, of the logits and of their squares. -/
def g1 (c : Dev nD) (k : Fin 80) (b : Fin 64) : EReal :=
  ∑ n : Fin 2048, Cert.Vlad.logitB (xV0 V c b) (clV0 V c) n k
def g2 (c : Dev nD) (k : Fin 80) (b : Fin 64) : EReal :=
  ∑ n : Fin 2048, Cert.Vlad.logitB (xV0 V c b) (clV0 V c) n k * Cert.Vlad.logitB (xV0 V c b) (clV0 V c) n k

/-- Point t as a batch number. -/
abbrev batchOf (t : Fin cfg0.N) : Fin 64 := ⟨t.val, lt_of_lt_of_eq t.isLt N_0⟩

/-- The blocks the body is handed at point t are batch t of x and the whole clusters. -/
theorem blkOf_iblk0 (c : Dev nD) (t : Fin cfg0.N) : Pay.blkOf (iblk0 V c 0 t) = xV0 V c (batchOf t) :=
  funext fun n => funext fun d => xBlk_apply V c t n d
theorem clOf_iblk0 (c : Dev nD) (t : Fin cfg0.N) : Pay.clOf (iblk0 V c 1 t) = clV0 V c :=
  funext fun d => funext fun k => clBlk_apply V c t d k

/-- The updated rows at (0, k): what was there plus batch t's column sums. -/
theorem acc0_at (c : Dev nD) (t : Fin cfg0.N) (xs0 : Vec Ideal S1x80 .f32) (k : Fin 80) :
    k0_pay4 (F := Ideal) (iblk0 V c 0 t) (iblk0 V c 1 t) xs0 (ix2 0 k) = xs0 (ix2 0 k) + g1 V c k (batchOf t) := by
  rw [Pay.acc_sum_apply, blkOf_iblk0, clOf_iblk0]; rfl
theorem acc1_at (c : Dev nD) (t : Fin cfg0.N) (xs1 : Vec Ideal S1x80 .f32) (k : Fin 80) :
    k0_pay5 (F := Ideal) (iblk0 V c 0 t) (iblk0 V c 1 t) xs1 (ix2 0 k) = xs1 (ix2 0 k) + g2 V c k (batchOf t) := by
  rw [Pay.acc_sumsq_apply, blkOf_iblk0, clOf_iblk0]; rfl

/-- After every point t before the last, scratch row 0 holds the column sums of the logits over batches 0..t and
    scratch row 1 those of their squares: the first point starts both from zero, every later one adds its batch. -/
theorem inv (c : Dev nD) (k : Fin 80) : ∀ (t : ℕ) (h : t < cfg0.N), t < 63 →
    (outsAt0 V c t h).2.2.1 (ix2 0 k) = partialSum (g1 V c k) t
      ∧ (outsAt0 V c t h).2.2.2 (ix2 0 k) = partialSum (g2 V c k) t
  | 0, h, _ => by
    rw [outsAt0_A V c ⟨0, h⟩ rfl (by dsimp only; omega)]
    dsimp only
    rw [sA0, sA1, acc0_at, acc1_at, Pay.reset_sum_apply, Pay.reset_sumsq_apply, partialSum_zero, partialSum_zero]
    exact ⟨rfl, rfl⟩
  | t + 1, h, h63 => by
    have ih := inv c k t (Nat.lt_of_succ_lt h) (by omega)
    have h0 : ¬(⟨t + 1, h⟩ : Fin cfg0.N).val % 64 = 0 := by dsimp only; omega
    have h1 : ¬(⟨t + 1, h⟩ : Fin cfg0.N).val % 64 = 63 := by dsimp only; omega
    rw [outsAt0_B V c ⟨t + 1, h⟩ h0 h1]
    dsimp only
    rw [sB0, sB1, acc0_at, acc1_at, partialSum_succ _ t (by omega), partialSum_succ _ t (by omega)]
    exact ⟨congrArg (· + _) ih.1, congrArg (· + _) ih.2⟩

/-! ## The last point: the column sums over all 64 batches, then scale and shift -/

/-- The weight and bias rows the body is handed at point t are the rows the region finds. -/
theorem w_iblk0 (c : Dev nD) (t : Fin cfg0.N) (k : Fin 80) :
    (iblk0 V c 2 t : S1x80.Idx → EReal) (ix2 0 k) = wV0 V c k := wBlk_apply V c t k
theorem b_iblk0 (c : Dev nD) (t : Fin cfg0.N) (k : Fin 80) :
    (iblk0 V c 3 t : S1x80.Idx → EReal) (ix2 0 k) = biasV0 V c k := bBlk_apply V c t k

/-- At the last point t = 63: what point 62 left plus batch 63's column sums is the specification's column sum over
    all rows. -/
theorem sum0_last (c : Dev nD) (k : Fin 80) (t : Fin cfg0.N) (ht : t.val = 63) (hp : t.val - 1 < cfg0.N) :
    (outsAt0 V c (t.val - 1) hp).2.2.1 (ix2 0 k) + g1 V c k (batchOf t)
      = Cert.Vlad.colSum (xV0 V c) (clV0 V c) k := by
  rw [(inv V c k (t.val - 1) hp (by omega)).1]
  have hb : batchOf t = ⟨t.val - 1 + 1, by omega⟩ := Fin.ext (by show t.val = t.val - 1 + 1; omega)
  rw [hb, ← partialSum_succ _ (t.val - 1) (by omega)]
  have e : t.val - 1 + 1 = 63 := by omega
  rw [e, partialSum_last]
  rfl
theorem sum1_last (c : Dev nD) (k : Fin 80) (t : Fin cfg0.N) (ht : t.val = 63) (hp : t.val - 1 < cfg0.N) :
    (outsAt0 V c (t.val - 1) hp).2.2.2 (ix2 0 k) + g2 V c k (batchOf t)
      = Cert.Vlad.colSumSq (xV0 V c) (clV0 V c) k := by
  rw [(inv V c k (t.val - 1) hp (by omega)).2]
  have hb : batchOf t = ⟨t.val - 1 + 1, by omega⟩ := Fin.ext (by show t.val = t.val - 1 + 1; omega)
  rw [hb, ← partialSum_succ _ (t.val - 1) (by omega)]
  have e : t.val - 1 + 1 = 63 := by omega
  rw [e, partialSum_last]
  rfl

/-- Output row 4 after the last point, at (0, k), is the specification's scale. -/
theorem out4_last (c : Dev nD) (k : Fin 80) (t : Fin cfg0.N) (ht : t.val = 63) :
    (outsAt0 V c t.val t.isLt).1 (ix2 0 k) = Cert.Vlad.scale (xV0 V c) (clV0 V c) (wV0 V c) k := by
  rw [outsAt0_C V c t (by omega) (by omega)]
  dsimp only
  rw [oC4, Pay.scale_apply, acc0_at, acc1_at, sum0_last V c k t ht, sum1_last V c k t ht, w_iblk0]
  rfl

/-- Output row 5 after the last point, at (0, k), is the specification's shift. -/
theorem out5_last (c : Dev nD) (k : Fin 80) (t : Fin cfg0.N) (ht : t.val = 63) :
    (outsAt0 V c t.val t.isLt).2.1 (ix2 0 k)
      = Cert.Vlad.shift (xV0 V c) (clV0 V c) (wV0 V c) (biasV0 V c) k := by
  rw [outsAt0_C V c t (by omega) (by omega)]
  dsimp only
  rw [oC5, Pay.shift_apply, Pay.scale_apply, acc0_at, acc1_at, sum0_last V c k t ht, sum1_last V c k t ht,
    w_iblk0, b_iblk0]
  rfl

/-! ## The output arrays after the region: one write-back, at the last point, of the whole [1, 80] row -/

theorem h63 : 63 < cfg0.N := by rw [show cfg0.N = 64 from N_0]; decide

/-- The last point. -/
abbrev tLast : Fin cfg0.N := ⟨63, h63⟩

/-- For ANY row X in window 4's staging buffer, what a write-back at point t moves is X, and reading the array
    holding X through the window's block gives X back: the block at offsets 0 is the whole [1, 80] array. -/
theorem cut4_eq (c : Dev nD) (t : Fin cfg0.N) (X : Buf (Elt Ideal) ((c : Thread nD τ).loc main_v3_0)) :
    (cfg0.win 4).cut (grid0.coords t) X = ((cfg0.win 4).blk t).view.read (Elt Ideal) X := by
  have hz' : (fun a => win0_4.index t a * main_v3_0.ty.shape.size a) = fun _ => 0 := funext fun a => by
    match a with
    | ⟨0, _⟩ => show win0_4.index t 0 * 1 = 0; rw [(idx0_4 t).1]
    | ⟨1, _⟩ => show win0_4.index t 1 * 80 = 0; rw [(idx0_4 t).2]
  exact (Memref.read_access_unit_zero (Elt Ideal) main_v3_0 hz' (fun a => by rw [congrFun hz' a]; simp) X).symm

theorem cut5_eq (c : Dev nD) (t : Fin cfg0.N) (X : Buf (Elt Ideal) ((c : Thread nD τ).loc main_v3_1)) :
    (cfg0.win 5).cut (grid0.coords t) X = ((cfg0.win 5).blk t).view.read (Elt Ideal) X := by
  have hz' : (fun a => win0_5.index t a * main_v3_1.ty.shape.size a) = fun _ => 0 := funext fun a => by
    match a with
    | ⟨0, _⟩ => show win0_5.index t 0 * 1 = 0; rw [(idx0_5 t).1]
    | ⟨1, _⟩ => show win0_5.index t 1 * 80 = 0; rw [(idx0_5 t).2]
  exact (Memref.read_access_unit_zero (Elt Ideal) main_v3_1 hz' (fun a => by rw [congrFun hz' a]; simp) X).symm

section Flush
-- below, the accumulation enters only through its value after the last point
attribute [local irreducible] outsAt0

/-- What the last point leaves in the two output rows, as contents of the two output arrays. -/
abbrev G4 (c : Dev nD) : Buf (Elt Ideal) ((c : Thread nD τ).loc main_v3_0) := (outsAt0 V c tLast.val tLast.isLt).1
abbrev G5 (c : Dev nD) : Buf (Elt Ideal) ((c : Thread nD τ).loc main_v3_1) := (outsAt0 V c tLast.val tLast.isLt).2.1

/-- The one write-back of window 4, at the last point, writes that row. -/
theorem flushed4_eq (c : Dev nD) (t : Fin cfg0.N) (hf : (cfg0.win 4).flush t = true) :
    (dat0 V c).flushed 4 t = ((cfg0.win 4).blk t).view.read (Elt Ideal) (G4 V c) := by
  have hN : cfg0.N = 64 := N_0
  have h3 : t.val = 63 := by have := (flush0_4 t).mp hf; have := t.isLt; omega
  obtain rfl : t = tLast := Fin.ext h3
  show (cfg0.win 4).cut (grid0.coords tLast) ((dat0 V c).after 4 tLast) = _
  rw [after0_4]
  exact cut4_eq c tLast _

theorem flushed5_eq (c : Dev nD) (t : Fin cfg0.N) (hf : (cfg0.win 5).flush t = true) :
    (dat0 V c).flushed 5 t = ((cfg0.win 5).blk t).view.read (Elt Ideal) (G5 V c) := by
  have hN : cfg0.N = 64 := N_0
  have h3 : t.val = 63 := by have := (flush0_5 t).mp hf; have := t.isLt; omega
  obtain rfl : t = tLast := Fin.ext h3
  show (cfg0.win 5).cut (grid0.coords tLast) ((dat0 V c).after 5 tLast) = _
  rw [after0_5]
  exact cut5_eq c tLast _

/-- So each output array ends holding what the last point left in its row: that write-back covers the array. -/
theorem arrAt4 (c : Dev nD) : (dat0 (F := Ideal) V c).arrAt 4 cfg0.N = G4 V c :=
  (dat0 V c).arrAt_eq_of_cover 4 (G4 V c) (flushed4_eq V c) fun i =>
    ⟨tLast, (flush0_4 tLast).mpr rfl, cover4 tLast i⟩
theorem arrAt5 (c : Dev nD) : (dat0 (F := Ideal) V c).arrAt 5 cfg0.N = G5 V c :=
  (dat0 V c).arrAt_eq_of_cover 5 (G5 V c) (flushed5_eq V c) fun i =>
    ⟨tLast, (flush0_5 tLast).mpr rfl, cover5 tLast i⟩

/-- The two arrays at (0, k). -/
theorem arr4_apply (c : Dev nD) (k : Fin 80) :
    ((dat0 (F := Ideal) V c).arrAt 4 cfg0.N : S1x80.Idx → EReal) (ix2 0 k)
      = Cert.Vlad.scale (xV0 V c) (clV0 V c) (wV0 V c) k :=
  (congrFun (arrAt4 V c) (ix2 0 k)).trans (out4_last V c k tLast rfl)
theorem arr5_apply (c : Dev nD) (k : Fin 80) :
    ((dat0 (F := Ideal) V c).arrAt 5 cfg0.N : S1x80.Idx → EReal) (ix2 0 k)
      = Cert.Vlad.shift (xV0 V c) (clV0 V c) (wV0 V c) (biasV0 V c) k :=
  (congrFun (arrAt5 V c) (ix2 0 k)).trans (out5_last V c k tLast rfl)

end Flush

end Reg0V

/-- The scale row after the last point. -/
theorem arrAt0_4_apply (c : Dev nD) (k : Fin 80) :
    ((dat0 (F := Ideal) V c).arrAt 4 cfg0.N : S1x80.Idx → EReal) (ix2 0 k)
      = Cert.Vlad.scale (xV0 V c) (clV0 V c) (wV0 V c) k := by
  exact Reg0V.arr4_apply V c k

/-- The shift row after the last point. -/
theorem arrAt0_5_apply (c : Dev nD) (k : Fin 80) :
    ((dat0 (F := Ideal) V c).arrAt 5 cfg0.N : S1x80.Idx → EReal) (ix2 0 k)
      = Cert.Vlad.shift (xV0 V c) (clV0 V c) (wV0 V c) (biasV0 V c) k := by
  exact Reg0V.arr5_apply V c k

end Cert.KernelIdeal.Hand

end
-- ==== Proof.PayloadIntra.lean ====
/- The second kernel's first part read at an index: from one batch block of x, the clusters, the scale and shift rows and
   clusters2 to the residual block normalised per column (everything before the global norm). -/
import proofs.«145796_j17514876633353_1_alg».proof.Proof.Gen.KernelIdeal.Skeleton
import proofs.«145796_j17514876633353_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The block's normalised logits from the loaded scale and shift rows: a * scale + shift. -/
abbrev zBlock (v0 : Vec Ideal S1x2048x512 .f32) (v3 : Vec Ideal S512x80 .f32) (v6 v10 : Vec Ideal S1x80 .f32) :
    Fin 2048 → Fin 80 → EReal :=
  fun n k => Cert.Vlad.logitB (fun n d => v0 (ix3 0 n d)) (fun d k => v3 (ix2 d k)) n k * v6 (ix2 0 k) + v10 (ix2 0 k)

/-! ## The two matrix products read at an index -/

/-- First product, left operand: the row is the result's row … -/
private theorem dot1_lhs0 (j : S2048x80.Idx) (q : dot_S2048x512_S512x80_S2048x80_1_0_0_1_n_n.contr.Idx) :
    (dot_S2048x512_S512x80_S2048x80_1_0_0_1_n_n.lhsIdx j q 0).val = (j 0).val := by
  simp [DotDims.lhsIdx, dot_S2048x512_S512x80_S2048x80_1_0_0_1_n_n]; rfl
/-- … and the column is the contracted coordinate. -/
private theorem dot1_lhs1 (j : S2048x80.Idx) (q : dot_S2048x512_S512x80_S2048x80_1_0_0_1_n_n.contr.Idx) :
    (dot_S2048x512_S512x80_S2048x80_1_0_0_1_n_n.lhsIdx j q 1).val = (q ⟨0, by decide⟩).val :=
  dot_S2048x512_S512x80_S2048x80_1_0_0_1_n_n.lhsIdx_val_of_single (cl := 1) rfl j q
/-- First product, right operand: the row is the contracted coordinate … -/
private theorem dot1_rhs0 (j : S2048x80.Idx) (q : dot_S2048x512_S512x80_S2048x80_1_0_0_1_n_n.contr.Idx) :
    (dot_S2048x512_S512x80_S2048x80_1_0_0_1_n_n.rhsIdx j q 0).val = (q ⟨0, by decide⟩).val :=
  dot_S2048x512_S512x80_S2048x80_1_0_0_1_n_n.rhsIdx_val_of_single (cr := 0) rfl j q
/-- … and the column is the result's column. -/
private theorem dot1_rhs1 (j : S2048x80.Idx) (q : dot_S2048x512_S512x80_S2048x80_1_0_0_1_n_n.contr.Idx) :
    (dot_S2048x512_S512x80_S2048x80_1_0_0_1_n_n.rhsIdx j q 1).val = (j 1).val := by
  simp [DotDims.rhsIdx, dot_S2048x512_S512x80_S2048x80_1_0_0_1_n_n]; rfl

/-- The first product at (n, k): the sum over the 512 features of row n of the left operand times column k of the right. -/
private theorem matmul1_apply (A : FVec Ideal S2048x512 .bf16) (B : FVec Ideal S512x80 .bf16) (n : Fin 2048) (k : Fin 80) :
    matmul dot_S2048x512_S512x80_S2048x80_1_0_0_1_n_n none A B (constant S2048x80 .f32 0x00000000#32) (ix2 n k)
      = ∑ d : Fin 512, A (ix2 n d) * B (ix2 d k) := by
  show FloatOps.matmul dot_S2048x512_S512x80_S2048x80_1_0_0_1_n_n none A B (constant S2048x80 .f32 0x00000000#32) (ix2 n k) = _
  rw [Ideal.matmul_constant_zero_apply,
    ← Equiv.sum_comp (contrEquiv1 dot_S2048x512_S512x80_S2048x80_1_0_0_1_n_n 512 rfl rfl).symm]
  refine Finset.sum_congr rfl fun c _ => ?_
  have hc := contrEquiv1_symm_val dot_S2048x512_S512x80_S2048x80_1_0_0_1_n_n 512 rfl rfl c
  have hl : dot_S2048x512_S512x80_S2048x80_1_0_0_1_n_n.lhsIdx (ix2 n k)
      ((contrEquiv1 dot_S2048x512_S512x80_S2048x80_1_0_0_1_n_n 512 rfl rfl).symm c) = ix2 n c := by
    funext ax; apply Fin.ext
    match ax with
    | ⟨0, _⟩ => exact dot1_lhs0 _ _
    | ⟨1, _⟩ => exact (dot1_lhs1 _ _).trans hc
  have hr : dot_S2048x512_S512x80_S2048x80_1_0_0_1_n_n.rhsIdx (ix2 n k)
      ((contrEquiv1 dot_S2048x512_S512x80_S2048x80_1_0_0_1_n_n 512 rfl rfl).symm c) = ix2 c k := by
    funext ax; apply Fin.ext
    match ax with
    | ⟨0, _⟩ => exact (dot1_rhs0 _ _).trans hc
    | ⟨1, _⟩ => exact dot1_rhs1 _ _
  rw [hl, hr]

/-- Second product, left operand: the row is the contracted coordinate … -/
private theorem dot2_lhs0 (j : S512x64.Idx) (q : dot_S2048x512_S2048x64_S512x64_0_0_1_1_n_n.contr.Idx) :
    (dot_S2048x512_S2048x64_S512x64_0_0_1_1_n_n.lhsIdx j q 0).val = (q ⟨0, by decide⟩).val :=
  dot_S2048x512_S2048x64_S512x64_0_0_1_1_n_n.lhsIdx_val_of_single (cl := 0) rfl j q
/-- … and the column is the result's row. -/
private theorem dot2_lhs1 (j : S512x64.Idx) (q : dot_S2048x512_S2048x64_S512x64_0_0_1_1_n_n.contr.Idx) :
    (dot_S2048x512_S2048x64_S512x64_0_0_1_1_n_n.lhsIdx j q 1).val = (j 0).val := by
  simp [DotDims.lhsIdx, dot_S2048x512_S2048x64_S512x64_0_0_1_1_n_n]; rfl
/-- Second product, right operand: the row is the contracted coordinate … -/
private theorem dot2_rhs0 (j : S512x64.Idx) (q : dot_S2048x512_S2048x64_S512x64_0_0_1_1_n_n.contr.Idx) :
    (dot_S2048x512_S2048x64_S512x64_0_0_1_1_n_n.rhsIdx j q 0).val = (q ⟨0, by decide⟩).val :=
  dot_S2048x512_S2048x64_S512x64_0_0_1_1_n_n.rhsIdx_val_of_single (cr := 0) rfl j q
/-- … and the column is the result's column. -/
private theorem dot2_rhs1 (j : S512x64.Idx) (q : dot_S2048x512_S2048x64_S512x64_0_0_1_1_n_n.contr.Idx) :
    (dot_S2048x512_S2048x64_S512x64_0_0_1_1_n_n.rhsIdx j q 1).val = (j 1).val := by
  simp [DotDims.rhsIdx, dot_S2048x512_S2048x64_S512x64_0_0_1_1_n_n]; rfl

/-- The second product at (d, k): the sum over the 2048 rows of column d of the left operand times column k of the right
    (both operands are contracted on their rows). -/
private theorem matmul2_apply (A : FVec Ideal S2048x512 .bf16) (P : FVec Ideal S2048x64 .bf16) (d : Fin 512) (k : Fin 64) :
    matmul dot_S2048x512_S2048x64_S512x64_0_0_1_1_n_n none A P (constant S512x64 .f32 0x00000000#32) (ix2 d k)
      = ∑ n : Fin 2048, A (ix2 n d) * P (ix2 n k) := by
  show FloatOps.matmul dot_S2048x512_S2048x64_S512x64_0_0_1_1_n_n none A P (constant S512x64 .f32 0x00000000#32) (ix2 d k) = _
  rw [Ideal.matmul_constant_zero_apply,
    ← Equiv.sum_comp (contrEquiv1 dot_S2048x512_S2048x64_S512x64_0_0_1_1_n_n 2048 rfl rfl).symm]
  refine Finset.sum_congr rfl fun c _ => ?_
  have hc := contrEquiv1_symm_val dot_S2048x512_S2048x64_S512x64_0_0_1_1_n_n 2048 rfl rfl c
  have hl : dot_S2048x512_S2048x64_S512x64_0_0_1_1_n_n.lhsIdx (ix2 d k)
      ((contrEquiv1 dot_S2048x512_S2048x64_S512x64_0_0_1_1_n_n 2048 rfl rfl).symm c) = ix2 c d := by
    funext ax; apply Fin.ext
    match ax with
    | ⟨0, _⟩ => exact (dot2_lhs0 _ _).trans hc
    | ⟨1, _⟩ => exact dot2_lhs1 _ _
  have hr : dot_S2048x512_S2048x64_S512x64_0_0_1_1_n_n.rhsIdx (ix2 d k)
      ((contrEquiv1 dot_S2048x512_S2048x64_S512x64_0_0_1_1_n_n 2048 rfl rfl).symm c) = ix2 c k := by
    funext ax; apply Fin.ext
    match ax with
    | ⟨0, _⟩ => exact (dot2_rhs0 _ _).trans hc
    | ⟨1, _⟩ => exact dot2_rhs1 _ _
  rw [hl, hr]

/-! ## The reductions read at an index -/

/-- A row of a [2048, 80] array: the reduced index n with column k put back. -/
private theorem lift_row (n : Fin 2048) (k : Fin 80) :
    reduces_S2048x80_S2048.lift (ix1 n) k = (ix2 n k : S2048x80.Idx) := by
  funext ax; apply Fin.ext
  match ax with
  | ⟨0, _⟩ => rfl
  | ⟨1, _⟩ => rfl

/-- A column of a [2048, 64] array: the reduced index k with row n put back. -/
private theorem lift_col2048 (k : Fin 64) (n : Fin 2048) :
    reduces_S2048x64_S64.lift (ix1 k) n = (ix2 n k : S2048x64.Idx) := by
  funext ax; apply Fin.ext
  match ax with
  | ⟨0, _⟩ => rfl
  | ⟨1, _⟩ => rfl

/-- A column of a [512, 64] array: the reduced index k with row d put back. -/
private theorem lift_col512 (k : Fin 64) (d : Fin 512) :
    reduces_S512x64_S64.lift (ix1 k) d = (ix2 d k : S512x64.Idx) := by
  funext ax; apply Fin.ext
  match ax with
  | ⟨0, _⟩ => rfl
  | ⟨1, _⟩ => rfl

/-- The row maximum at n: the fold of max from the word for -inf over the 80 columns. -/
private theorem rowMax_apply (Z : FVec Ideal S2048x80 .f32) (n : Fin 2048) :
    multiReduction .maximumf [1] S2048 Z 0xFF800000#32 reduces_S2048x80_S2048 (.inl rfl) rfl (ix1 n)
      = (Finset.univ : Finset (Fin 80)).fold max Cert.Vlad.negInf (fun k => Z (ix2 n k)) := by
  refine (Ideal.multiReduction_maximumf_single Z _ reduces_S2048x80_S2048 (.inl rfl) rfl (ix1 n)).trans ?_
  have hf : (Z ∘ reduces_S2048x80_S2048.lift (ix1 n)) = fun k : Fin 80 => Z (ix2 n k) :=
    funext fun k => congrArg Z (lift_row n k)
  exact congrArg (fun f : Fin 80 → EReal => (Finset.univ : Finset (Fin 80)).fold max Cert.Vlad.negInf f) hf

/-- The row sum at n: the sum over the 80 columns. -/
private theorem rowSum_apply (E : FVec Ideal S2048x80 .f32) (n : Fin 2048) :
    multiReduction .add [1] S2048 E 0x00000000#32 reduces_S2048x80_S2048 (.inl rfl) rfl (ix1 n)
      = ∑ k : Fin 80, E (ix2 n k) := by
  refine (Ideal.multiReduction_add_single E _ reduces_S2048x80_S2048 (.inl rfl) rfl (ix1 n)).trans ?_
  exact Finset.sum_congr rfl fun k _ => congrArg E (lift_row n k)

/-- The column sum of a [2048, 64] array at k: the sum over the 2048 rows. -/
private theorem colSum2048_apply (P : FVec Ideal S2048x64 .f32) (k : Fin 64) :
    multiReduction .add [0] S64 P 0x00000000#32 reduces_S2048x64_S64 (.inl rfl) rfl (ix1 k)
      = ∑ n : Fin 2048, P (ix2 n k) := by
  refine (Ideal.multiReduction_add_single P _ reduces_S2048x64_S64 (.inl rfl) rfl (ix1 k)).trans ?_
  exact Finset.sum_congr rfl fun n _ => congrArg P (lift_col2048 k n)

/-- The column sum of a [512, 64] array at k: the sum over the 512 rows. -/
private theorem colSum512_apply (V : FVec Ideal S512x64 .f32) (k : Fin 64) :
    multiReduction .add [0] S64 V 0x00000000#32 reduces_S512x64_S64 (.inl rfl) rfl (ix1 k)
      = ∑ d : Fin 512, V (ix2 d k) := by
  refine (Ideal.multiReduction_add_single V _ reduces_S512x64_S64 (.inl rfl) rfl (ix1 k)).trans ?_
  exact Finset.sum_congr rfl fun d _ => congrArg V (lift_col512 k d)

/-! ## The layout operations read at an index -/

/-- A [2048] vector as one column [2048, 1]: entry (n, u) is entry n. -/
private theorem col_cast_apply (v : FVec Ideal S2048 .f32) (n : Fin 2048) (u : Fin 1) :
    shapeCast S2048x1 v shapeCasts_S2048_S2048x1 (ix2 n u) = v (ix1 n) :=
  shapeCast_apply v shapeCasts_S2048_S2048x1 _ _ (by
    have hu : u.val = 0 := by omega
    rw [Shape.rowMajor_val_one, Shape.rowMajor_val_two]
    show n.val = n.val * 1 + u.val
    rw [hu, Nat.mul_one, Nat.add_zero])

/-- One column [2048, 1] broadcast over 80 columns: entry (n, k) is the column's entry n. -/
private theorem col_bcast_apply (c : FVec Ideal S2048x1 .f32) (n : Fin 2048) (k : Fin 80) :
    broadcastTo S2048x80 c broadcasts_S2048x1_S2048x80 (ix2 n k) = c (ix2 n (0 : Fin 1)) := by
  refine broadcastTo_apply c broadcasts_S2048x1_S2048x80 (ix2 n k) (ix2 n (0 : Fin 1)) fun ax => ?_
  match ax with
  | ⟨0, _⟩ => rfl
  | ⟨1, _⟩ => rfl

/-- The first 64 of 80 columns: entry (n, k) of the cut is entry (n, k) of the source. -/
private theorem slice64_apply (Q : FVec Ideal S2048x80 .f32) (n : Fin 2048) (k : Fin 64) :
    extractStridedSlice S2048x64 ![0, 0] Q slices_S2048x80_o0_0_S2048x64 (ix2 n k)
      = Q (ix2 n (Fin.castLE (by decide) k)) :=
  slice2_axis1_apply 0 Q slices_S2048x80_o0_0_S2048x64 n k (Fin.castLE (by decide) k) (by simp)

/-! ## The payload in stages

The payload, cut where the specification names a quantity; each stage is a function of the vectors before it. -/

/-- The block of x as a [2048, 512] matrix, in the matrix unit's input format. -/
private def xM (v0 : Vec Ideal S1x2048x512 .f32) : FVec Ideal S2048x512 .bf16 :=
  truncf .bf16 (shapeCast S2048x512 v0 shapeCasts_S1x2048x512_S2048x512) bitsLt_bf16_f32

/-- The block's normalised logits: the first product times the broadcast scale row plus the broadcast shift row. -/
private def zV (v0 : Vec Ideal S1x2048x512 .f32) (v3 : Vec Ideal S512x80 .f32) (v6 v10 : Vec Ideal S1x80 .f32) :
    FVec Ideal S2048x80 .f32 :=
  addf
    (mulf
      (matmul dot_S2048x512_S512x80_S2048x80_1_0_0_1_n_n none (xM v0) (truncf .bf16 v3 bitsLt_bf16_f32)
        (constant S2048x80 .f32 0x00000000#32))
      (broadcastTo S2048x80 (shapeCast S1x80 v6 shapeCasts_S1x80_S1x80) broadcasts_S1x80_S2048x80))
    (broadcastTo S2048x80 (shapeCast S1x80 v10 shapeCasts_S1x80_S1x80) broadcasts_S1x80_S2048x80)

/-- exp of the logits less their row maximum. -/
private def eV (Z : FVec Ideal S2048x80 .f32) : FVec Ideal S2048x80 .f32 :=
  exp (subf Z
    (broadcastTo S2048x80
      (shapeCast S2048x1 (multiReduction .maximumf [1] S2048 Z 0xFF800000#32 reduces_S2048x80_S2048 (.inl rfl) rfl)
        shapeCasts_S2048_S2048x1)
      broadcasts_S2048x1_S2048x80))

/-- The softmax over the 80 columns, its first 64 columns kept. -/
private def pV (Z : FVec Ideal S2048x80 .f32) : FVec Ideal S2048x64 .f32 :=
  extractStridedSlice S2048x64 ![0, 0]
    (divf (eV Z)
      (broadcastTo S2048x80
        (shapeCast S2048x1 (multiReduction .add [1] S2048 (eV Z) 0x00000000#32 reduces_S2048x80_S2048 (.inl rfl) rfl)
          shapeCasts_S2048_S2048x1)
        broadcasts_S2048x1_S2048x80))
    slices_S2048x80_o0_0_S2048x64

/-- The column sums of the probabilities over the 2048 rows, as one row. -/
private def aV (P : FVec Ideal S2048x64 .f32) : FVec Ideal S1x64 .f32 :=
  shapeCast S1x64 (multiReduction .add [0] S64 P 0x00000000#32 reduces_S2048x64_S64 (.inl rfl) rfl) shapeCasts_S64_S1x64

/-- The residual block: the second product less the broadcast column sums times clusters2. -/
private def vV (A : FVec Ideal S2048x512 .bf16) (P : FVec Ideal S2048x64 .f32) (v28 : Vec Ideal S512x64 .f32) :
    FVec Ideal S512x64 .f32 :=
  subf
    (matmul dot_S2048x512_S2048x64_S512x64_0_0_1_1_n_n none A (truncf .bf16 P bitsLt_bf16_f32)
      (constant S512x64 .f32 0x00000000#32))
    (mulf (broadcastTo S512x64 (aV P) broadcasts_S1x64_S512x64) (shapeCast S512x64 v28 shapeCasts_S512x64_S512x64))

/-- The residual block over its column norms, each no smaller than the norm epsilon. -/
private def iV (V : FVec Ideal S512x64 .f32) : FVec Ideal S512x64 .f32 :=
  divf V
    (broadcastTo S512x64
      (maximumf
        (sqrt (shapeCast S1x64
          (multiReduction .add [0] S64 (mulf V V) 0x00000000#32 reduces_S512x64_S64 (.inl rfl) rfl) shapeCasts_S64_S1x64))
        (broadcast S1x64 (Scalar.ofBits .f32 0x2B8CBCCC#32)))
      broadcasts_S1x64_S512x64)

/-- The payload is the composition of the stages. -/
private theorem payload_eq (v0 : Vec Ideal S1x2048x512 .f32) (v3 : Vec Ideal S512x80 .f32) (v6 v10 : Vec Ideal S1x80 .f32)
    (v28 : Vec Ideal S512x64 .f32) :
    k1_pay2 (F := Ideal) v0 v3 v6 v10 v28 = iV (vV (xM v0) (pV (zV v0 v3 v6 v10)) v28) := rfl

/-! ## Each stage read at an index -/

/-- The block of x as a matrix: entry (n, d) is the block's entry (0, n, d). -/
private theorem xM_apply (v0 : Vec Ideal S1x2048x512 .f32) (n : Fin 2048) (d : Fin 512) : xM v0 (ix2 n d) = v0 (ix3 0 n d) :=
  shapeCast_1ab_ab_apply v0 shapeCasts_S1x2048x512_S2048x512 n d

/-- The normalised logits at (n, k): logit * scale + shift. -/
private theorem zV_apply (v0 : Vec Ideal S1x2048x512 .f32) (v3 : Vec Ideal S512x80 .f32) (v6 v10 : Vec Ideal S1x80 .f32)
    (n : Fin 2048) (k : Fin 80) : zV v0 v3 v6 v10 (ix2 n k) = zBlock v0 v3 v6 v10 n k := by
  show matmul dot_S2048x512_S512x80_S2048x80_1_0_0_1_n_n none (xM v0) (truncf .bf16 v3 bitsLt_bf16_f32)
        (constant S2048x80 .f32 0x00000000#32) (ix2 n k)
      * broadcastTo S2048x80 (shapeCast S1x80 v6 shapeCasts_S1x80_S1x80) broadcasts_S1x80_S2048x80 (ix2 n k)
      + broadcastTo S2048x80 (shapeCast S1x80 v10 shapeCasts_S1x80_S1x80) broadcasts_S1x80_S2048x80 (ix2 n k) = _
  rw [matmul1_apply, broadcastTo_1b_ab_apply, broadcastTo_1b_ab_apply, shapeCast_self, shapeCast_self]
  show (∑ d : Fin 512, xM v0 (ix2 n d) * v3 (ix2 d k)) * v6 (ix2 0 k) + v10 (ix2 0 k)
    = (∑ d : Fin 512, v0 (ix3 0 n d) * v3 (ix2 d k)) * v6 (ix2 0 k) + v10 (ix2 0 k)
  simp only [xM_apply]

/-- exp of the logit less the row maximum, at (n, k). -/
private theorem eV_apply (Z : FVec Ideal S2048x80 .f32) (n : Fin 2048) (k : Fin 80) :
    eV Z (ix2 n k) = Cert.Vlad.exB (fun n k => Z (ix2 n k)) n k := by
  show Ideal.exp (Z (ix2 n k) - broadcastTo S2048x80
      (shapeCast S2048x1 (multiReduction .maximumf [1] S2048 Z 0xFF800000#32 reduces_S2048x80_S2048 (.inl rfl) rfl)
        shapeCasts_S2048_S2048x1) broadcasts_S2048x1_S2048x80 (ix2 n k)) = _
  rw [col_bcast_apply, col_cast_apply, rowMax_apply]
  rfl

/-- The kept probabilities at (n, k). -/
private theorem pV_apply (Z : FVec Ideal S2048x80 .f32) (n : Fin 2048) (k : Fin 64) :
    pV Z (ix2 n k) = Cert.Vlad.probB (fun n k => Z (ix2 n k)) n k := by
  refine (slice64_apply _ n k).trans ?_
  show Ideal.div (eV Z (ix2 n (Fin.castLE (by decide) k))) (broadcastTo S2048x80
      (shapeCast S2048x1 (multiReduction .add [1] S2048 (eV Z) 0x00000000#32 reduces_S2048x80_S2048 (.inl rfl) rfl)
        shapeCasts_S2048_S2048x1) broadcasts_S2048x1_S2048x80 (ix2 n (Fin.castLE (by decide) k))) = _
  rw [col_bcast_apply, col_cast_apply, rowSum_apply]
  simp only [eV_apply]
  rfl

/-- The row of column sums at (0, k). -/
private theorem aV_apply (P : FVec Ideal S2048x64 .f32) (u : Fin 1) (k : Fin 64) : aV P (ix2 u k) = ∑ n : Fin 2048, P (ix2 n k) :=
  (shapeCast_a_1a_apply _ shapeCasts_S64_S1x64 u k).trans (colSum2048_apply P k)

/-- The residual at (d, k): the sum over the rows of x times the probability, less the column sum times clusters2. -/
private theorem vV_apply (A : FVec Ideal S2048x512 .bf16) (P : FVec Ideal S2048x64 .f32) (v28 : Vec Ideal S512x64 .f32)
    (d : Fin 512) (k : Fin 64) :
    vV A P v28 (ix2 d k) = (∑ n : Fin 2048, A (ix2 n d) * P (ix2 n k)) - (∑ n : Fin 2048, P (ix2 n k)) * v28 (ix2 d k) := by
  show matmul dot_S2048x512_S2048x64_S512x64_0_0_1_1_n_n none A (truncf .bf16 P bitsLt_bf16_f32)
        (constant S512x64 .f32 0x00000000#32) (ix2 d k)
      - broadcastTo S512x64 (aV P) broadcasts_S1x64_S512x64 (ix2 d k)
        * shapeCast S512x64 v28 shapeCasts_S512x64_S512x64 (ix2 d k) = _
  rw [matmul2_apply, broadcastTo_1b_ab_apply, aV_apply, shapeCast_self]
  rfl

/-- The normalised residual at (d, k): the residual over the larger of its column norm and the norm epsilon. -/
private theorem iV_apply (V : FVec Ideal S512x64 .f32) (d : Fin 512) (k : Fin 64) :
    iV V (ix2 d k)
      = Ideal.div (V (ix2 d k)) (max (Ideal.sqrt (∑ d : Fin 512, V (ix2 d k) * V (ix2 d k))) Cert.Vlad.epsN) := by
  show Ideal.div (V (ix2 d k)) (broadcastTo S512x64
      (maximumf
        (sqrt (shapeCast S1x64
          (multiReduction .add [0] S64 (mulf V V) 0x00000000#32 reduces_S512x64_S64 (.inl rfl) rfl) shapeCasts_S64_S1x64))
        (broadcast S1x64 (Scalar.ofBits .f32 0x2B8CBCCC#32)))
      broadcasts_S1x64_S512x64 (ix2 d k)) = _
  rw [broadcastTo_1b_ab_apply]
  show Ideal.div (V (ix2 d k)) (max (Ideal.sqrt (shapeCast S1x64
      (multiReduction .add [0] S64 (mulf V V) 0x00000000#32 reduces_S512x64_S64 (.inl rfl) rfl) shapeCasts_S64_S1x64
        (ix2 (0 : Fin 1) k))) Cert.Vlad.epsN) = _
  rw [shapeCast_a_1a_apply, colSum512_apply]
  rfl

/-- The column-normalised residual block at (d, k). -/
theorem intra_payload_apply (v0 : Vec Ideal S1x2048x512 .f32) (v3 : Vec Ideal S512x80 .f32) (v6 v10 : Vec Ideal S1x80 .f32)
    (v28 : Vec Ideal S512x64 .f32) (d : Fin 512) (k : Fin 64) :
    k1_pay2 (F := Ideal) v0 v3 v6 v10 v28 (ix2 d k)
      = Cert.Vlad.intraB (fun n d => v0 (ix3 0 n d)) (fun d k => v28 (ix2 d k)) (zBlock v0 v3 v6 v10) d k := by
  -- the logits vector read by coordinates is the block's normalised logits
  have hZ : (fun n k => zV v0 v3 v6 v10 (ix2 n k)) = zBlock v0 v3 v6 v10 :=
    funext fun n => funext fun k => zV_apply v0 v3 v6 v10 n k
  -- so the kept probabilities are the specification's
  have hP : ∀ n k, pV (zV v0 v3 v6 v10) (ix2 n k) = Cert.Vlad.probB (zBlock v0 v3 v6 v10) n k := fun n k => by
    rw [pV_apply, hZ]
  -- and the residual is the specification's
  have hV : ∀ d k, vV (xM v0) (pV (zV v0 v3 v6 v10)) v28 (ix2 d k)
      = Cert.Vlad.vladB (fun n d => v0 (ix3 0 n d)) (fun d k => v28 (ix2 d k)) (zBlock v0 v3 v6 v10) d k := fun d k => by
    rw [vV_apply]
    simp only [hP, xM_apply]
    rfl
  rw [payload_eq, iV_apply]
  simp only [hV]
  rfl

end Cert.KernelIdeal.Pay

end
-- ==== Proof.PayloadFinal.lean ====
/- The second kernel's last part read at an index: a [512, 64] block divided by the larger of its Euclidean norm and
   the norm epsilon. -/
import proofs.«145796_j17514876633353_1_alg».proof.Proof.Gen.KernelIdeal.Skeleton
import proofs.«145796_j17514876633353_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen Cert.Vlad

/-- The index a sum over the 64 columns inserts: column k' beside row d'. -/
private theorem lift_row (d' : Fin 512) (k' : Fin 64) : reduces_S512x64_S512.lift (ix1 d') k' = ix2 d' k' := by
  funext a; apply Fin.ext
  match a with
  | ⟨0, _⟩ => rfl
  | ⟨1, _⟩ => rfl

/-- The index a sum over the 512 rows of a one-column array inserts: row d' of the one column. -/
private theorem lift_one (u : Fin 1) (d' : Fin 512) : reduces_S512x1_S1.lift (ix1 u) d' = ix2 d' u := by
  funext a; apply Fin.ext
  match a with
  | ⟨0, _⟩ => rfl
  | ⟨1, _⟩ => rfl

/-- A [512] vector viewed as one column [512, 1] reads, at (d', 0), the vector at d': the same row-major position. -/
private theorem col_cast_apply (x : FVec Ideal S512 .f32) (d' : Fin 512) (u : Fin 1) :
    shapeCast S512x1 x shapeCasts_S512_S512x1 (ix2 d' u) = x (ix1 d') :=
  shapeCast_apply x shapeCasts_S512_S512x1 (ix2 d' u) (ix1 d') (by
    have hu : u.val = 0 := by omega
    rw [Shape.rowMajor_val_one, Shape.rowMajor_val_two]
    show d'.val = d'.val * 1 + u.val
    rw [hu, Nat.mul_one, Nat.add_zero])

/-- The block's sum of squares, as the second kernel takes it (columns first, then rows), read at the one index of
    the [1, 1] result. -/
private theorem sumsq_apply (v40 : FVec Ideal S512x64 .f32) :
    shapeCast S1x1 (multiReduction .add [0] S1
        (shapeCast S512x1 (multiReduction .add [1] S512 (mulf v40 v40) 0x00000000#32 reduces_S512x64_S512 (.inl rfl) rfl)
          shapeCasts_S512_S512x1) 0x00000000#32 reduces_S512x1_S1 (.inl rfl) rfl) shapeCasts_S1_S1x1 (ix2 0 0)
      = ∑ d' : Fin 512, ∑ k' : Fin 64, v40 (ix2 d' k') * v40 (ix2 d' k') := by
  refine (shapeCast_a_1a_apply _ _ 0 0).trans ?_
  refine (Ideal.multiReduction_add_single _ _ reduces_S512x1_S1 (.inl rfl) rfl (ix1 0)).trans ?_
  refine Finset.sum_congr rfl fun (d' : Fin 512) _ => ?_
  refine (congrArg (shapeCast S512x1 _ shapeCasts_S512_S512x1) (lift_one 0 d')).trans ?_
  refine (col_cast_apply _ d' 0).trans ?_
  refine (Ideal.multiReduction_add_single (mulf v40 v40) _ reduces_S512x64_S512 (.inl rfl) rfl (ix1 d')).trans ?_
  refine Finset.sum_congr rfl fun (k' : Fin 64) _ => ?_
  exact congrArg (mulf v40 v40) (lift_row d' k')

/-- The globally normalised block at (0, d, k): the sum of squares runs over d, then k inside. -/
theorem final_payload_apply (v40 : FVec Ideal S512x64 .f32) (d : Fin 512) (k : Fin 64) :
    k1_pay1 (F := Ideal) v40 (ix3 0 d k)
      = Ideal.div (v40 (ix2 d k))
          (max (Ideal.sqrt (∑ d' : Fin 512, ∑ k' : Fin 64, v40 (ix2 d' k') * v40 (ix2 d' k'))) epsN) := by
  unfold k1_pay1
  refine (shapeCast_ab_1ab_apply _ _ 0 d k).trans ?_
  refine congrArg (Ideal.div (v40 (ix2 d k))) ?_
  refine (broadcastTo_apply _ broadcasts_S1x1_S512x64 (ix2 d k) (ix2 0 0) fun a => ?_).trans ?_
  · match a with
    | ⟨0, _⟩ => rfl
    | ⟨1, _⟩ => rfl
  · refine congrArg (fun t => max (Ideal.sqrt t) epsN) ?_
    exact sumsq_apply v40

end Cert.KernelIdeal.Pay

end
-- ==== Proof.PayloadVlad.lean ====
/- The second kernel's stored value read at an index: one batch block of x, the clusters, the scale and shift rows and
   clusters2 go through the downstream function of the specification. -/
import proofs.«145796_j17514876633353_1_alg».proof.Proof.PayloadIntra
import proofs.«145796_j17514876633353_1_alg».proof.Proof.PayloadFinal

noncomputable section

namespace Cert.KernelIdeal.Pay

open Idealize.ShloMosaic Idealize.ShloMosaic.ValueIdx Cert.KernelIdeal Cert.KernelIdeal.Gen

/-- What the second kernel stores, at (0, d, k): the column-normalised residual block, normalised once more by its
    global norm, is the downstream function of the block. -/
theorem vlad_payload_apply (v0 : Vec Ideal S1x2048x512 .f32) (v3 : Vec Ideal S512x80 .f32) (v6 v10 : Vec Ideal S1x80 .f32)
    (v28 : Vec Ideal S512x64 .f32) (d : Fin 512) (k : Fin 64) :
    k1_pay1 (F := Ideal) (k1_pay2 v0 v3 v6 v10 v28) (ix3 0 d k)
      = Cert.Vlad.outB (fun n d => v0 (ix3 0 n d)) (fun d k => v28 (ix2 d k)) (zBlock v0 v3 v6 v10) d k := by
  rw [final_payload_apply]
  simp only [intra_payload_apply]
  rfl

end Cert.KernelIdeal.Pay

end
-- ==== Proof.KernelIdeal.Reg1Value.lean ====
/- What the second region leaves in its output array [64, 512, 64], index by index: grid point b writes block b, and
   block b is the downstream function of batch b of x, the clusters, clusters2 and the scale and shift rows the region
   finds in its input arrays. -/
import proofs.«145796_j17514876633353_1_alg».proof.Proof.KernelIdeal.Reg1
import proofs.«145796_j17514876633353_1_alg».proof.Proof.PayloadVlad
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Batch b of the x array the region finds, the clusters, clusters2 (already reshaped to [512, 64]) and the block's
    normalised logits from the scale and shift rows it finds. -/
abbrev xB (c : Dev nD) (b : Fin 64) : Fin 2048 → Fin 512 → EReal := fun n d => (V c main_arg0 : S64x2048x512.Idx → EReal) (ix3 b n d)
abbrev clV (c : Dev nD) : Fin 512 → Fin 80 → EReal := fun d k => (V c main_arg1 : S512x80.Idx → EReal) (ix2 d k)
abbrev c2V (c : Dev nD) : Fin 512 → Fin 64 → EReal := fun d k => (V c main_v2 : S512x64.Idx → EReal) (ix2 d k)
abbrev zV (c : Dev nD) (b : Fin 64) : Fin 2048 → Fin 80 → EReal := fun n k =>
  Cert.Vlad.logitB (xB V c b) (clV V c) n k * (V c main_v3_0 : S1x80.Idx → EReal) (ix2 0 k) + (V c main_v3_1 : S1x80.Idx → EReal) (ix2 0 k)

theorem hz3 : (![0, 0, 0] : Fin 3 → Nat) = fun _ => 0 := funext fun a => by fin_cases a <;> rfl
theorem hz2 : (![0, 0] : Fin 2 → Nat) = fun _ => 0 := funext fun a => by fin_cases a <;> rfl

/-- The payload of five blocks that agree, coordinate by coordinate, with batch b of x and with the four whole arrays. -/
theorem payload_of_blocks (x0 : Vec Ideal S1x2048x512 .f32) (x1 : Vec Ideal S512x80 .f32) (x2 : Vec Ideal S512x64 .f32)
    (x3 x4 : Vec Ideal S1x80 .f32)
    (A0 : S64x2048x512.Idx → EReal) (A1 : S512x80.Idx → EReal) (A2 : S512x64.Idx → EReal) (A3 A4 : S1x80.Idx → EReal)
    (b : Fin 64)
    (h0 : ∀ n d, x0 (ix3 0 n d) = A0 (ix3 b n d)) (h1 : ∀ d k, x1 (ix2 d k) = A1 (ix2 d k))
    (h2 : ∀ d k, x2 (ix2 d k) = A2 (ix2 d k)) (h3 : ∀ k, x3 (ix2 0 k) = A3 (ix2 0 k)) (h4 : ∀ k, x4 (ix2 0 k) = A4 (ix2 0 k))
    (d : Fin 512) (k : Fin 64) :
    k1_pay1 (F := Ideal) (k1_pay2 x0 x1 x3 x4 x2) (ix3 0 d k)
      = Cert.Vlad.outB (fun n d => A0 (ix3 b n d)) (fun d k => A2 (ix2 d k))
          (fun n k => Cert.Vlad.logitB (fun n d => A0 (ix3 b n d)) (fun d k => A1 (ix2 d k)) n k * A3 (ix2 0 k) + A4 (ix2 0 k)) d k := by
  rw [Cert.KernelIdeal.Pay.vlad_payload_apply]
  have e0 : (fun n d => x0 (ix3 0 n d)) = fun n d => A0 (ix3 b n d) := funext fun n => funext fun d => h0 n d
  have e1 : (fun d k => x1 (ix2 d k)) = fun d k => A1 (ix2 d k) := funext fun d => funext fun k => h1 d k
  have e2 : (fun d k => x2 (ix2 d k)) = fun d k => A2 (ix2 d k) := funext fun d => funext fun k => h2 d k
  have ez : Cert.KernelIdeal.Pay.zBlock x0 x1 x3 x4
      = fun n k => Cert.Vlad.logitB (fun n d => A0 (ix3 b n d)) (fun d k => A1 (ix2 d k)) n k * A3 (ix2 0 k) + A4 (ix2 0 k) := by
    funext n k
    show Cert.Vlad.logitB (fun n d => x0 (ix3 0 n d)) (fun d k => x1 (ix2 d k)) n k * x3 (ix2 0 k) + x4 (ix2 0 k) = _
    rw [e0, e1, h3, h4]
  rw [e0, e2, ez]

/-- The printed index maps, decided over the 64 grid points: the x window and the output window sit at block (t, 0, 0),
    the other four windows at block 0 on every axis. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 3) = t.val ∧ win1_5.index t (1 : Fin 3) = 0 ∧ win1_5.index t (2 : Fin 3) = 0 :=
  (by decide +kernel : ∀ t : Fin grid1.N, _)

/-- Window 0's block at point t, read at (0, n, d), is x at (t, n, d). -/
theorem iblk1_0_apply (c : Dev nD) (t : Fin cfg1.N) (b : Fin 64) (hb : b.val = t.val) (n : Fin 2048) (d : Fin 512) :
    (iblk1 V c 0 t : Vec Ideal S1x2048x512 .f32) (ix3 0 n d) = (V c main_arg0 : S64x2048x512.Idx → EReal) (ix3 b n d) := by
  obtain ⟨e0, e1, e2, -⟩ := idx_facts1 t
  show (V c main_arg0 : S64x2048x512.Idx → EReal) (((cfg1.win 0).blk t).view.emb (ix3 0 n d)) = _
  refine congrArg _ (funext fun a => Fin.ext ?_)
  match a with
  | ⟨0, _⟩ => show win1_0.index t (0 : Fin 3) * 1 + 1 * (0 : Fin 1).val = b.val; rw [e0, hb]; simp
  | ⟨1, _⟩ => show win1_0.index t (1 : Fin 3) * 2048 + 1 * n.val = n.val; omega
  | ⟨2, _⟩ => show win1_0.index t (2 : Fin 3) * 512 + 1 * d.val = d.val; omega

/-- Window 1's block at every point is the whole clusters array. -/
theorem iblk1_1_apply (c : Dev nD) (t : Fin cfg1.N) (d : Fin 512) (k : Fin 80) :
    (iblk1 V c 1 t : Vec Ideal S512x80 .f32) (ix2 d k) = (V c main_arg1 : S512x80.Idx → EReal) (ix2 d k) := by
  obtain ⟨-, -, -, e0, e1, -⟩ := idx_facts1 t
  show (V c main_arg1 : S512x80.Idx → EReal) (((cfg1.win 1).blk t).view.emb (ix2 d k)) = _
  refine congrArg _ (funext fun a => Fin.ext ?_)
  match a with
  | ⟨0, _⟩ => show win1_1.index t (0 : Fin 2) * 512 + 1 * d.val = d.val; omega
  | ⟨1, _⟩ => show win1_1.index t (1 : Fin 2) * 80 + 1 * k.val = k.val; omega

/-- Window 2's block at every point is the whole clusters2 array. -/
theorem iblk1_2_apply (c : Dev nD) (t : Fin cfg1.N) (d : Fin 512) (k : Fin 64) :
    (iblk1 V c 2 t : Vec Ideal S512x64 .f32) (ix2 d k) = (V c main_v2 : S512x64.Idx → EReal) (ix2 d k) := by
  obtain ⟨-, -, -, -, -, e0, e1, -⟩ := idx_facts1 t
  show (V c main_v2 : S512x64.Idx → EReal) (((cfg1.win 2).blk t).view.emb (ix2 d k)) = _
  refine congrArg _ (funext fun a => Fin.ext ?_)
  match a with
  | ⟨0, _⟩ => show win1_2.index t (0 : Fin 2) * 512 + 1 * d.val = d.val; omega
  | ⟨1, _⟩ => show win1_2.index t (1 : Fin 2) * 64 + 1 * k.val = k.val; omega

/-- Window 3's block at every point is the whole scale row. -/
theorem iblk1_3_apply (c : Dev nD) (t : Fin cfg1.N) (k : Fin 80) :
    (iblk1 V c 3 t : Vec Ideal S1x80 .f32) (ix2 0 k) = (V c main_v3_0 : S1x80.Idx → EReal) (ix2 0 k) := by
  obtain ⟨-, -, -, -, -, -, -, e0, e1, -⟩ := idx_facts1 t
  show (V c main_v3_0 : S1x80.Idx → EReal) (((cfg1.win 3).blk t).view.emb (ix2 0 k)) = _
  refine congrArg _ (funext fun a => Fin.ext ?_)
  match a with
  | ⟨0, _⟩ => show win1_3.index t (0 : Fin 2) * 1 + 1 * (0 : Fin 1).val = (0 : Fin 1).val; omega
  | ⟨1, _⟩ => show win1_3.index t (1 : Fin 2) * 80 + 1 * k.val = k.val; omega

/-- Window 4's block at every point is the whole shift row. -/
theorem iblk1_4_apply (c : Dev nD) (t : Fin cfg1.N) (k : Fin 80) :
    (iblk1 V c 4 t : Vec Ideal S1x80 .f32) (ix2 0 k) = (V c main_v3_1 : S1x80.Idx → EReal) (ix2 0 k) := by
  obtain ⟨-, -, -, -, -, -, -, -, -, e0, e1, -⟩ := idx_facts1 t
  show (V c main_v3_1 : S1x80.Idx → EReal) (((cfg1.win 4).blk t).view.emb (ix2 0 k)) = _
  refine congrArg _ (funext fun a => Fin.ext ?_)
  match a with
  | ⟨0, _⟩ => show win1_4.index t (0 : Fin 2) * 1 + 1 * (0 : Fin 1).val = (0 : Fin 1).val; omega
  | ⟨1, _⟩ => show win1_4.index t (1 : Fin 2) * 80 + 1 * k.val = k.val; omega

/-- A function on the [1, 512, 64] block is determined by its values at the indices (0, d, k). -/
theorem funext_block {α : Type} (f g : S1x512x64.Idx → α) (h : ∀ (d : Fin 512) (k : Fin 64), f (ix3 0 d k) = g (ix3 0 d k)) :
    f = g := by
  funext j
  have hj : j = ix3 0 (j 1) (j 2) := by
    funext a
    match a with
    | ⟨0, _⟩ =>
      have h0 : (j 0).val < 1 := (j 0).isLt
      exact Fin.ext (show (j 0).val = 0 by omega)
    | ⟨1, _⟩ => rfl
    | ⟨2, _⟩ => rfl
  rw [hj]
  exact h _ _

/-- The whole output array: at (b, d, k) the downstream function of batch b of x, the clusters, clusters2 and the
    scale and shift rows. -/
abbrev G1 (c : Dev nD) : S64x512x64.Idx → EReal := fun i =>
  Cert.Vlad.outB (xB V c ⟨(i 0).val, (i 0).isLt⟩) (c2V V c) (zV V c ⟨(i 0).val, (i 0).isLt⟩)
    ⟨(i 1).val, (i 1).isLt⟩ ⟨(i 2).val, (i 2).isLt⟩

/-- What point t writes back is block t of the whole-array function. -/
theorem flushed1_5_eq (c : Dev nD) (t : Fin cfg1.N) :
    (dat1 (F := Ideal) V c).flushed 5 t = ((cfg1.win 5).blk t).view.read (Elt Ideal) (G1 V c) := by
  show (cfg1.win 5).cut (grid1.coords t) ((dat1 (F := Ideal) V c).after 5 t) = _
  rw [after1_5]
  unfold out1_5
  rw [View.canon_unit_zero hz3]
  simp only [View.ld_unit_zero (S := S1x2048x512) hz3, View.ld_unit_zero (S := S512x80) hz2,
    View.ld_unit_zero (S := S512x64) hz2, View.ld_unit_zero (S := S1x80) hz2]
  have ht : t.val < 64 := Nat.lt_of_lt_of_eq t.isLt N_1
  obtain ⟨-, -, -, -, -, -, -, -, -, -, -, e0, e1, e2⟩ := idx_facts1 t
  -- the block's index (0, d, k) sits in the array at (t, d, k)
  have hemb : ∀ (d : Fin 512) (k : Fin 64),
      (((cfg1.win 5).blk t).view.emb (ix3 0 d k) : S64x512x64.Idx) = ix3 (⟨t.val, ht⟩ : Fin 64) d k := by
    intro d k
    funext a
    apply Fin.ext
    match a with
    | ⟨0, _⟩ => show win1_5.index t (0 : Fin 3) * 1 + 1 * (0 : Fin 1).val = t.val; rw [e0]; simp
    | ⟨1, _⟩ => show win1_5.index t (1 : Fin 3) * 512 + 1 * d.val = d.val; omega
    | ⟨2, _⟩ => show win1_5.index t (2 : Fin 3) * 64 + 1 * k.val = k.val; omega
  refine funext_block _ _ fun d k => ?_
  show k1_pay1 (F := Ideal) (k1_pay2 (iblk1 V c 0 t) (iblk1 V c 1 t) (iblk1 V c 3 t) (iblk1 V c 4 t) (iblk1 V c 2 t)) (ix3 0 d k)
    = G1 V c (((cfg1.win 5).blk t).view.emb (ix3 0 d k))
  refine (payload_of_blocks _ _ _ _ _ (V c main_arg0) (V c main_arg1) (V c main_v2) (V c main_v3_0) (V c main_v3_1)
    (⟨t.val, ht⟩ : Fin 64) (iblk1_0_apply V c t _ rfl) (iblk1_1_apply V c t) (iblk1_2_apply V c t) (iblk1_3_apply V c t)
    (iblk1_4_apply V c t) d k).trans ?_
  refine Eq.trans ?_ (congrArg (G1 V c) (hemb d k)).symm
  rfl

/-- An index of the array is in point t's block iff each coordinate is in the block's range on its axis. -/
theorem mem_blk1_5 (t : Fin cfg1.N) (i : S64x512x64.Idx) :
    i ∈ ((cfg1.win 5).blk t).view.set ↔ ∀ a : Fin 3, win1_5.index t a * S1x512x64.size a ≤ (i a).val
      ∧ (i a).val < win1_5.index t a * S1x512x64.size a + S1x512x64.size a := by
  show i ∈ ((View.whole main_v4).slice (win1_5.rect t)).set ↔ _
  rw [View.set_slice_whole, Rect.mem_set_unit]
  exact Iff.rfl

/-- The point whose number is the index's batch coordinate writes the block the index is in. -/
theorem cover1_5_all (i : S64x512x64.Idx) :
    ∃ t : Fin cfg1.N, (cfg1.win 5).flush t = true ∧ i ∈ ((cfg1.win 5).blk t).view.set := by
  have hi0 : (i 0).val < 64 := (i 0).isLt
  have hi1 : (i 1).val < 512 := (i 1).isLt
  have hi2 : (i 2).val < 64 := (i 2).isLt
  have ht : (i 0).val < cfg1.N := Nat.lt_of_lt_of_eq hi0 N_1.symm
  obtain ⟨-, -, -, -, -, -, -, -, -, -, -, e0, e1, e2⟩ := idx_facts1 ⟨(i 0).val, ht⟩
  have e0' : win1_5.index ⟨(i 0).val, ht⟩ (0 : Fin 3) = (i 0).val := e0
  refine ⟨⟨(i 0).val, ht⟩, flush1_5 _, ?_⟩
  rw [mem_blk1_5]
  intro a
  match a with
  | ⟨0, _⟩ =>
    show win1_5.index ⟨(i 0).val, ht⟩ (0 : Fin 3) * 1 ≤ (i 0).val
      ∧ (i 0).val < win1_5.index ⟨(i 0).val, ht⟩ (0 : Fin 3) * 1 + 1
    omega
  | ⟨1, _⟩ =>
    show win1_5.index ⟨(i 0).val, ht⟩ (1 : Fin 3) * 512 ≤ (i 1).val
      ∧ (i 1).val < win1_5.index ⟨(i 0).val, ht⟩ (1 : Fin 3) * 512 + 512
    omega
  | ⟨2, _⟩ =>
    show win1_5.index ⟨(i 0).val, ht⟩ (2 : Fin 3) * 64 ≤ (i 2).val
      ∧ (i 2).val < win1_5.index ⟨(i 0).val, ht⟩ (2 : Fin 3) * 64 + 64
    omega

/-- So the output array ends holding the whole-array function. -/
theorem arrAt1_5_eq (c : Dev nD) : (dat1 (F := Ideal) V c).arrAt 5 cfg1.N = G1 V c :=
  (dat1 (F := Ideal) V c).arrAt_eq_of_cover 5 (G1 V c) (fun t _ => flushed1_5_eq V c t) cover1_5_all

/-- The output array after the last point, at (b, d, k). -/
theorem arrAt1_5_apply (c : Dev nD) (b : Fin 64) (d : Fin 512) (k : Fin 64) :
    ((dat1 (F := Ideal) V c).arrAt 5 cfg1.N : S64x512x64.Idx → EReal) (ix3 b d k)
      = Cert.Vlad.outB (xB V c b) (c2V V c) (zV V c b) d k := by
  rw [arrAt1_5_eq]

end Cert.KernelIdeal.Hand

end
-- ==== Proof.KernelIdeal.KernelValue.lean ====
/- The kernel program's result as a function of its arguments: reading the result buffer back through the boundaries —
   the final reshape, the second region's output array (block b the downstream function of batch b), its scale and shift
   input rows (the statistics region's output rows), the reshaped weight, bias and clusters2, and the two arrays no item
   writes — gives the one-pass form of the specification. -/
import proofs.«145796_j17514876633353_1_alg».proof.Proof.KernelIdeal.Run
import proofs.«145796_j17514876633353_1_alg».proof.Proof.KernelIdeal.HostValue
import proofs.«145796_j17514876633353_1_alg».proof.Proof.KernelIdeal.Reg0Value
import proofs.«145796_j17514876633353_1_alg».proof.Proof.KernelIdeal.Reg1Value
import proofs.«145796_j17514876633353_1_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The result buffer at the last boundary is the one-pass result of the launch contents of the five arguments. -/
theorem result_eq (c : Dev nD) :
    (B4 m ρ c (Proc.devRef .tc main_v5) : S64x32768.Idx → EReal)
      = Cert.Vlad.resultOnePass (m ((c : Thread nD τ).loc main_arg0)) (m ((c : Thread nD τ).loc main_arg1))
          (m ((c : Thread nD τ).loc main_arg2)) (m ((c : Thread nD τ).loc main_arg3)) (m ((c : Thread nD τ).loc main_arg4)) := by
  -- the two arrays no item writes, as the second region finds them
  have hA0 : B2 m ρ c (Proc.devRef .tc main_arg0) = m ((c : Thread nD τ).loc main_arg0) :=
    ((B2_arr m ρ c 0).trans (((dat0 (E1 m ρ) c).arrAt_in 0 rfl _).trans (A_eq0 (E1 m ρ) c 0))).trans (B1_arg0 m ρ c)
  have hA1 : B2 m ρ c (Proc.devRef .tc main_arg1) = m ((c : Thread nD τ).loc main_arg1) :=
    ((B2_arr m ρ c 1).trans (((dat0 (E1 m ρ) c).arrAt_in 1 rfl _).trans (A_eq0 (E1 m ρ) c 1))).trans (B1_arg1 m ρ c)
  -- batch b of x, the clusters and clusters2 at the second region's entry are the launch arrays at coordinates
  have hx : ∀ b : Fin 64, xB (E2 m ρ) c b = Cert.Vlad.xOf (m ((c : Thread nD τ).loc main_arg0)) b :=
    fun b => funext fun n => funext fun d => congrFun hA0 (ix3 b n d)
  have hcl : clV (E2 m ρ) c = Cert.Vlad.cOf (m ((c : Thread nD τ).loc main_arg1)) :=
    funext fun d => funext fun k => congrFun hA1 (ix2 d k)
  have hc2 : c2V (E2 m ρ) c = Cert.Vlad.c2Of (m ((c : Thread nD τ).loc main_arg2)) :=
    funext fun d => funext fun k =>
      (congrFun (B2_of_ne m ρ c main_v2 (by decide)) (ix2 d k)).trans (B1_v2_apply m ρ c d k)
  -- x, the clusters, the weight and the bias at the statistics region's entry likewise
  have hx0 : xV0 (E1 m ρ) c = Cert.Vlad.xOf (m ((c : Thread nD τ).loc main_arg0)) :=
    funext fun b => funext fun n => funext fun d => congrFun (B1_arg0 m ρ c) (ix3 b n d)
  have hcl0 : clV0 (E1 m ρ) c = Cert.Vlad.cOf (m ((c : Thread nD τ).loc main_arg1)) :=
    funext fun d => funext fun k => congrFun (B1_arg1 m ρ c) (ix2 d k)
  have hw0 : wV0 (E1 m ρ) c = Cert.Vlad.rowOf (m ((c : Thread nD τ).loc main_arg3)) :=
    funext fun k => B1_v0_apply m ρ c k
  have hb0 : biasV0 (E1 m ρ) c = Cert.Vlad.rowOf (m ((c : Thread nD τ).loc main_arg4)) :=
    funext fun k => B1_v1_apply m ρ c k
  -- so the two rows the second region finds are the one-pass scale and shift
  have hs : ∀ k : Fin 80, (E2 m ρ c main_v3_0 : S1x80.Idx → EReal) (ix2 0 k)
      = Cert.Vlad.scale (Cert.Vlad.xOf (m ((c : Thread nD τ).loc main_arg0))) (Cert.Vlad.cOf (m ((c : Thread nD τ).loc main_arg1)))
          (Cert.Vlad.rowOf (m ((c : Thread nD τ).loc main_arg3))) k := fun k => by
    refine (congrFun (B2_arr m ρ c 4) (ix2 0 k)).trans ?_
    rw [arrAt0_4_apply, hx0, hcl0, hw0]
  have hsh : ∀ k : Fin 80, (E2 m ρ c main_v3_1 : S1x80.Idx → EReal) (ix2 0 k)
      = Cert.Vlad.shift (Cert.Vlad.xOf (m ((c : Thread nD τ).loc main_arg0))) (Cert.Vlad.cOf (m ((c : Thread nD τ).loc main_arg1)))
          (Cert.Vlad.rowOf (m ((c : Thread nD τ).loc main_arg3))) (Cert.Vlad.rowOf (m ((c : Thread nD τ).loc main_arg4))) k := fun k => by
    refine (congrFun (B2_arr m ρ c 5) (ix2 0 k)).trans ?_
    rw [arrAt0_5_apply, hx0, hcl0, hw0, hb0]
  -- and the block's normalised logits are the one-pass form's
  have hz : ∀ b : Fin 64, zV (E2 m ρ) c b
      = Cert.Vlad.zOnePass (Cert.Vlad.xOf (m ((c : Thread nD τ).loc main_arg0))) (Cert.Vlad.cOf (m ((c : Thread nD τ).loc main_arg1)))
          (Cert.Vlad.rowOf (m ((c : Thread nD τ).loc main_arg3))) (Cert.Vlad.rowOf (m ((c : Thread nD τ).loc main_arg4))) b := fun b => by
    funext n k
    show Cert.Vlad.logitB (xB (E2 m ρ) c b) (clV (E2 m ρ) c) n k * (E2 m ρ c main_v3_0 : S1x80.Idx → EReal) (ix2 0 k)
        + (E2 m ρ c main_v3_1 : S1x80.Idx → EReal) (ix2 0 k) = _
    rw [hx, hcl, hs, hsh]
    rfl
  funext j
  obtain ⟨b, jj, rfl⟩ : ∃ (b : Fin 64) (jj : Fin 32768), j = ix2 b jj := ⟨j 0, j 1, eq_ix2 j⟩
  rw [B4_v5_apply]
  refine (congrFun (B3_arr m ρ c 5) (ix3 b (Cert.Vlad.dOf jj) (Cert.Vlad.kOf jj))).trans ?_
  rw [arrAt1_5_apply, hx, hc2, hz]
  rfl

end Cert.KernelIdeal.Hand

end
-- ==== Proof.RowIdx.lean ====
/- The 131072 rows of the flattened input are the pairs (batch b, row n), row-major: r = b * 2048 + n. -/
import Mathlib.Algebra.BigOperators.Fin
import Mathlib.Data.Fintype.BigOperators

namespace Cert.Vlad

/-- Row r = b * 2048 + n of the flattened [131072, ·] arrays. -/
def rowIx (b : Fin 64) (n : Fin 2048) : Fin 131072 := ⟨b.val * 2048 + n.val, by omega⟩
def bOf (r : Fin 131072) : Fin 64 := ⟨r.val / 2048, by omega⟩
def nOf (r : Fin 131072) : Fin 2048 := ⟨r.val % 2048, by omega⟩

theorem rowIx_bOf_nOf (r : Fin 131072) : rowIx (bOf r) (nOf r) = r := by
  apply Fin.ext; simp only [rowIx, bOf, nOf]; omega
theorem bOf_rowIx (b : Fin 64) (n : Fin 2048) : bOf (rowIx b n) = b := by
  apply Fin.ext; simp only [rowIx, bOf]; omega
theorem nOf_rowIx (b : Fin 64) (n : Fin 2048) : nOf (rowIx b n) = n := by
  apply Fin.ext; simp only [rowIx, nOf]; omega

/-- A sum over all rows is the sum over batches of the sums over a batch's rows. -/
theorem sum_rows {M : Type*} [AddCommMonoid M] (f : Fin 131072 → M) :
    ∑ r : Fin 131072, f r = ∑ b : Fin 64, ∑ n : Fin 2048, f (rowIx b n) := by
  -- the pairs (b, n) and the rows r correspond one to one by r = b * 2048 + n
  let e : Fin 64 × Fin 2048 ≃ Fin 131072 :=
    { toFun := fun p => rowIx p.1 p.2
      invFun := fun r => (bOf r, nOf r)
      left_inv := fun p => Prod.ext (bOf_rowIx p.1 p.2) (nOf_rowIx p.1 p.2)
      right_inv := fun r => rowIx_bOf_nOf r }
  calc ∑ r : Fin 131072, f r
      = ∑ p : Fin 64 × Fin 2048, f (rowIx p.1 p.2) :=
        (Fintype.sum_equiv e (fun p => f (rowIx p.1 p.2)) f (fun _ => rfl)).symm
    _ = ∑ b : Fin 64, ∑ n : Fin 2048, f (rowIx b n) :=
        Fintype.sum_prod_type (fun p : Fin 64 × Fin 2048 => f (rowIx p.1 p.2))

end Cert.Vlad
-- ==== Proof.RefStats.lean ====
/- The reference program's first half read index by index: the normalised logits (its buffer main_v26) are the
   two-pass form of the specification. -/
import proofs.«145796_j17514876633353_1_alg».proof.Proof.Gen.ReferenceIdeal.Run
import proofs.«145796_j17514876633353_1_alg».proof.Proof.Spec
import proofs.«145796_j17514876633353_1_alg».proof.Proof.RowIdx
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Vlad

namespace Stats

/-- The reference's one matrix product: rows of [131072, 512] against columns of [512, 80]. -/
abbrev D1 : DotDims S131072x512 S512x80 S131072x80 := dot_S131072x512_S512x80_S131072x80_1_0_0_1_n_n

theorem D1_rank : D1.contr.rank = 1 := rfl
theorem D1_size : D1.contr.size ⟨0, by rw [D1_rank]; omega⟩ = 512 := rfl

/-- The operand indices of the product at result index j and contraction index q, axis by axis. -/
theorem D1_lhs0 (j : S131072x80.Idx) (q : D1.contr.Idx) : (D1.lhsIdx j q 0).val = (j 0).val := rfl
theorem D1_lhs1 (j : S131072x80.Idx) (q : D1.contr.Idx) : (D1.lhsIdx j q 1).val = (q ⟨0, by rw [D1_rank]; omega⟩).val := rfl
theorem D1_rhs0 (j : S131072x80.Idx) (q : D1.contr.Idx) : (D1.rhsIdx j q 0).val = (q ⟨0, by rw [D1_rank]; omega⟩).val := rfl
theorem D1_rhs1 (j : S131072x80.Idx) (q : D1.contr.Idx) : (D1.rhsIdx j q 1).val = (j 1).val := rfl

/-- The logits: row b * 2048 + n of the flattened input against column k of the clusters. -/
theorem v1_eq (V0 : Valuation τ sig (Elt Ideal)) (b : Fin 64) (n : Fin 2048) (k : Fin 80) :
    res_main_v1 V0 (ix2 (rowIx b n) k)
      = logit (xOf (V0 (Proc.devRef .tc main_arg0))) (cOf (V0 (Proc.devRef .tc main_arg1))) b n k := by
  unfold res_main_v1
  simp only [Host.dotGeneral]
  refine (Ideal.dotGeneral_apply _ _ _ _ _ _).trans ?_
  rw [← Equiv.sum_comp (contrEquiv1 D1 512 D1_rank D1_size).symm]
  unfold logit logitB
  refine Finset.sum_congr rfl fun d _ => ?_
  -- the contraction index that the coordinate d names has d on its one axis
  have hq : (((contrEquiv1 D1 512 D1_rank D1_size).symm d) ⟨0, by rw [D1_rank]; omega⟩ : ℕ) = d.val :=
    contrEquiv1_symm_val D1 512 D1_rank D1_size d
  -- the flattened input at (b * 2048 + n, d) is the input at (b, n, d): both sit at ((b * 2048 + n) * 512 + d)
  have hl : shapeCast S131072x512 (V0 (Proc.devRef .tc main_arg0)) shapeCasts_S64x2048x512_S131072x512
        (D1.lhsIdx (ix2 (rowIx b n) k) ((contrEquiv1 D1 512 D1_rank D1_size).symm d))
      = V0 (Proc.devRef .tc main_arg0) (ix3 b n d) := by
    refine shapeCast_apply _ _ _ (ix3 b n d) ?_
    rw [Shape.rowMajor_val_three, Shape.rowMajor_val_two, D1_lhs0, D1_lhs1, hq]
    rfl
  have hr : V0 (Proc.devRef .tc main_arg1)
        (D1.rhsIdx (ix2 (rowIx b n) k) ((contrEquiv1 D1 512 D1_rank D1_size).symm d))
      = V0 (Proc.devRef .tc main_arg1) (ix2 d k) :=
    congrArg _ (Shape.idx_ext₂ (by rw [D1_rhs0, hq]) (by rw [D1_rhs1]))
  exact congrArg₂ (· * ·) hl hr

/-- The column means: the column sums over all rows divided by the row count. -/
theorem v4_eq (V0 : Valuation τ sig (Elt Ideal)) (k : Fin 80) :
    res_main_v4 V0 (ix1 k)
      = mean (xOf (V0 (Proc.devRef .tc main_arg0))) (cOf (V0 (Proc.devRef .tc main_arg1))) k := by
  unfold res_main_v4
  refine (hostDivf_apply _ _ _).trans ?_
  unfold mean
  refine congrArg₂ Ideal.div ?_ ?_
  · -- the reduction over axis 0 from the zero word is the sum over the 131072 rows
    refine (hostReduceAdd_apply _ _ _ _ _).trans ?_
    refine (Ideal.hostReduceAdd_single reducesTo_S131072x80_S80_d0 (by decide) _ _ _).trans ?_
    refine (congrArg (· + _) Ideal.ofBits_zero_f32).trans ((zero_add _).trans ?_)
    unfold colSum
    -- rows r = b * 2048 + n, batch by batch
    refine (sum_rows _).trans ?_
    refine Finset.sum_congr rfl fun b _ => Finset.sum_congr rfl fun n _ => ?_
    refine Eq.trans (congrArg (res_main_v1 V0) ?_) (v1_eq V0 b n k)
    exact Shape.idx_ext₂ rfl rfl
  · -- the divisor is the row-count word at every column
    refine (broadcastInDim_scalar_apply _ _ _).trans ?_
    rfl

/-- A row of 80 broadcast to [1, 80] and then down the 131072 rows reads, at (r, k), the row at k. -/
theorem bcastRow_apply {α : Type} (v : S80.Idx → α) (r : Fin 131072) (k : Fin 80) :
    broadcastInDim S131072x80 ![0, 1] bcast_S1x80_S131072x80_0_1 (broadcastInDim S1x80 ![1] bcast_S80_S1x80_1 v) (ix2 r k)
      = v (ix1 k) := by
  refine (broadcastInDim_apply _ _ _ _ (ix2 (0 : Fin 1) k) fun a => ?_).trans ?_
  · match a with
    | ⟨0, _⟩ => rfl
    | ⟨1, _⟩ => rfl
  · refine broadcastInDim_apply _ _ _ _ (ix1 k) fun a => ?_
    match a with
    | ⟨0, _⟩ => rfl

/-- The centred logits. -/
theorem v7_eq (V0 : Valuation τ sig (Elt Ideal)) (b : Fin 64) (n : Fin 2048) (k : Fin 80) :
    res_main_v7 V0 (ix2 (rowIx b n) k)
      = logit (xOf (V0 (Proc.devRef .tc main_arg0))) (cOf (V0 (Proc.devRef .tc main_arg1))) b n k
        - mean (xOf (V0 (Proc.devRef .tc main_arg0))) (cOf (V0 (Proc.devRef .tc main_arg1))) k := by
  unfold res_main_v7
  refine (subf_apply _ _ _).trans ?_
  exact congrArg₂ (· - ·) (v1_eq V0 b n k) ((bcastRow_apply _ _ _).trans (v4_eq V0 k))

/-- The two-pass variance of a column: the mean of the squared deviations over all rows. -/
theorem var_eq (V0 : Valuation τ sig (Elt Ideal)) (k : Fin 80) :
    Host.divf (Host.reduceAdd (mulf (res_main_v7 V0) (res_main_v7 V0)) (constant S_ .f32 0x00000000#32)
        reducesTo_S131072x80_S80_d0 h_S_)
      (broadcastInDim S80 ![] bcast_S_S80 (constant S_ .f32 0x48000000#32)) (ix1 k)
      = varTwoPass (xOf (V0 (Proc.devRef .tc main_arg0))) (cOf (V0 (Proc.devRef .tc main_arg1))) k := by
  refine (hostDivf_apply _ _ _).trans ?_
  unfold varTwoPass
  refine congrArg₂ Ideal.div ?_ ?_
  · -- the reduction over axis 0 from the zero word is the sum over the 131072 rows
    refine (hostReduceAdd_apply _ _ _ _ _).trans ?_
    refine (Ideal.hostReduceAdd_single reducesTo_S131072x80_S80_d0 (by decide) _ _ _).trans ?_
    refine (congrArg (· + _) Ideal.ofBits_zero_f32).trans ((zero_add _).trans ?_)
    -- rows r = b * 2048 + n, batch by batch
    refine (sum_rows _).trans ?_
    refine Finset.sum_congr rfl fun b _ => Finset.sum_congr rfl fun n _ => ?_
    refine Eq.trans (congrArg (mulf (res_main_v7 V0) (res_main_v7 V0)) ?_)
      ((mulf_apply _ _ (ix2 (rowIx b n) k)).trans (congrArg₂ (· * ·) (v7_eq V0 b n k) (v7_eq V0 b n k)))
    exact Shape.idx_ext₂ rfl rfl
  · -- the divisor is the row-count word at every column
    refine (broadcastInDim_scalar_apply _ _ _).trans ?_
    rfl

end Stats

open Stats

/-- The normalised logits at row b * 2048 + n, column k. -/
theorem z_eq (V0 : Valuation τ sig (Elt Ideal)) (b : Fin 64) (n : Fin 2048) (k : Fin 80) :
    res_main_v26 V0 (ix2 (rowIx b n) k)
      = zTwoPass (xOf (V0 (Proc.devRef .tc main_arg0))) (cOf (V0 (Proc.devRef .tc main_arg1)))
          (rowOf (V0 (Proc.devRef .tc main_arg3))) (rowOf (V0 (Proc.devRef .tc main_arg4))) b n k := by
  unfold res_main_v26
  unfold zTwoPass
  -- (… * w k) + bias k: the bias row broadcast down the rows
  refine (addf_apply _ _ _).trans ?_
  refine congrArg₂ (· + ·) ?_ (bcastRow_apply _ _ _)
  -- (… * rsqrt …) * w k: the weight row broadcast down the rows
  refine (mulf_apply _ _ _).trans ?_
  refine congrArg₂ (· * ·) ?_ (bcastRow_apply _ _ _)
  refine (mulf_apply _ _ _).trans ?_
  refine congrArg₂ (· * ·) ?_ ?_
  · -- the centred logit
    refine (subf_apply _ _ _).trans ?_
    exact congrArg₂ (· - ·) (v1_eq V0 b n k) ((bcastRow_apply _ _ _).trans (v4_eq V0 k))
  · -- the reciprocal square root of variance plus epsilon, a row broadcast down the rows
    refine (bcastRow_apply _ _ _).trans ?_
    refine congrArg Ideal.rsqrt ?_
    refine (addf_apply _ _ _).trans ?_
    exact congrArg₂ (· + ·) (var_eq V0 k) ((broadcastInDim_scalar_apply _ _ _).trans rfl)

end Cert.ReferenceIdeal.RefValue

end
-- ==== Proof.RefDown.lean ====
/- The reference program's second half read index by index: from its normalised logits (buffer main_v26) to the
   result, it is the downstream function of the specification batch by batch. -/
import proofs.«145796_j17514876633353_1_alg».proof.Proof.Gen.ReferenceIdeal.Run
import proofs.«145796_j17514876633353_1_alg».proof.Proof.Spec
import proofs.«145796_j17514876633353_1_alg».proof.Proof.RowIdx
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value Cert.Vlad

/-! The operations of this half, each read at explicit coordinates over an arbitrary operand, then the named terms. -/
namespace Down

/-- Reducing the columns of a [131072, 80] array: the witness that names the inserted index. -/
theorem reduces_rows80 : S131072x80.Reduces [1] S131072 := by decide

/-- Row r with column k inserted is the index (r, k). -/
theorem lift_rows80 (r : Fin 131072) (k : Fin 80) : reduces_rows80.lift (ix1 r) k = ix2 r k := by
  funext a
  match a with
  | ⟨0, _⟩ => exact Fin.ext rfl
  | ⟨1, _⟩ => exact Fin.ext rfl

/-- A maximum folded from a start value is at least the start value. -/
theorem max_fold_self (a : EReal) (f : Fin 80 → EReal) :
    max a ((Finset.univ : Finset (Fin 80)).fold max a f) = (Finset.univ : Finset (Fin 80)).fold max a f :=
  max_eq_right ((Finset.le_fold_max a).2 (Or.inl le_rfl))

/-- The host's exponential, square root at an index. -/
theorem hostExp_apply {s : Shape} {φ : FTy} (x : FVec Ideal s φ) (i : s.Idx) : Host.exp x i = Ideal.exp (x i) := rfl
theorem hostSqrt_apply {s : Shape} {φ : FTy} (x : FVec Ideal s φ) (i : s.Idx) : Host.sqrt x i = Ideal.sqrt (x i) := rfl

/-- The softmax numerator of a [131072, 80] array at (r, k): exp of the entry less its row's maximum folded from -inf. -/
theorem expSubMax_apply (A : FVec Ideal S131072x80 .f32) (r : Fin 131072) (k : Fin 80) :
    Host.exp (subf A (broadcastInDim S131072x80 ![0, 1] bcast_S131072x1_S131072x80_0_1 (broadcastInDim S131072x1 ![0] bcast_S131072_S131072x1_0 (maximumf (broadcastInDim S131072 ![] bcast_S_S131072 (constant S_ .f32 0xFF800000#32)) (Host.reduce FloatOps.maximumf A (constant S_ .f32 0xFF800000#32) reducesTo_S131072x80_S131072_d1 h_S_))))) (ix2 r k)
      = Ideal.exp (A (ix2 r k) - (Finset.univ : Finset (Fin 80)).fold max negInf (fun k' => A (ix2 r k'))) := by
  refine (hostExp_apply _ _).trans (congrArg Ideal.exp ?_)
  refine (subf_apply _ _ _).trans (congrArg (fun t => A (ix2 r k) - t) ?_)
  refine (broadcastInDim_apply _ _ _ (ix2 r k) (ix2 r (0 : Fin 1)) ?_).trans ?_
  · intro a
    match a with
    | ⟨0, _⟩ => rfl
    | ⟨1, _⟩ => rfl
  refine (broadcastInDim_apply _ _ _ (ix2 r (0 : Fin 1)) (ix1 r) ?_).trans ?_
  · intro a
    match a with
    | ⟨0, _⟩ => rfl
  refine (maximumf_apply _ _ _).trans ?_
  have e1 : broadcastInDim S131072 ![] bcast_S_S131072 (constant (F := Ideal) S_ .f32 0xFF800000#32) (ix1 r) = negInf :=
    broadcastInDim_scalar_apply _ _ _
  have hf : (A ∘ reduces_rows80.lift (ix1 r)) = fun k' => A (ix2 r k') := funext fun k' => congrArg A (lift_rows80 r k')
  have e2 : Host.reduce FloatOps.maximumf A (constant (F := Ideal) S_ .f32 0xFF800000#32) reducesTo_S131072x80_S131072_d1 h_S_ (ix1 r)
      = (Finset.univ : Finset (Fin 80)).fold max negInf (fun k' => A (ix2 r k')) :=
    (Host.reduce_eq_fold_single FloatOps.maximumf A _ reducesTo_S131072x80_S131072_d1 reduces_rows80 h_S_ (ix1 r)).trans
      (congrArg (fun f => (Finset.univ : Finset (Fin 80)).fold max negInf f) hf)
  rw [e1, e2]
  exact max_fold_self _ _

/-- The quotient by the row sum, its first 64 columns, reshaped to [64, 2048, 64], at (b, n, k): row b * 2048 + n. -/
theorem divRowSum_apply (E : FVec Ideal S131072x80 .f32) (b : Fin 64) (n : Fin 2048) (k : Fin 64) :
    shapeCast S64x2048x64 (extractStridedSlice S131072x64 ![0, 0] (Host.divf E (broadcastInDim S131072x80 ![0, 1] bcast_S131072x1_S131072x80_0_1 (broadcastInDim S131072x1 ![0] bcast_S131072_S131072x1_0 (Host.reduceAdd E (constant S_ .f32 0x00000000#32) reducesTo_S131072x80_S131072_d1 h_S_)))) slices_S131072x80_S131072x64_0_0) shapeCasts_S131072x64_S64x2048x64 (ix3 b n k)
      = Ideal.div (E (ix2 (rowIx b n) (Fin.castLE (by decide) k))) (∑ k' : Fin 80, E (ix2 (rowIx b n) k')) := by
  refine (shapeCast_apply _ _ (ix3 b n k) (ix2 (rowIx b n) k) ?_).trans ?_
  · rw [Shape.rowMajor_val_two, Shape.rowMajor_val_three]; rfl
  refine (extractStridedSlice_apply _ _ _ (ix2 (rowIx b n) k) (ix2 (rowIx b n) (Fin.castLE (by decide) k)) ?_).trans ?_
  · intro a
    match a with
    | ⟨0, _⟩ => exact (Nat.zero_add _).symm
    | ⟨1, _⟩ => exact (Nat.zero_add _).symm
  refine (hostDivf_apply _ _ _).trans (congrArg (Ideal.div (E (ix2 (rowIx b n) (Fin.castLE (by decide) k)))) ?_)
  refine (broadcastInDim_apply _ _ _ (ix2 (rowIx b n) (Fin.castLE (by decide) k)) (ix2 (rowIx b n) (0 : Fin 1)) ?_).trans ?_
  · intro a
    match a with
    | ⟨0, _⟩ => rfl
    | ⟨1, _⟩ => rfl
  refine (broadcastInDim_apply _ _ _ (ix2 (rowIx b n) (0 : Fin 1)) (ix1 (rowIx b n)) ?_).trans ?_
  · intro a
    match a with
    | ⟨0, _⟩ => rfl
  refine (hostReduceAdd_apply _ _ _ _ _).trans ?_
  refine (Ideal.hostReduceAdd_single reducesTo_S131072x80_S131072_d1 reduces_rows80 E _ (ix1 (rowIx b n))).trans ?_
  have e0 : constant (F := Ideal) S_ .f32 0x00000000#32 (Shape.Idx.first h_S_) = 0 := Ideal.ofBits_zero_f32
  rw [e0, zero_add]
  exact Finset.sum_congr rfl fun k' _ => congrArg E (lift_rows80 _ k')

/-- Reducing the rows of one batch of a [64, 2048, 64] array. -/
theorem reduces_mid2048 : S64x2048x64.Reduces [1] S64x64 := by decide

/-- (b, k) with row n inserted is (b, n, k). -/
theorem lift_mid2048 (b : Fin 64) (k : Fin 64) (n : Fin 2048) : reduces_mid2048.lift (ix2 b k) n = ix3 b n k := by
  funext a
  match a with
  | ⟨0, _⟩ => exact Fin.ext rfl
  | ⟨1, _⟩ => exact Fin.ext rfl
  | ⟨2, _⟩ => exact Fin.ext rfl

/-- The batched product's operand indices at result (b, d, k): the left operand is read at (b, n, d) ... -/
theorem dotB_lhs0 (j : S64x512x64.Idx) (q : dot_S64x2048x512_S64x2048x64_S64x512x64_1_1_2_2_0_0.contr.Idx) :
    (dot_S64x2048x512_S64x2048x64_S64x512x64_1_1_2_2_0_0.lhsIdx j q 0 : ℕ) = j 0 := by
  simp [DotDims.lhsIdx, dot_S64x2048x512_S64x2048x64_S64x512x64_1_1_2_2_0_0]; rfl
theorem dotB_lhs2 (j : S64x512x64.Idx) (q : dot_S64x2048x512_S64x2048x64_S64x512x64_1_1_2_2_0_0.contr.Idx) :
    (dot_S64x2048x512_S64x2048x64_S64x512x64_1_1_2_2_0_0.lhsIdx j q 2 : ℕ) = j 1 := by
  simp [DotDims.lhsIdx, dot_S64x2048x512_S64x2048x64_S64x512x64_1_1_2_2_0_0]; rfl
/-- ... and the right operand at (b, n, k). -/
theorem dotB_rhs0 (j : S64x512x64.Idx) (q : dot_S64x2048x512_S64x2048x64_S64x512x64_1_1_2_2_0_0.contr.Idx) :
    (dot_S64x2048x512_S64x2048x64_S64x512x64_1_1_2_2_0_0.rhsIdx j q 0 : ℕ) = j 0 := by
  simp [DotDims.rhsIdx, dot_S64x2048x512_S64x2048x64_S64x512x64_1_1_2_2_0_0]; rfl
theorem dotB_rhs2 (j : S64x512x64.Idx) (q : dot_S64x2048x512_S64x2048x64_S64x512x64_1_1_2_2_0_0.contr.Idx) :
    (dot_S64x2048x512_S64x2048x64_S64x512x64_1_1_2_2_0_0.rhsIdx j q 2 : ℕ) = j 2 := by
  simp [DotDims.rhsIdx, dot_S64x2048x512_S64x2048x64_S64x512x64_1_1_2_2_0_0]; rfl

/-- The batched product over the 2048 rows of a batch, read at (b, d, k). -/
theorem dotB_apply (X : FVec Ideal S64x2048x512 .f32) (P : FVec Ideal S64x2048x64 .f32) (b : Fin 64) (d : Fin 512) (k : Fin 64) :
    Host.dotGeneral dot_S64x2048x512_S64x2048x64_S64x512x64_1_1_2_2_0_0 none X P (ix3 b d k)
      = ∑ n : Fin 2048, X (ix3 b n d) * P (ix3 b n k) := by
  show FloatOps.dotGeneral _ none _ X P (ix3 b d k) = _
  rw [Ideal.dotGeneral_apply,
    ← Equiv.sum_comp (contrEquiv1 dot_S64x2048x512_S64x2048x64_S64x512x64_1_1_2_2_0_0 2048 rfl rfl).symm]
  refine Finset.sum_congr rfl fun c _ => ?_
  have c3 := contrEquiv1_symm_val dot_S64x2048x512_S64x2048x64_S64x512x64_1_1_2_2_0_0 2048 rfl rfl c
  have l3 : dot_S64x2048x512_S64x2048x64_S64x512x64_1_1_2_2_0_0.lhsIdx (ix3 b d k)
      ((contrEquiv1 _ 2048 rfl rfl).symm c) = ix3 b c d := by
    funext ax; apply Fin.ext
    match ax with
    | ⟨0, _⟩ => exact dotB_lhs0 _ _
    | ⟨1, _⟩ => exact (DotDims.lhsIdx_val_of_single _ (cl := 1) rfl _ _).trans c3
    | ⟨2, _⟩ => exact dotB_lhs2 _ _
  have r3 : dot_S64x2048x512_S64x2048x64_S64x512x64_1_1_2_2_0_0.rhsIdx (ix3 b d k)
      ((contrEquiv1 _ 2048 rfl rfl).symm c) = ix3 b c k := by
    funext ax; apply Fin.ext
    match ax with
    | ⟨0, _⟩ => exact dotB_rhs0 _ _
    | ⟨1, _⟩ => exact (DotDims.rhsIdx_val_of_single _ (cr := 1) rfl _ _).trans c3
    | ⟨2, _⟩ => exact dotB_rhs2 _ _
  rw [l3, r3]

/-- The f32 zero word a host sum starts from is 0. -/
theorem zeroWord_first : constant (F := Ideal) S_ .f32 0x00000000#32 (Shape.Idx.first h_S_) = 0 := Ideal.ofBits_zero_f32

/-- The batched product less (the sum over a batch's rows) times the broadcast third argument, at (b, d, k). -/
theorem vladOf_apply (X : FVec Ideal S64x2048x512 .f32) (P : FVec Ideal S64x2048x64 .f32) (C : FVec Ideal S1x512x64 .f32)
    (b : Fin 64) (d : Fin 512) (k : Fin 64) :
    subf (Host.dotGeneral dot_S64x2048x512_S64x2048x64_S64x512x64_1_1_2_2_0_0 none X P) (mulf (broadcastInDim S64x512x64 ![0, 1, 2] bcast_S64x1x64_S64x512x64_0_1_2 (broadcastInDim S64x1x64 ![0, 2] bcast_S64x64_S64x1x64_0_2 (Host.reduceAdd P (constant S_ .f32 0x00000000#32) reducesTo_S64x2048x64_S64x64_d1 h_S_))) (broadcastInDim S64x512x64 ![0, 1, 2] bcast_S1x512x64_S64x512x64_0_1_2 C)) (ix3 b d k)
      = (∑ n : Fin 2048, X (ix3 b n d) * P (ix3 b n k)) - (∑ n : Fin 2048, P (ix3 b n k)) * C (ix3 0 d k) := by
  refine (subf_apply _ _ _).trans ?_
  refine congrArg₂ (fun s t : EReal => s - t) (dotB_apply X P b d k) ?_
  refine (mulf_apply _ _ _).trans ?_
  refine congrArg₂ (fun s t : EReal => s * t) ?_ ?_
  · refine (broadcastInDim_apply _ _ _ (ix3 b d k) (ix3 b (0 : Fin 1) k) ?_).trans ?_
    · intro a
      match a with
      | ⟨0, _⟩ => rfl
      | ⟨1, _⟩ => rfl
      | ⟨2, _⟩ => rfl
    refine (broadcastInDim_apply _ _ _ (ix3 b (0 : Fin 1) k) (ix2 b k) ?_).trans ?_
    · intro a
      match a with
      | ⟨0, _⟩ => rfl
      | ⟨1, _⟩ => rfl
    refine (hostReduceAdd_apply _ _ _ _ _).trans ?_
    refine (Ideal.hostReduceAdd_single reducesTo_S64x2048x64_S64x64_d1 reduces_mid2048 P _ (ix2 b k)).trans ?_
    rw [zeroWord_first, zero_add]
    exact Finset.sum_congr rfl fun n _ => congrArg P (lift_mid2048 b k n)
  · refine broadcastInDim_apply _ _ _ (ix3 b d k) (ix3 (0 : Fin 1) d k) ?_
    intro a
    match a with
    | ⟨0, _⟩ => rfl
    | ⟨1, _⟩ => rfl
    | ⟨2, _⟩ => rfl

/-- Reducing the middle axis of a [64, 512, 64] array. -/
theorem reduces_mid512 : S64x512x64.Reduces [1] S64x64 := by decide

/-- (b, k) with coordinate d inserted is (b, d, k). -/
theorem lift_mid512 (b : Fin 64) (k : Fin 64) (d : Fin 512) : reduces_mid512.lift (ix2 b k) d = ix3 b d k := by
  funext a
  match a with
  | ⟨0, _⟩ => exact Fin.ext rfl
  | ⟨1, _⟩ => exact Fin.ext rfl
  | ⟨2, _⟩ => exact Fin.ext rfl

/-- A [64, 512, 64] array divided by max(sqrt(sum over d of squares), eps) and flattened to [64, 32768], at (b, j):
    column j is (d, k) = (j / 64, j % 64). -/
theorem intraOf_apply (W : FVec Ideal S64x512x64 .f32) (b : Fin 64) (j : Fin 32768) :
    shapeCast S64x32768 (Host.divf W (broadcastInDim S64x512x64 ![0, 1, 2] bcast_S64x1x64_S64x512x64_0_1_2 (maximumf (Host.sqrt (broadcastInDim S64x1x64 ![0, 2] bcast_S64x64_S64x1x64_0_2 (Host.reduceAdd (mulf W W) (constant S_ .f32 0x00000000#32) reducesTo_S64x512x64_S64x64_d1 h_S_))) (broadcastInDim S64x1x64 ![] bcast_S_S64x1x64 (constant S_ .f32 0x2B8CBCCC#32))))) shapeCasts_S64x512x64_S64x32768 (ix2 b j)
      = Ideal.div (W (ix3 b (dOf j) (kOf j)))
          (max (Ideal.sqrt (∑ d : Fin 512, W (ix3 b d (kOf j)) * W (ix3 b d (kOf j)))) epsN) := by
  refine (shapeCast_apply _ _ (ix2 b j) (ix3 b (dOf j) (kOf j)) ?_).trans ?_
  · rw [Shape.rowMajor_val_two, Shape.rowMajor_val_three]
    show (b.val * 512 + j.val / 64) * 64 + j.val % 64 = b.val * 32768 + j.val
    omega
  refine (hostDivf_apply _ _ _).trans (congrArg (Ideal.div (W (ix3 b (dOf j) (kOf j)))) ?_)
  refine (broadcastInDim_apply _ _ _ (ix3 b (dOf j) (kOf j)) (ix3 b (0 : Fin 1) (kOf j)) ?_).trans ?_
  · intro a
    match a with
    | ⟨0, _⟩ => rfl
    | ⟨1, _⟩ => rfl
    | ⟨2, _⟩ => rfl
  refine (maximumf_apply _ _ _).trans ?_
  refine congrArg₂ (fun s t : EReal => max s t) ?_ (broadcastInDim_scalar_apply _ _ _)
  refine (hostSqrt_apply _ _).trans (congrArg Ideal.sqrt ?_)
  refine (broadcastInDim_apply _ _ _ (ix3 b (0 : Fin 1) (kOf j)) (ix2 b (kOf j)) ?_).trans ?_
  · intro a
    match a with
    | ⟨0, _⟩ => rfl
    | ⟨1, _⟩ => rfl
  refine (hostReduceAdd_apply _ _ _ _ _).trans ?_
  refine (Ideal.hostReduceAdd_single reducesTo_S64x512x64_S64x64_d1 reduces_mid512 (mulf W W) _ (ix2 b (kOf j))).trans ?_
  rw [zeroWord_first, zero_add]
  exact Finset.sum_congr rfl fun d _ => congrArg (fun i => W i * W i) (lift_mid512 b (kOf j) d)

/-- Reducing the columns of a [64, 32768] array. -/
theorem reduces_cols : S64x32768.Reduces [1] S64 := by decide

/-- Batch b with column j inserted is (b, j). -/
theorem lift_cols (b : Fin 64) (j : Fin 32768) : reduces_cols.lift (ix1 b) j = ix2 b j := by
  funext a
  match a with
  | ⟨0, _⟩ => exact Fin.ext rfl
  | ⟨1, _⟩ => exact Fin.ext rfl

/-- The 32768 flat columns are the pairs (d, k), row-major: j = d * 64 + k. -/
def colEquiv : Fin 512 × Fin 64 ≃ Fin 32768 where
  toFun p := ⟨p.1.val * 64 + p.2.val, by omega⟩
  invFun j := (dOf j, kOf j)
  left_inv p := by
    apply Prod.ext <;> apply Fin.ext <;> simp only [dOf, kOf] <;> omega
  right_inv j := by
    apply Fin.ext; simp only [dOf, kOf]; omega

/-- A sum over the flat columns is the double sum over (d, k). -/
theorem sum_cols {M : Type*} [AddCommMonoid M] (g : Fin 512 → Fin 64 → M) :
    ∑ j : Fin 32768, g (dOf j) (kOf j) = ∑ d : Fin 512, ∑ k : Fin 64, g d k := by
  rw [← Fintype.sum_prod_type (f := fun p : Fin 512 × Fin 64 => g p.1 p.2)]
  exact Fintype.sum_equiv colEquiv.symm _ _ (fun j => rfl)

/-- A [64, 32768] array divided by max(sqrt(sum over its columns of squares), eps), at (b, j). -/
theorem outOf_apply (I : FVec Ideal S64x32768 .f32) (b : Fin 64) (j : Fin 32768) :
    Host.divf I (broadcastInDim S64x32768 ![0, 1] bcast_S64x1_S64x32768_0_1 (maximumf (Host.sqrt (broadcastInDim S64x1 ![0] bcast_S64_S64x1_0 (Host.reduceAdd (mulf I I) (constant S_ .f32 0x00000000#32) reducesTo_S64x32768_S64_d1 h_S_))) (broadcastInDim S64x1 ![] bcast_S_S64x1 (constant S_ .f32 0x2B8CBCCC#32)))) (ix2 b j)
      = Ideal.div (I (ix2 b j)) (max (Ideal.sqrt (∑ j' : Fin 32768, I (ix2 b j') * I (ix2 b j'))) epsN) := by
  refine (hostDivf_apply _ _ _).trans (congrArg (Ideal.div (I (ix2 b j))) ?_)
  refine (broadcastInDim_apply _ _ _ (ix2 b j) (ix2 b (0 : Fin 1)) ?_).trans ?_
  · intro a
    match a with
    | ⟨0, _⟩ => rfl
    | ⟨1, _⟩ => rfl
  refine (maximumf_apply _ _ _).trans ?_
  refine congrArg₂ (fun s t : EReal => max s t) ?_ (broadcastInDim_scalar_apply _ _ _)
  refine (hostSqrt_apply _ _).trans (congrArg Ideal.sqrt ?_)
  refine (broadcastInDim_apply _ _ _ (ix2 b (0 : Fin 1)) (ix1 b) ?_).trans ?_
  · intro a
    match a with
    | ⟨0, _⟩ => rfl
  refine (hostReduceAdd_apply _ _ _ _ _).trans ?_
  refine (Ideal.hostReduceAdd_single reducesTo_S64x32768_S64_d1 reduces_cols (mulf I I) _ (ix1 b)).trans ?_
  rw [zeroWord_first, zero_add]
  exact Finset.sum_congr rfl fun j' _ => congrArg (fun i => I i * I i) (lift_cols b j')

section Terms

variable (V0 : Valuation τ sig (Elt Ideal)) (Z : Logits)
  (hZ : ∀ (b : Fin 64) (n : Fin 2048) (k : Fin 80), res_main_v26 V0 (ix2 (rowIx b n) k) = Z b n k)
include hZ

/-- The exponentials: row (b, n), column k. -/
theorem v33_apply (b : Fin 64) (n : Fin 2048) (k : Fin 80) :
    res_main_v33 V0 (ix2 (rowIx b n) k) = exB (Z b) n k := by
  unfold res_main_v33
  refine (expSubMax_apply (res_main_v26 V0) (rowIx b n) k).trans ?_
  unfold exB rowMaxB
  rw [hZ]
  exact congrArg (fun f => Ideal.exp (Z b n k - (Finset.univ : Finset (Fin 80)).fold max negInf f)) (funext fun k' => hZ b n k')

/-- The softmax's first 64 columns, as [64, 2048, 64]. -/
theorem v39_apply (b : Fin 64) (n : Fin 2048) (k : Fin 64) :
    res_main_v39 V0 (ix3 b n k) = probB (Z b) n k := by
  unfold res_main_v39
  refine (divRowSum_apply (res_main_v33 V0) b n k).trans ?_
  exact congrArg₂ Ideal.div (v33_apply V0 Z hZ b n _) (Finset.sum_congr rfl fun k' _ => v33_apply V0 Z hZ b n k')

/-- The residual sums: the batched product less the assignment sum times clusters2. -/
theorem v46_apply (b : Fin 64) (d : Fin 512) (k : Fin 64) :
    res_main_v46 V0 (ix3 b d k)
      = vladB (xOf (V0 (Proc.devRef .tc main_arg0)) b) (c2Of (V0 (Proc.devRef .tc main_arg2))) (Z b) d k := by
  unfold res_main_v46
  refine (vladOf_apply (V0 (Proc.devRef .tc main_arg0)) (res_main_v39 V0) (V0 (Proc.devRef .tc main_arg2)) b d k).trans ?_
  exact congrArg₂ (fun s t : EReal => s - t)
    (Finset.sum_congr rfl fun n _ => congrArg (fun t : EReal => xOf (V0 (Proc.devRef .tc main_arg0)) b n d * t) (v39_apply V0 Z hZ b n k))
    (congrArg (fun t : EReal => t * c2Of (V0 (Proc.devRef .tc main_arg2)) d k) (Finset.sum_congr rfl fun n _ => v39_apply V0 Z hZ b n k))

/-- The column-normalised residuals, flattened: column j is (d, k) = (j / 64, j % 64). -/
theorem v55_apply (b : Fin 64) (j : Fin 32768) :
    res_main_v55 V0 (ix2 b j)
      = intraB (xOf (V0 (Proc.devRef .tc main_arg0)) b) (c2Of (V0 (Proc.devRef .tc main_arg2))) (Z b) (dOf j) (kOf j) := by
  unfold res_main_v55
  refine (intraOf_apply (res_main_v46 V0) b j).trans ?_
  unfold intraB colNormB
  rw [v46_apply V0 Z hZ b (dOf j) (kOf j)]
  exact congrArg (fun f : Fin 512 → EReal => Ideal.div _ (max (Ideal.sqrt (∑ d : Fin 512, f d)) epsN))
    (funext fun d => by rw [v46_apply V0 Z hZ b d (kOf j)])

end Terms

end Down

/-- The reference run's result term (the post of the generated run), named. -/
def refTerm (V0 : Valuation τ sig (Elt Ideal)) : FVec Ideal S64x32768 .f32 :=
  Host.divf (res_main_v55 V0) (broadcastInDim S64x32768 ![0, 1] bcast_S64x1_S64x32768_0_1 (maximumf (Host.sqrt (broadcastInDim S64x1 ![0] bcast_S64_S64x1_0 (Host.reduceAdd (mulf (res_main_v55 V0) (res_main_v55 V0)) (constant S_ .f32 0x00000000#32) reducesTo_S64x32768_S64_d1 h_S_))) (broadcastInDim S64x1 ![] bcast_S_S64x1 (constant S_ .f32 0x2B8CBCCC#32))))

/-- Whatever the normalised logits are, the rest of the reference is the specification's downstream function. -/
theorem refTerm_of_logits (V0 : Valuation τ sig (Elt Ideal)) (Z : Logits)
    (hZ : ∀ (b : Fin 64) (n : Fin 2048) (k : Fin 80), res_main_v26 V0 (ix2 (rowIx b n) k) = Z b n k) :
    refTerm V0 = resultOf (V0 (Proc.devRef .tc main_arg0)) (V0 (Proc.devRef .tc main_arg2)) Z := by
  funext i
  obtain ⟨b, j, rfl⟩ : ∃ (b : Fin 64) (j : Fin 32768), i = ix2 b j := ⟨i 0, i 1, eq_ix2 i⟩
  unfold refTerm
  refine (Down.outOf_apply (res_main_v55 V0) b j).trans ?_
  show _ = outB (xOf (V0 (Proc.devRef .tc main_arg0)) b) (c2Of (V0 (Proc.devRef .tc main_arg2))) (Z b) (dOf j) (kOf j)
  unfold outB gNormB
  rw [← Down.sum_cols (fun d k => intraB (xOf (V0 (Proc.devRef .tc main_arg0)) b) (c2Of (V0 (Proc.devRef .tc main_arg2))) (Z b) d k
      * intraB (xOf (V0 (Proc.devRef .tc main_arg0)) b) (c2Of (V0 (Proc.devRef .tc main_arg2))) (Z b) d k)]
  rw [Down.v55_apply V0 Z hZ b j]
  exact congrArg (fun f : Fin 32768 → EReal => Ideal.div _ (max (Ideal.sqrt (∑ j' : Fin 32768, f j')) epsN))
    (funext fun j' => by rw [Down.v55_apply V0 Z hZ b j'])

end Cert.ReferenceIdeal.RefValue

end
-- ==== Proof.RefValue.lean ====
/- The reference program's result term read index by index: it is the two-pass form of the specification. -/
import proofs.«145796_j17514876633353_1_alg».proof.Proof.RefStats
import proofs.«145796_j17514876633353_1_alg».proof.Proof.RefDown

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Value

/-- The reference's result is the two-pass result of the argument arrays: its normalised logits are the two-pass
    form, and the rest is the downstream function. -/
theorem refTerm_eq (V0 : Valuation τ sig (Elt Ideal)) :
    refTerm V0 = Cert.Vlad.resultTwoPass (V0 (Proc.devRef .tc main_arg0)) (V0 (Proc.devRef .tc main_arg1))
      (V0 (Proc.devRef .tc main_arg2)) (V0 (Proc.devRef .tc main_arg3)) (V0 (Proc.devRef .tc main_arg4)) :=
  refTerm_of_logits V0 _ (z_eq V0)

end Cert.ReferenceIdeal.RefValue

end
-- ==== Proof.SpecAlgebra.lean ====
/- The one law between the two programs: over finite reals the one-pass batch normalisation (variance as
   E[a^2] - mean^2, scale and shift folded) equals the two-pass one (variance as the mean squared deviation). -/
import proofs.«145796_j17514876633353_1_alg».proof.Proof.Spec

noncomputable section

namespace Cert.Vlad

open Idealize.ShloMosaic Idealize.ShloMosaic.ValueIdx

/-- Every entry is a real number. -/
def Finite3 (X : T3) : Prop := ∀ b n d, ∃ r : ℝ, X b n d = (r : EReal)
def Finite2 {p q : Nat} (C : Fin p → Fin q → EReal) : Prop := ∀ i j, ∃ r : ℝ, C i j = (r : EReal)
def Finite1 {p : Nat} (w : Fin p → EReal) : Prop := ∀ i, ∃ r : ℝ, w i = (r : EReal)

/-- The row count word is the real 131072 = 2^17. -/
theorem nTot_eq : nTot = ((131072 : ℝ) : EReal) := by
  simp [Ideal.ofBits, Ideal.ieee]
  rw [← EReal.coe_mul]
  norm_num

/-- The batch-norm epsilon word is a positive real. -/
theorem epsBN_pos : ∃ e : ℝ, 0 < e ∧ epsBN = (e : EReal) := by
  simp [Ideal.ofBits, Ideal.ieee]
  exact ⟨_, by positivity, (EReal.coe_mul _ _).symm⟩

/-- A finite sum of reals, summed as extended reals, is the real sum. -/
theorem coe_sum_real {ι : Type} (s : Finset ι) (f : ι → ℝ) :
    ∑ i ∈ s, ((f i : ℝ) : EReal) = ((∑ i ∈ s, f i : ℝ) : EReal) := by
  classical
  refine Finset.induction_on s ?_ ?_
  · simp
  · intro i t hi ih
    rw [Finset.sum_insert hi, Finset.sum_insert hi, ih, EReal.coe_add]

/-- Over the 64 * 2048 = 131072 rows: the mean squared deviation from the mean is the mean square minus the
    squared mean. -/
theorem real_var_identity (a : Fin 64 → Fin 2048 → ℝ) :
    (∑ b : Fin 64, ∑ n : Fin 2048,
        (a b n - (∑ b : Fin 64, ∑ n : Fin 2048, a b n) * (1 / 131072))
          * (a b n - (∑ b : Fin 64, ∑ n : Fin 2048, a b n) * (1 / 131072))) * (1 / 131072)
      = (∑ b : Fin 64, ∑ n : Fin 2048, a b n * a b n) * (1 / 131072)
          - (∑ b : Fin 64, ∑ n : Fin 2048, a b n) * (1 / 131072)
            * ((∑ b : Fin 64, ∑ n : Fin 2048, a b n) * (1 / 131072)) := by
  generalize hS : (∑ b : Fin 64, ∑ n : Fin 2048, a b n) = S
  generalize hμ : S * (1 / 131072) = μ
  have hexp : ∀ b n, (a b n - μ) * (a b n - μ) = a b n * a b n - 2 * μ * a b n + μ * μ := fun b n => by ring
  have h1 : (∑ b : Fin 64, ∑ n : Fin 2048, (a b n - μ) * (a b n - μ))
      = (∑ b : Fin 64, ∑ n : Fin 2048, a b n * a b n) - 2 * μ * S + 131072 * (μ * μ) := by
    simp only [hexp, Finset.sum_add_distrib, Finset.sum_sub_distrib, ← Finset.mul_sum, hS, Finset.sum_const,
      Finset.card_univ, Fintype.card_fin, nsmul_eq_mul]
    push_cast
    ring
  rw [h1, ← hμ]
  ring

/-- The two forms of the normalised logits agree when x, clusters, the weight and the bias are finite. -/
theorem zOnePass_eq_zTwoPass (X : T3) (C : Fin 512 → Fin 80 → EReal) (w bias : Fin 80 → EReal)
    (hX : Finite3 X) (hC : Finite2 C) (hw : Finite1 w) (hb : Finite1 bias) :
    zOnePass X C w bias = zTwoPass X C w bias := by
  choose xr hxr using hX
  choose cr hcr using hC
  choose wr hwr using hw
  choose br hbr using hb
  obtain ⟨e, he, hepsBN⟩ := epsBN_pos
  -- every logit is the real sum over d of the real products
  have hlogit : ∀ b n k, logit X C b n k = ((∑ d : Fin 512, xr b n d * cr d k : ℝ) : EReal) := by
    intro b n k
    simp only [logit, logitB, hxr, hcr, ← EReal.coe_mul, coe_sum_real]
  funext b n k
  -- the column's real logits, their sum, sum of squares and mean
  generalize ha : (fun (b : Fin 64) (n : Fin 2048) => ∑ d : Fin 512, xr b n d * cr d k) = a
  have hlog : ∀ b n, logit X C b n k = ((a b n : ℝ) : EReal) := by
    intro b n
    rw [hlogit, ← ha]
  have hmean : mean X C k = (((∑ b : Fin 64, ∑ n : Fin 2048, a b n) * (1 / 131072) : ℝ) : EReal) := by
    simp only [mean, colSum, hlog, coe_sum_real]
    rw [nTot_eq, Ideal.div_coe (by norm_num), ← EReal.coe_mul]
  have hvTwo : varTwoPass X C k
      = (((∑ b : Fin 64, ∑ n : Fin 2048,
            (a b n - (∑ b : Fin 64, ∑ n : Fin 2048, a b n) * (1 / 131072))
              * (a b n - (∑ b : Fin 64, ∑ n : Fin 2048, a b n) * (1 / 131072))) * (1 / 131072) : ℝ) : EReal) := by
    simp only [varTwoPass, hlog, hmean, ← EReal.coe_sub, ← EReal.coe_mul, coe_sum_real]
    rw [nTot_eq, Ideal.div_coe (by norm_num), ← EReal.coe_mul]
  have hvOne : varOnePass X C k = varTwoPass X C k := by
    rw [hvTwo, real_var_identity]
    simp only [varOnePass, colSumSq, hlog, hmean, ← EReal.coe_mul, coe_sum_real]
    rw [nTot_eq, Ideal.div_coe (by norm_num), ← EReal.coe_mul, ← EReal.coe_sub]
  -- the variance is a nonnegative real, so its reciprocal square root after adding epsilon is a real
  generalize hv : (∑ b : Fin 64, ∑ n : Fin 2048,
            (a b n - (∑ b : Fin 64, ∑ n : Fin 2048, a b n) * (1 / 131072))
              * (a b n - (∑ b : Fin 64, ∑ n : Fin 2048, a b n) * (1 / 131072))) * (1 / 131072) = v at hvTwo
  have hv0 : 0 ≤ v := by
    rw [← hv]
    refine mul_nonneg (Finset.sum_nonneg fun b _ => Finset.sum_nonneg fun n _ => mul_self_nonneg _) (by norm_num)
  have hpos : 0 < v + e := by linarith
  have hr : Ideal.rsqrt (varTwoPass X C k + epsBN) = (((Real.sqrt (v + e))⁻¹ : ℝ) : EReal) := by
    rw [hvTwo, hepsBN, ← EReal.coe_add, Ideal.rsqrt_coe, if_neg (not_lt.mpr hpos.le), if_neg hpos.ne']
  -- with every letter a real, both sides are one real expression
  show logit X C b n k * (w k * Ideal.rsqrt (varOnePass X C k + epsBN))
        + (bias k - mean X C k * (w k * Ideal.rsqrt (varOnePass X C k + epsBN)))
      = (logit X C b n k - mean X C k) * Ideal.rsqrt (varTwoPass X C k + epsBN) * w k + bias k
  rw [hvOne, hr, hlog, hmean, hwr, hbr]
  simp only [← EReal.coe_mul, ← EReal.coe_sub, ← EReal.coe_add]
  congr 1
  ring

/-- So the two result arrays agree on finite arguments (clusters2 may be anything). -/
theorem resultOnePass_eq_resultTwoPass (a0 : FVec Ideal ⟨3, ![64, 2048, 512]⟩ .f32) (a1 : FVec Ideal ⟨2, ![512, 80]⟩ .f32)
    (a2 : FVec Ideal ⟨3, ![1, 512, 64]⟩ .f32) (a3 a4 : FVec Ideal ⟨1, ![80]⟩ .f32)
    (h0 : ∀ i, ∃ r : ℝ, a0 i = (r : EReal)) (h1 : ∀ i, ∃ r : ℝ, a1 i = (r : EReal))
    (h3 : ∀ i, ∃ r : ℝ, a3 i = (r : EReal)) (h4 : ∀ i, ∃ r : ℝ, a4 i = (r : EReal)) :
    resultOnePass a0 a1 a2 a3 a4 = resultTwoPass a0 a1 a2 a3 a4 := by
  unfold resultOnePass resultTwoPass
  -- the argument arrays read at explicit coordinates are finite entry by entry
  rw [zOnePass_eq_zTwoPass (xOf a0) (cOf a1) (rowOf a3) (rowOf a4)
    (fun b n d => h0 (ix3 b n d)) (fun d k => h1 (ix2 d k)) (fun k => h3 (ix1 k)) (fun k => h4 (ix1 k))]

end Cert.Vlad

end
-- ==== Proof.Finite.lean ====
/- The precondition read back: when the printed predicate (every argument's absolute value below +inf, all conjoined) is
   true, every entry of every argument array is a real number. -/
import proofs.«145796_j17514876633353_1_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Vlad

open Idealize.ShloMosaic Idealize.ShloMosaic.ValueIdx

/-- The rank-0 shape has one index. -/
instance subsingleton_scalarIdx : Subsingleton Cert.Pre_finite_inputs.S_.Idx :=
  ⟨fun a b => funext fun d => d.elim0⟩

/-- The word 0x7F800000 is +inf. -/
theorem posInf_eq_top : Ideal.ofBits .f32 0x7F800000#32 = (⊤ : EReal) := by
  simp [Ideal.ofBits, Ideal.ieee]

/-- An extended real whose absolute value max(x, -x) is strictly below +inf is a real: -inf has absolute value +inf. -/
theorem real_of_abs_lt_posInf (x : EReal)
    (h : Ideal.cmp .olt (max x (-x)) (Ideal.ofBits .f32 0x7F800000#32) = 1#1) : ∃ r : ℝ, x = (r : EReal) := by
  rw [posInf_eq_top] at h
  induction x using EReal.rec with
  | bot => simp [Ideal.cmp] at h
  | coe r => exact ⟨r, rfl⟩
  | top => simp [Ideal.cmp] at h

/-- One argument's conjunct: the all-axes conjunction of |a| < +inf being true makes every entry of a a real. -/
theorem entries_real {s : Shape} {axes : List (Fin s.rank)} (hr : s.ReducesTo axes Cert.Pre_finite_inputs.S_)
    (hu : 0 < Cert.Pre_finite_inputs.S_.numel)
    (hb : Cert.Pre_finite_inputs.S_.BroadcastsInDim s (![] : Fin 0 → Fin s.rank)) (a : FVec Ideal s .f32)
    (e : Host.reduce IntOp.andi
          (cmpf .olt (Host.absf a)
            (broadcastInDim s ![] hb (constant (F := Ideal) Cert.Pre_finite_inputs.S_ .f32 0x7F800000#32)))
          (constantI Cert.Pre_finite_inputs.S_ 1 1#1) hr hu ix0 = 1#1) :
    ∀ i, ∃ r : ℝ, a i = (r : EReal) := by
  intro i
  exact real_of_abs_lt_posInf (a i) (Host.reduce_andi_all _ _ hr hu ix0 e i)

/-- The printed precondition all ones means every entry of the five argument arrays is finite. -/
theorem finite_of_pre [Cert.Pre_finite_inputs.Facts]
    (a0 : FVec Ideal Cert.Pre_finite_inputs.S64x2048x512 .f32) (a1 : FVec Ideal Cert.Pre_finite_inputs.S512x80 .f32)
    (a2 : FVec Ideal Cert.Pre_finite_inputs.S1x512x64 .f32) (a3 a4 : FVec Ideal Cert.Pre_finite_inputs.S80 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h' := congrFun h ix0
  dsimp only [Cert.Pre_finite_inputs.fn, Cert.Pre_finite_inputs.fn_part1] at h'
  -- the result is the conjunction of the five arguments' conjuncts, nested to the left
  obtain ⟨h0123, e4⟩ := IntOp.andi_eq_one.1 h'
  obtain ⟨h012, e3⟩ := IntOp.andi_eq_one.1 h0123
  obtain ⟨h01, e2⟩ := IntOp.andi_eq_one.1 h012
  obtain ⟨e0, e1⟩ := IntOp.andi_eq_one.1 h01
  exact ⟨entries_real _ _ _ a0 e0, entries_real _ _ _ a1 e1, entries_real _ _ _ a2 e2, entries_real _ _ _ a3 e3,
    entries_real _ _ _ a4 e4⟩

end Cert.Vlad

end
-- ==== Proof.lean ====
/- The certificate of a two-kernel pipeline against its array reference, over the extended reals.

   Both programs compute, from x : [64, 2048, 512], clusters : [512, 80], clusters2 : [1, 512, 64] and a batch-norm weight
   and bias : [80]: the logits a = x . clusters over all 131072 rows; a batch normalisation of each of the 80 columns
   over ALL rows; a softmax over the columns, of which the first 64 are kept; per batch b the residual
   vlad = x_b^T . p_b - (column sums of p_b) * clusters2, normalised per column over its 512 rows and then once more by
   its global norm; the result laid out as [64, 32768].
   The kernel program does it in two pallas_calls over the 64 batches. The first streams x once and keeps the running
   column sums of a and a^2 in two scratch rows; at the last batch it folds them into a scale row w * rsqrt(var + eps)
   and a shift row bias - mean * scale with var = E[a^2] - mean^2 (one-pass form). The second streams x again, applies
   a * scale + shift and everything after it to one batch block per grid point. The reference normalises with
   var = mean((a - mean)^2) and (a - mean) * rsqrt(var + eps) * w + bias (two-pass form). The ONE law between the two is
   that over finite reals the two normalisations agree (Proof/SpecAlgebra.lean); it is where the precondition (every
   argument finite) is used. Every float word the programs contain (131072, the two epsilons, -inf) occurs on both sides
   and is never evaluated.

   The frames: each program runs to the end, faults nowhere and leaves its arguments as launched. For the kernel
   program, at either instance, that is the run of its four items (three reshapes, the two regions, the final reshape),
   each region entered from what the item before left (Proof/<program>/Run.lean over Reg0.lean and Reg1.lean: the
   statistics region's invariant carries the two scratch rows at named contents from point to point). For the reference
   it is its generated run with the result dropped. The idealization rewrote nothing, so preserves is trivial.
   The value: the kernel program's result buffer read back through its boundaries is the one-pass form of the
   specification (Proof/KernelIdeal/KernelValue.lean), the reference's result term is the two-pass form
   (Proof/RefValue.lean), and the law joins them. -/
import proofs.«145796_j17514876633353_1_alg».proof.Defs
import proofs.«145796_j17514876633353_1_alg».proof.Proof.Gen.Kernel
import proofs.«145796_j17514876633353_1_alg».proof.Proof.Gen.KernelIdeal
import proofs.«145796_j17514876633353_1_alg».proof.Proof.Gen.ReferenceIdeal
import proofs.«145796_j17514876633353_1_alg».proof.Proof.Gen.Pre_finite_inputs
import proofs.«145796_j17514876633353_1_alg».proof.Proof.Gen.ReferenceIdeal.Run
import proofs.«145796_j17514876633353_1_alg».proof.Proof.Kernel.Run
import proofs.«145796_j17514876633353_1_alg».proof.Proof.KernelIdeal.Run
import proofs.«145796_j17514876633353_1_alg».proof.Proof.KernelIdeal.KernelValue
import proofs.«145796_j17514876633353_1_alg».proof.Proof.RefValue
import proofs.«145796_j17514876633353_1_alg».proof.Proof.SpecAlgebra
import proofs.«145796_j17514876633353_1_alg».proof.Proof.Finite
import Idealize.ShloMosaic.Adequacy
import Idealize.ShloMosaic.Init

noncomputable section

namespace Cert.Proof

open Idealize.ShloMosaic Idealize.ShloMosaic.TcCoe Idealize.SL.Sem

/-- The bit-level kernel program's frame: the run of its four items, the same argument at the other instance. -/
theorem frame_p [Cert.Kernel.Facts] [Cert.Pre_finite_inputs.Facts] : Cert.frame_Kernel :=
  fun m ρ _ => Cert.Kernel.Hand.frame m ρ

/-- The idealized kernel program's frame: the run of its four items. -/
theorem frame_pi [Cert.KernelIdeal.Facts] [Cert.Pre_finite_inputs.Facts] : Cert.frame_KernelIdeal :=
  fun m ρ _ => Cert.KernelIdeal.Hand.frame m ρ

/-- The reference's frame: its generated run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The two idealized programs end with one result: the kernel program's is the one-pass form of the specification at its
    arguments, the reference's the two-pass form at its own, the arguments agree, and on finite arguments the two forms
    are one function. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.Vlad.resultOnePass (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Hand.result_eq m ρ c), (h c).2⟩) (Cert.KernelIdeal.Hand.run_value m ρ)
  · refine (θ_run Cert.ReferenceIdeal.defs _ _).mono (fun _ h c => ⟨(h c).1.trans ?_, (h c).2⟩)
      (Cert.ReferenceIdeal.Value.run (F := Ideal) m' ρ')
    obtain ⟨h0, h1, _, h3, h4⟩ := Cert.Vlad.finite_of_pre _ _ _ _ _ (hpre c)
    refine (Cert.ReferenceIdeal.RefValue.refTerm_eq (StableHlo.launchContents m' c)).trans ?_
    show Cert.Vlad.resultTwoPass (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) = _
    rw [(hagree c).1, (hagree c).2.1, (hagree c).2.2.1, (hagree c).2.2.2.1, (hagree c).2.2.2.2]
    exact (Cert.Vlad.resultOnePass_eq_resultTwoPass _ _ _ _ _ h0 h1 h3 h4).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
